-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : IVec S100000 32) (main_arg9 : FVec F S1 .f32) (main_arg10 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg2 main_v44
  let main_c_17 : IVec S_ 32 := constantI S_ 32 256#32
  let main_v46 : IVec S100000 32 := broadcastInDim S100000 ![] bcast_S_S100000 main_c_17
  let main_v47 : IVec S100000 1 := cmpi .slt main_arg2 main_v46
  let main_v48 : IVec S100000 1 := andi main_v45 main_v47
  let main_c_18 : IVec S_ 1 := constantI S_ 1 1#1
  let main_v49 : IVec S_ 1 := (fun x v => Host.reduce IntOp.andi x v reducesTo_S100000_S_d0 h_S_) main_v48 main_c_18
  let main_v50 : IVec S_ 1 := andi main_v43 main_v49
  main_v50

def fn_part1 {F : FTy → Type} [FloatOps F] (main_arg2 : IVec S100000 32) (main_arg6 : FVec F S1 .f32) (main_arg7 : FVec F S64x64 .f32) (main_arg8 : FVec F S64 .f32) (main_arg9 : FVec F S1 .f32) (main_arg10 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_v33

def fn {F : FTy → Type} [FloatOps F] (main_arg0 : FVec F S100000x64 .f32) (main_arg1 : IVec S2x1200000 32) (main_arg2 : IVec S100000 32) (main_arg3 : FVec F S64x64 .f32) (main_arg4 : FVec F S64 .f32) (main_arg5 : FVec F S1 .f32) (main_arg6 : FVec F S1 .f32) (main_arg7 : FVec F S64x64 .f32) (main_arg8 : FVec F S64 .f32) (main_arg9 : FVec F S1 .f32) (main_arg10 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S20x1x5000 : Shape := ⟨3, ![20, 1, 5000]⟩
abbrev S1x64 : Shape := ⟨2, ![1, 64]⟩
abbrev S1x1 : Shape := ⟨2, ![1, 1]⟩
abbrev S20x256x3 : Shape := ⟨3, ![20, 256, 3]⟩
abbrev S5000x64 : Shape := ⟨2, ![5000, 64]⟩
abbrev S1x1x5000 : Shape := ⟨3, ![1, 1, 5000]⟩
abbrev S1x256x3 : Shape := ⟨3, ![1, 256, 3]⟩
abbrev S1x5000 : Shape := ⟨2, ![1, 5000]⟩
abbrev S5000x1 : Shape := ⟨2, ![5000, 1]⟩
abbrev S1x256 : Shape := ⟨2, ![1, 256]⟩
abbrev S5000x256 : Shape := ⟨2, ![5000, 256]⟩
abbrev S5000 : Shape := ⟨1, ![5000]⟩
abbrev S5000x3 : Shape := ⟨2, ![5000, 3]⟩
abbrev S256x3 : Shape := ⟨2, ![256, 3]⟩
abbrev S256x1 : Shape := ⟨2, ![256, 1]⟩
abbrev S256 : Shape := ⟨1, ![256]⟩
abbrev S20x256x2 : Shape := ⟨3, ![20, 256, 2]⟩
abbrev S1x256x2 : Shape := ⟨3, ![1, 256, 2]⟩
abbrev S5000x2 : Shape := ⟨2, ![5000, 2]⟩
abbrev S256x2 : Shape := ⟨2, ![256, 2]⟩
abbrev S20x256x64 : Shape := ⟨3, ![20, 256, 64]⟩
abbrev S1x256x64 : Shape := ⟨3, ![1, 256, 64]⟩
abbrev S256x64 : Shape := ⟨2, ![256, 64]⟩

abbrev nBuf : Space → Nat
  | .hbm => 104
  | .vmem => 40
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S1, .f32⟩
  | .hbm, ⟨6, _⟩ => ⟨S1, .f32⟩
  | .hbm, ⟨7, _⟩ => ⟨S64x64, .f32⟩
  | .hbm, ⟨8, _⟩ => ⟨S64, .f32⟩
  | .hbm, ⟨9, _⟩ => ⟨S1, .f32⟩
  | .hbm, ⟨10, _⟩ => ⟨S1, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S20x1x5000, .i32⟩
  | .hbm, ⟨29, _⟩ => ⟨S1x64, .f32⟩
  | .hbm, ⟨30, _⟩ => ⟨S1x64, .f32⟩
  | .hbm, ⟨31, _⟩ => ⟨S1x1, .f32⟩
  | .hbm, ⟨32, _⟩ => ⟨S1x1, .f32⟩
  | .hbm, ⟨33, _⟩ => ⟨S1x1, .f32⟩
  | .hbm, ⟨34, _⟩ => ⟨S1x1, .f32⟩
  | .hbm, ⟨35, _⟩ => ⟨S100000x64, .f32⟩
  | .hbm, ⟨36, _⟩ => ⟨S20x256x3, .f32⟩
  | .hbm, ⟨37, _⟩ => ⟨S_, .f32⟩
  | .hbm, ⟨38, _⟩ => ⟨S256x3, .f32⟩
  | .hbm, ⟨39, _⟩ => ⟨S256x1, .f32⟩
  | .hbm, ⟨40, _⟩ => ⟨S256, .f32⟩
  | .hbm, ⟨41, _⟩ => ⟨S256x1, .f32⟩
  | .hbm, ⟨42, _⟩ => ⟨S256, .f32⟩
  | .hbm, ⟨43, _⟩ => ⟨S256x1, .f32⟩
  | .hbm, ⟨44, _⟩ => ⟨S256, .f32⟩
  | .hbm, ⟨45, _⟩ => ⟨S_, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S1x256, .f32⟩
  | .hbm, ⟨65, _⟩ => ⟨S100000x64, .f32⟩
  | .hbm, ⟨66, _⟩ => ⟨S20x256x2, .f32⟩
  | .hbm, ⟨67, _⟩ => ⟨S_, .f32⟩
  | .hbm, ⟨68, _⟩ => ⟨S256x2, .f32⟩
  | .hbm, ⟨69, _⟩ => ⟨S256x1, .f32⟩
  | .hbm, ⟨70, _⟩ => ⟨S256, .f32⟩
  | .hbm, ⟨71, _⟩ => ⟨S256x1, .f32⟩
  | .hbm, ⟨72, _⟩ => ⟨S256, .f32⟩
  | .hbm, ⟨73, _⟩ => ⟨S_, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S_, .f32⟩
  | .hbm, ⟨85, _⟩ => ⟨S256, .f32⟩
  | .hbm, ⟨86, _⟩ => ⟨S256, .f32⟩
  | .hbm, ⟨87, _⟩ => ⟨S_, .f32⟩
  | .hbm, ⟨88, _⟩ => ⟨S256, .f32⟩
  | .hbm, ⟨89, _⟩ => ⟨S256, .f32⟩
  | .hbm, ⟨90, _⟩ => ⟨S256, .f32⟩
  | .hbm, ⟨91, _⟩ => ⟨S1x256, .f32⟩
  | .hbm, ⟨92, _⟩ => ⟨S1x256, .f32⟩
  | .hbm, ⟨93, _⟩ => ⟨S100000x64, .f32⟩
  | .hbm, ⟨94, _⟩ => ⟨S20x256x64, .f32⟩
  | .hbm, ⟨95, _⟩ => ⟨S_, .f32⟩
  | .hbm, ⟨96, _⟩ => ⟨S256x64, .f32⟩
  | .hbm, ⟨97, _⟩ => ⟨S_, .f32⟩
  | .hbm, ⟨98, _⟩ => ⟨S_, .f32⟩
  | .hbm, ⟨99, _⟩ => ⟨S256, .f32⟩
  | .hbm, ⟨100, _⟩ => ⟨S256, .f32⟩
  | .hbm, ⟨101, _⟩ => ⟨S256x1, .f32⟩
  | .hbm, ⟨102, _⟩ => ⟨S256x64, .f32⟩
  | .hbm, ⟨103, _⟩ => ⟨S256x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S1x1x5000, .i32⟩
  | .local _ .vmem, ⟨5, _⟩ => ⟨S1x1x5000, .i32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x256x3, .f32⟩
  | .local _ .vmem, ⟨11, _⟩ => ⟨S1x256x3, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x1x5000, .i32⟩
  | .local _ .vmem, ⟨17, _⟩ => ⟨S1x1x5000, .i32⟩
  | .local _ .vmem, ⟨18, _⟩ => ⟨S1x256, .f32⟩
  | .local _ .vmem, ⟨19, _⟩ => ⟨S1x256, .f32⟩
  | .local _ .vmem, ⟨20, _⟩ => ⟨S1x1, .f32⟩
  | .local _ .vmem, ⟨21, _⟩ => ⟨S1x1, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S1x256x2, .f32⟩
  | .local _ .vmem, ⟨27, _⟩ => ⟨S1x256x2, .f32⟩
  | .local _ .vmem, ⟨28, _⟩ => ⟨S5000x64, .f32⟩
  | .local _ .vmem, ⟨29, _⟩ => ⟨S5000x64, .f32⟩
  | .local _ .vmem, ⟨30, _⟩ => ⟨S1x1x5000, .i32⟩
  | .local _ .vmem, ⟨31, _⟩ => ⟨S1x1x5000, .i32⟩
  | .local _ .vmem, ⟨32, _⟩ => ⟨S1x256, .f32⟩
  | .local _ .vmem, ⟨33, _⟩ => ⟨S1x256, .f32⟩
  | .local _ .vmem, ⟨34, _⟩ => ⟨S1x1, .f32⟩
  | .local _ .vmem, ⟨35, _⟩ => ⟨S1x1, .f32⟩
  | .local _ .vmem, ⟨36, _⟩ => ⟨S5000x64, .f32⟩
  | .local _ .vmem, ⟨37, _⟩ => ⟨S5000x64, .f32⟩
  | .local _ .vmem, ⟨38, _⟩ => ⟨S1x256x64, .f32⟩
  | .local _ .vmem, ⟨39, _⟩ => ⟨S1x256x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_call1_v0 : Ref sig .tc := ⟨.hbm, 74, rfl⟩
abbrev main_call1_v1 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63_0 : Ref sig .tc := ⟨.hbm, 93, rfl⟩
abbrev main_v63_1 : Ref sig .tc := ⟨.hbm, 94, rfl⟩
abbrev main_cst_11 : Ref sig .tc := ⟨.hbm, 95, rfl⟩
abbrev main_v64 : Ref sig .tc := ⟨.hbm, 96, rfl⟩
abbrev main_cst_12 : Ref sig .tc := ⟨.hbm, 97, rfl⟩
abbrev main_call2_v0 : Ref sig .tc := ⟨.hbm, 98, rfl⟩
abbrev main_call2_v1 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x5000 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x256x2 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x5000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S100000_S20x1x5000 : S100000.ShapeCasts S20x1x5000
  shapeCasts_S64_S1x64 : S64.ShapeCasts S1x64
  shapeCasts_S1_S1x1 : S1.ShapeCasts S1x1
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  transposes_S1x5000_p1_0_S5000x1 : S1x5000.Transposes [1, 0] S5000x1
  iota_S1x256_d1_w32 : S1x256.Iotas .tc 32 [1]
  broadcasts_S5000x1_S5000x256 : S5000x1.Broadcasts S5000x256
  broadcasts_S1x256_S5000x256 : S1x256.Broadcasts S5000x256
  natLt_1_32 : 1 < 32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  concatenates_S5000x1_S5000x1_S5000x1_S5000x3_d1 : Shape.Concatenates [S5000x1, S5000x1, S5000x1] S5000x3 1
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  reducesTo_S20x256x3_S256x3_d0 : S20x256x3.ReducesTo [0] S256x3
  h_S_ : 0 < S_.numel
  slices_S256x3_S256x1_0_0 : S256x3.Slices ![0, 0] S256x1
  shapeCasts_S256x1_S256 : S256x1.ShapeCasts S256
  slices_S256x3_S256x1_0_1 : S256x3.Slices ![0, 1] S256x1
  slices_S256x3_S256x1_0_2 : S256x3.Slices ![0, 2] S256x1
  bcast_S_S256 : S_.BroadcastsInDim S256 (![] : Fin 0 → Fin S256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S5000x256_S5000 : S5000x256.Reduces [1] S5000
  broadcasts_S5000x1_S5000x64 : S5000x1.Broadcasts S5000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x64 : S1x1.Broadcasts S5000x64
  concatenates_S5000x1_S5000x1_S5000x2_d1 : Shape.Concatenates [S5000x1, S5000x1] S5000x2 1
  inb_S1x256x2_S1x256x2_0_0_0 : ∀ a, (![0, 0, 0] : Fin 3 → Nat) a + S1x256x2.size a ≤ S1x256x2.size a
  h_S1x256x2 : 0 < S1x256x2.numel
  shapeCasts_S1x256x2_S256x2 : S1x256x2.ShapeCasts S256x2
  shapeCasts_S256x2_S1x256x2 : S256x2.ShapeCasts S1x256x2
  reducesTo_S20x256x2_S256x2_d0 : S20x256x2.ReducesTo [0] S256x2
  slices_S256x2_S256x1_0_0 : S256x2.Slices ![0, 0] S256x1
  slices_S256x2_S256x1_0_1 : S256x2.Slices ![0, 1] S256x1
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  reducesTo_S20x256x64_S256x64_d0 : S20x256x64.ReducesTo [0] S256x64
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x256_S5000x3_S256x3_0_0_1_1_n_n_wf : DotDims.WF S5000x256 S5000x3 S256x3 [0] [0] [1] [1] [] []
  dot_S5000x256_S5000x2_S256x2_0_0_1_1_n_n_wf : DotDims.WF S5000x256 S5000x2 S256x2 [0] [0] [1] [1] [] []
  dot_S5000x256_S5000x64_S256x64_0_0_1_1_n_n_wf : DotDims.WF S5000x256 S5000x64 S256x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5000.size a ≤ S20x1x5000.size a
  hwx0_2 : ∀ i : grid0.Coords, EltTy.bits .i32 = 32 ∨ (Rect.block (s := S20x1x5000) S1x1x5000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x3.size a ≤ S20x256x3.size a
  hwx0_6 : ∀ i : grid0.Coords, EltTy.bits .f32 = 32 ∨ (Rect.block (s := S20x256x3) S1x256x3.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x5000.size a ≤ S20x1x5000.size a
  hwx1_2 : ∀ i : grid1.Coords, EltTy.bits .i32 = 32 ∨ (Rect.block (s := S20x1x5000) S1x1x5000.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256x2.size a ≤ S20x256x2.size a
  hwx1_10 : ∀ i : grid1.Coords, EltTy.bits .f32 = 32 ∨ (Rect.block (s := S20x256x2) S1x256x2.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x5000.size a ≤ S20x1x5000.size a
  hwx2_1 : ∀ i : grid2.Coords, EltTy.bits .i32 = 32 ∨ (Rect.block (s := S20x1x5000) S1x1x5000.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256x64.size a ≤ S20x256x64.size a
  hwx2_7 : ∀ i : grid2.Coords, EltTy.bits .f32 = 32 ∨ (Rect.block (s := S20x256x64) S1x256x64.size (cc2_transform_7 i) (hinb2_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x3_S256x3_0_0_1_1_n_n : DotDims S5000x256 S5000x3 S256x3 where
  lhsContracting := [0]
  rhsContracting := [0]
  lhsNonContracting := [1]
  rhsNonContracting := [1]
  lhsBatch := []
  rhsBatch := []
  wf := dot_S5000x256_S5000x3_S256x3_0_0_1_1_n_n_wf
def dot_S5000x256_S5000x2_S256x2_0_0_1_1_n_n : DotDims S5000x256 S5000x2 S256x2 where
  lhsContracting := [0]
  rhsContracting := [0]
  lhsNonContracting := [1]
  rhsNonContracting := [1]
  lhsBatch := []
  rhsBatch := []
  wf := dot_S5000x256_S5000x2_S256x2_0_0_1_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1x5000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x256x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1x5000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43_0) S5000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v43_1) S1x256x2.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v43_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x1x5000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v63_1) S1x256x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S256 : Shape := ⟨1, ![256]⟩
abbrev S100000x1 : Shape := ⟨2, ![100000, 1]⟩
abbrev S256x64 : Shape := ⟨2, ![256, 64]⟩
abbrev S1x1 : Shape := ⟨2, ![1, 1]⟩
abbrev S256x1 : Shape := ⟨2, ![256, 1]⟩

abbrev nBuf : Space → Nat
  | .hbm => 194
  | .vmem => 0
  | .smem => 0
  | _ => 0

abbrev hbmTy0_0 (i : Nat) : BufTy := match i % 128 with
  | 0 => ⟨S100000x64, .f32⟩
  | 1 => ⟨S2x1200000, .i32⟩
  | 2 => ⟨S100000, .i32⟩
  | 3 => ⟨S64x64, .f32⟩
  | 4 => ⟨S64, .f32⟩
  | 5 => ⟨S1, .f32⟩
  | 6 => ⟨S1, .f32⟩
  | 7 => ⟨S64x64, .f32⟩
  | 8 => ⟨S64, .f32⟩
  | 9 => ⟨S1, .f32⟩
  | 10 => ⟨S1, .f32⟩
  | 11 => ⟨S1x1200000, .i32⟩
  | 12 => ⟨S1200000, .i32⟩
  | 13 => ⟨S1x1200000, .i32⟩
  | 14 => ⟨S1200000, .i32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x64, .f32⟩
  | 24 => ⟨S_, .f32⟩
  | 25 => ⟨S100000x64, .f32⟩
  | 26 => ⟨S1200000x1, .i32⟩
  | 27 => ⟨S100000x64, .f32⟩
  | 28 => ⟨S_, .f32⟩
  | 29 => ⟨S100000x64, .f32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000, .f32⟩
  | 38 => ⟨S_, .f32⟩
  | 39 => ⟨S256, .f32⟩
  | 40 => ⟨S100000x1, .i32⟩
  | 41 => ⟨S256, .f32⟩
  | 42 => ⟨S_, .f32⟩
  | 43 => ⟨S_, .f32⟩
  | 44 => ⟨S256, .f32⟩
  | 45 => ⟨S256, .f32⟩
  | 46 => ⟨S_, .f32⟩
  | 47 => ⟨S256, .f32⟩
  | 48 => ⟨S256, .f32⟩
  | 49 => ⟨S_, .f32⟩
  | 50 => ⟨S256x64, .f32⟩
  | 51 => ⟨S100000x1, .i32⟩
  | 52 => ⟨S256x64, .f32⟩
  | 53 => ⟨S_, .f32⟩
  | 54 => ⟨S256, .f32⟩
  | 55 => ⟨S256, .f32⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S_, .f32⟩
  | 70 => ⟨S256x64, .f32⟩
  | 71 => ⟨S100000x1, .i32⟩
  | 72 => ⟨S256x64, .f32⟩
  | 73 => ⟨S_, .f32⟩
  | 74 => ⟨S256, .f32⟩
  | 75 => ⟨S256, .f32⟩
  | 76 => ⟨S_, .f32⟩
  | 77 => ⟨S256, .f32⟩
  | 78 => ⟨S256, .f32⟩
  | 79 => ⟨S256, .f32⟩
  | 80 => ⟨S_, .f32⟩
  | 81 => ⟨S256, .f32⟩
  | 82 => ⟨S256, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000, .f32⟩
  | 92 => ⟨S100000x1, .f32⟩
  | 93 => ⟨S100000x64, .f32⟩
  | 94 => ⟨S100000x64, .f32⟩
  | 95 => ⟨S1x1, .f32⟩
  | 96 => ⟨S100000x64, .f32⟩
  | 97 => ⟨S100000x64, .f32⟩
  | 98 => ⟨S1x1, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000, .f32⟩
  | 111 => ⟨S_, .f32⟩
  | 112 => ⟨S256, .f32⟩
  | 113 => ⟨S100000x1, .i32⟩
  | 114 => ⟨S256, .f32⟩
  | 115 => ⟨S_, .f32⟩
  | 116 => ⟨S_, .f32⟩
  | 117 => ⟨S256, .f32⟩
  | 118 => ⟨S256, .f32⟩
  | 119 => ⟨S_, .f32⟩
  | 120 => ⟨S256, .f32⟩
  | 121 => ⟨S256, .f32⟩
  | 122 => ⟨S_, .f32⟩
  | 123 => ⟨S256x64, .f32⟩
  | 124 => ⟨S100000x1, .i32⟩
  | 125 => ⟨S256x64, .f32⟩
  | 126 => ⟨S_, .f32⟩
  | 127 => ⟨S256, .f32⟩
  | _ => ⟨S100000x64, .f32⟩

abbrev hbmTy0_1 (i : Nat) : BufTy := match i % 128 with
  | 0 => ⟨S256, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000, .f32⟩
  | 10 => ⟨S100000x1, .f32⟩
  | 11 => ⟨S100000x64, .f32⟩
  | 12 => ⟨S100000x64, .f32⟩
  | 13 => ⟨S100000x64, .f32⟩
  | 14 => ⟨S_, .f32⟩
  | 15 => ⟨S256x64, .f32⟩
  | 16 => ⟨S100000x1, .i32⟩
  | 17 => ⟨S256x64, .f32⟩
  | 18 => ⟨S_, .f32⟩
  | 19 => ⟨S256, .f32⟩
  | 20 => ⟨S256, .f32⟩
  | 21 => ⟨S_, .f32⟩
  | 22 => ⟨S256, .f32⟩
  | 23 => ⟨S256, .f32⟩
  | 24 => ⟨S256, .f32⟩
  | 25 => ⟨S_, .f32⟩
  | 26 => ⟨S256, .f32⟩
  | 27 => ⟨S256, .f32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000, .f32⟩
  | 37 => ⟨S100000x1, .f32⟩
  | 38 => ⟨S100000x64, .f32⟩
  | 39 => ⟨S100000x64, .f32⟩
  | 40 => ⟨S1x1, .f32⟩
  | 41 => ⟨S100000x64, .f32⟩
  | 42 => ⟨S100000x64, .f32⟩
  | 43 => ⟨S1x1, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .f32⟩
  | 50 => ⟨S100000, .f32⟩
  | 51 => ⟨S_, .f32⟩
  | 52 => ⟨S256, .f32⟩
  | 53 => ⟨S100000x1, .i32⟩
  | 54 => ⟨S256, .f32⟩
  | 55 => ⟨S_, .f32⟩
  | 56 => ⟨S256x64, .f32⟩
  | 57 => ⟨S100000x1, .i32⟩
  | 58 => ⟨S256x64, .f32⟩
  | 59 => ⟨S_, .f32⟩
  | 60 => ⟨S_, .f32⟩
  | 61 => ⟨S256, .f32⟩
  | 62 => ⟨S256, .f32⟩
  | 63 => ⟨S256x1, .f32⟩
  | 64 => ⟨S256x64, .f32⟩
  | 65 => ⟨S256x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_c_15 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call1_cst : Ref sig .tc := ⟨.hbm, 101, rfl⟩
abbrev main_call1_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_18 : Ref sig .tc := ⟨.hbm, 115, rfl⟩
abbrev main_call2_v0 : Ref sig .tc := ⟨.hbm, 116, rfl⟩
abbrev main_call2_v1 : Ref sig .tc := ⟨.hbm, 117, rfl⟩
abbrev main_v80 : Ref sig .tc := ⟨.hbm, 118, rfl⟩
abbrev main_cst_19 : Ref sig .tc := ⟨.hbm, 119, rfl⟩
abbrev main_v81 : Ref sig .tc := ⟨.hbm, 120, rfl⟩
abbrev main_v82 : Ref sig .tc := ⟨.hbm, 121, rfl⟩
abbrev main_cst_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_21 : Ref sig .tc := ⟨.hbm, 126, rfl⟩
abbrev main_v86 : Ref sig .tc := ⟨.hbm, 127, rfl⟩
abbrev main_v87 : Ref sig .tc := ⟨.hbm, 128, rfl⟩
abbrev main_c_22 : Ref sig .tc := ⟨.hbm, 129, rfl⟩
abbrev main_v88 : Ref sig .tc := ⟨.hbm, 130, rfl⟩
abbrev main_v89 : Ref sig .tc := ⟨.hbm, 131, rfl⟩
abbrev main_c_23 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_24 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_25 : Ref sig .tc := ⟨.hbm, 146, rfl⟩
abbrev main_v102 : Ref sig .tc := ⟨.hbm, 147, rfl⟩
abbrev main_v103 : Ref sig .tc := ⟨.hbm, 148, rfl⟩
abbrev main_cst_26 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_27 : Ref sig .tc := ⟨.hbm, 153, rfl⟩
abbrev main_v107 : Ref sig .tc := ⟨.hbm, 154, rfl⟩
abbrev main_v108 : Ref sig .tc := ⟨.hbm, 155, rfl⟩
abbrev main_c_28 : Ref sig .tc := ⟨.hbm, 156, rfl⟩
abbrev main_v109 : Ref sig .tc := ⟨.hbm, 157, rfl⟩
abbrev main_v110 : Ref sig .tc := ⟨.hbm, 158, rfl⟩
abbrev main_c_29 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_call3_cst : Ref sig .tc := ⟨.hbm, 174, rfl⟩
abbrev main_call3_v0 : Ref sig .tc := ⟨.hbm, 175, rfl⟩
abbrev main_v125 : Ref sig .tc := ⟨.hbm, 176, rfl⟩
abbrev main_cst_30 : Ref sig .tc := ⟨.hbm, 177, rfl⟩
abbrev main_v126 : Ref sig .tc := ⟨.hbm, 178, rfl⟩
abbrev main_cst_31 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_32 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_33 : Ref sig .tc := ⟨.hbm, 187, rfl⟩
abbrev main_call4_v0 : Ref sig .tc := ⟨.hbm, 188, rfl⟩
abbrev main_call4_v1 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  bcast_S_S256x64 : S_.BroadcastsInDim S256x64 (![] : Fin 0 → Fin S256x64.rank)
  reducesTo_S256x64_S256_d1 : S256x64.ReducesTo [1] S256
  h_S_ : 0 < S_.numel
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S256_S100000x1_S100000_n_0_0_1_wf : ScatterDims.WF S256 S100000x1 S100000 [] [0] [0] 1
  scatter_S256x64_S100000x1_S100000x64_1_0_0_1_wf : ScatterDims.WF S256x64 S100000x1 S100000x64 [1] [0] [0] 1
  gather_S256_S100000x1_S100000_n_0_n_n_0_1_1_wf : GatherDims.WF S256 S100000x1 S100000 [] [0] [] [0] [] 1 ![1]

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def gather_S256_S100000x1_S100000_n_0_n_n_0_1_1 : GatherDims S256 S100000x1 S100000 where
  offsetDims := []
  collapsedSliceDims := [0]
  operandBatchingDims := []
  startIndicesBatchingDims := []
  startIndexMap := [0]
  indexVectorDim := 1
  sliceSizes := ![1]
  wf := gather_S256_S100000x1_S100000_n_0_n_n_0_1_1_wf

class Facts : Prop extends Facts₀ where

variable [Facts]
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.Spec.lean ====
/-
  The mathematics of one graph-network layer, as two formulas over plain indices in the extended reals.

  A node table `x` of 100000 rows and 64 channels, each node in one of 256 graphs (its graph id a 32-bit word), an
  aggregate table `a` of the same shape. The layer is: the affine map (2·x + a)·W + b; a layer norm PER GRAPH over all
  nodes and channels of the graph (mean, variance, scale by the inverse deviation, one scalar gain and bias), clamped
  below at zero; the residual x + that; a second affine map; a second per-graph norm, clamped; and the mean of the
  result over each graph's nodes.

  The two formulas differ in how they sum and in how they take the variance:
  * "by tiles": the nodes are cut in 20 tiles of 5000; a per-graph sum is, per tile, the sum over the tile's rows of
    (1 if the row's id is g else 0) times the row's value, then the sum of the 20 tile parts; a per-node value of a
    per-graph table is the sum over g of (1 if the node's id is g else 0) times the table's entry; the variance is
    the mean of squares minus the square of the mean, clamped below at zero; the scale is the reciprocal square root.
  * "by segments": a per-graph sum runs over the nodes whose id, read signed, is g; a per-node value of a per-graph
    table is the entry at the node's id (a negative id wrapped by 256, then clamped into 0 … 255); the variance is
    the mean of squared deviations from the mean; the scale is one over the square root.
-/
import Idealize.ShloMosaic.PureOps.Ideal
import proofs.«409760_j63745904607323_2_alg».proof.Proof.LibClamp

open scoped BigOperators

noncomputable section

namespace Cert.Spec

open Idealize.ShloMosaic Cert.LibClamp

/-- A table of extended reals. -/
abbrev Mat (n k : Nat) := Fin n → Fin k → EReal
/-- A graph id per node. -/
abbrev Ids := Fin 100000 → BitVec 32

/-- The small positive number added to a variance before the root: the float word 9.99999974E-6. -/
def eps : EReal := Ideal.ofBits .f32 0x3727C5AC#32

/-- Row `r` of tile `t`: node 5000·t + r. -/
def nodeOf (t : Fin 20) (r : Fin 5000) : Fin 100000 := ⟨5000 * t.val + r.val, by have := t.isLt; have := r.isLt; omega⟩

/-! ## The affine maps -/

/-- (2·x + a)·W + b. -/
def gin (x a : Mat 100000 64) (W : Mat 64 64) (b : Fin 64 → EReal) : Mat 100000 64 :=
  fun n c => (∑ k : Fin 64, (2 * x n k + a n k) * W k c) + b c

/-- x·W + b. -/
def ffn (x : Mat 100000 64) (W : Mat 64 64) (b : Fin 64 → EReal) : Mat 100000 64 :=
  fun n c => (∑ k : Fin 64, x n k * W k c) + b c

/-- A row's sum, and the sum of its squares. -/
def rowSum (h : Mat 100000 64) (n : Fin 100000) : EReal := ∑ c : Fin 64, h n c
def rowSq (h : Mat 100000 64) (n : Fin 100000) : EReal := ∑ c : Fin 64, h n c * h n c

/-! ## By tiles -/

/-- 1 if node `n`'s id is the word `g`, else 0. -/
def oh (bt : Ids) (n : Fin 100000) (g : Fin 256) : EReal := if bt n = BitVec.ofNat 32 g.val then 1 else 0

/-- One tile's part of a per-graph sum of a per-node value. -/
def tilePart (bt : Ids) (f : Fin 100000 → EReal) (t : Fin 20) (g : Fin 256) : EReal :=
  ∑ r : Fin 5000, oh bt (nodeOf t r) g * f (nodeOf t r)

/-- The per-graph sum: the 20 tile parts added. -/
def tileTotal (bt : Ids) (f : Fin 100000 → EReal) (g : Fin 256) : EReal := ∑ t : Fin 20, tilePart bt f t g

/-- Nodes per graph, and the norm's divisor max(1, count)·64. -/
def cntT (bt : Ids) (g : Fin 256) : EReal := tileTotal bt (fun _ => 1) g
def nrmT (bt : Ids) (g : Fin 256) : EReal := max 1 (cntT bt g) * 64

def meanT (bt : Ids) (h : Mat 100000 64) (g : Fin 256) : EReal := Ideal.div (tileTotal bt (rowSum h) g) (nrmT bt g)
/-- Mean of squares minus square of the mean, clamped at zero. -/
def varT (bt : Ids) (h : Mat 100000 64) (g : Fin 256) : EReal :=
  max (Ideal.div (tileTotal bt (rowSq h) g) (nrmT bt g) - meanT bt h g * meanT bt h g) 0
def invT (bt : Ids) (h : Mat 100000 64) (g : Fin 256) : EReal := Ideal.rsqrt (varT bt h g + eps)

/-- A per-graph table read at a node through the 0/1 row. -/
def pickT (bt : Ids) (v : Fin 256 → EReal) (n : Fin 100000) : EReal := ∑ g : Fin 256, oh bt n g * v g

/-- The per-graph norm with gain `w` and bias `β`, clamped below at zero. -/
def lnT (bt : Ids) (h : Mat 100000 64) (w β : EReal) : Mat 100000 64 :=
  fun n c => max ((h n c - pickT bt (meanT bt h) n) * pickT bt (invT bt h) n * w + β) 0

/-- The per-graph mean of the rows. -/
def poolT (bt : Ids) (y : Mat 100000 64) : Mat 256 64 :=
  fun g c => Ideal.div (tileTotal bt (fun n => y n c) g) (max 1 (cntT bt g))

/-- The whole layer by tiles: the node table after both norms, and its per-graph means. -/
def h1T (x a : Mat 100000 64) (Wg : Mat 64 64) (bg : Fin 64 → EReal) : Mat 100000 64 := gin x a Wg bg
def x1T (bt : Ids) (x a : Mat 100000 64) (Wg : Mat 64 64) (bg : Fin 64 → EReal) (w1 b1 : EReal) : Mat 100000 64 :=
  fun n c => x n c + lnT bt (h1T x a Wg bg) w1 b1 n c
def outT (bt : Ids) (x a : Mat 100000 64) (Wg : Mat 64 64) (bg : Fin 64 → EReal) (w1 b1 : EReal)
    (Wf : Mat 64 64) (bf : Fin 64 → EReal) (w2 b2 : EReal) : Mat 100000 64 :=
  lnT bt (ffn (x1T bt x a Wg bg w1 b1) Wf bf) w2 b2

/-! ## By segments -/

/-- Node `n` is in graph `g`: its id, read signed, is g. -/
def inSeg (bt : Ids) (g : Fin 256) (n : Fin 100000) : Prop := (bt n).toInt = (g.val : ℤ)

instance (bt : Ids) (g : Fin 256) : DecidablePred (inSeg bt g) := fun _ => by unfold inSeg; infer_instance

/-- The per-graph sum of a per-node value over the graph's nodes. -/
def segTotal (bt : Ids) (f : Fin 100000 → EReal) (g : Fin 256) : EReal := ∑ n ∈ Finset.univ.filter (inSeg bt g), f n

def cntS (bt : Ids) (g : Fin 256) : EReal := segTotal bt (fun _ => 1) g
def nrmS (bt : Ids) (g : Fin 256) : EReal := max 1 (cntS bt g) * 64

/-- A negative id wrapped by 256, then clamped into 0 … 255: the graph whose table entry node `n` reads. -/
def graphOf (bt : Ids) (n : Fin 100000) : Fin 256 :=
  clampTo 256 (by decide) (if (bt n).slt 0#32 then bt n + 256#32 else bt n)

/-- Channel by channel, then over the channels. -/
def meanS (bt : Ids) (h : Mat 100000 64) (g : Fin 256) : EReal :=
  Ideal.div (∑ c : Fin 64, segTotal bt (fun n => h n c) g) (nrmS bt g)
/-- Mean of squared deviations. -/
def varS (bt : Ids) (h : Mat 100000 64) (g : Fin 256) : EReal :=
  Ideal.div (∑ c : Fin 64, segTotal bt (fun n => (h n c - meanS bt h (graphOf bt n)) * (h n c - meanS bt h (graphOf bt n))) g)
    (nrmS bt g)
def invS (bt : Ids) (h : Mat 100000 64) (g : Fin 256) : EReal := Ideal.div 1 (Ideal.sqrt (varS bt h g + eps))

def lnS (bt : Ids) (h : Mat 100000 64) (w β : EReal) : Mat 100000 64 :=
  fun n c => max ((h n c - meanS bt h (graphOf bt n)) * invS bt h (graphOf bt n) * w + β) 0

def poolS (bt : Ids) (y : Mat 100000 64) : Mat 256 64 :=
  fun g c => Ideal.div (segTotal bt (fun n => y n c) g) (max 1 (cntS bt g))

def x1S (bt : Ids) (x a : Mat 100000 64) (Wg : Mat 64 64) (bg : Fin 64 → EReal) (w1 b1 : EReal) : Mat 100000 64 :=
  fun n c => x n c + lnS bt (gin x a Wg bg) w1 b1 n c
def outS (bt : Ids) (x a : Mat 100000 64) (Wg : Mat 64 64) (bg : Fin 64 → EReal) (w1 b1 : EReal)
    (Wf : Mat 64 64) (bf : Fin 64 → EReal) (w2 b2 : EReal) : Mat 100000 64 :=
  lnS bt (ffn (x1S bt x a Wg bg w1 b1) Wf bf) w2 b2

/-! ## The aggregate table -/

/-- A source id wrapped by 100000 when negative, then clamped into the rows. -/
def srcOf (src : Fin 1200000 → BitVec 32) (e : Fin 1200000) : Fin 100000 :=
  clampTo 100000 (by decide) (if (src e).slt 0#32 then src e + 100000#32 else src e)

/-- Row n of the aggregate: the sum of the source rows of the edges whose target id, read signed, is n. -/
def agg (x : Mat 100000 64) (src dst : Fin 1200000 → BitVec 32) : Mat 100000 64 :=
  fun n c => ∑ e ∈ Finset.univ.filter (fun e : Fin 1200000 => (dst e).toInt = (n.val : ℤ)), x (srcOf src e) c

end Cert.Spec

end
-- ==== Proof.Args.lean ====
/-
  The eleven argument arrays of the layer as one record, read as the plain tables the two formulas are written over,
  and the two facts the precondition gives about them: every float entry is a real number, and every graph id is one of
  0 … 255. Both programs' results are stated as functions of such a record.
-/
import Idealize.ShloMosaic.Lib.ValueIdx
import proofs.«409760_j63745904607323_2_alg».proof.Proof.Spec

noncomputable section

namespace Cert

open Idealize.ShloMosaic Idealize.ShloMosaic.ValueIdx

/-- The argument arrays at the extended reals: the node table, the edge list (row 0 sources, row 1 targets), the graph
    ids, the two weight matrices with their bias rows, and the two norms' scalar gain and bias. -/
structure Args where
  x  : FVec Ideal ⟨2, ![100000, 64]⟩ .f32
  ei : IVec ⟨2, ![2, 1200000]⟩ 32
  bt : IVec ⟨1, ![100000]⟩ 32
  Wg : FVec Ideal ⟨2, ![64, 64]⟩ .f32
  bg : FVec Ideal ⟨1, ![64]⟩ .f32
  w1 : FVec Ideal ⟨1, ![1]⟩ .f32
  b1 : FVec Ideal ⟨1, ![1]⟩ .f32
  Wf : FVec Ideal ⟨2, ![64, 64]⟩ .f32
  bf : FVec Ideal ⟨1, ![64]⟩ .f32
  w2 : FVec Ideal ⟨1, ![1]⟩ .f32
  b2 : FVec Ideal ⟨1, ![1]⟩ .f32

namespace Args

variable (A : Args)

def X : Spec.Mat 100000 64 := fun n k => A.x (ix2 n k)
def ids : Spec.Ids := fun n => A.bt (ix1 n)
def src : Fin 1200000 → BitVec 32 := fun e => A.ei (ix2 (0 : Fin 2) e)
def dst : Fin 1200000 → BitVec 32 := fun e => A.ei (ix2 (1 : Fin 2) e)
def WG : Spec.Mat 64 64 := fun k c => A.Wg (ix2 k c)
def BG : Fin 64 → EReal := fun c => A.bg (ix1 c)
def g1 : EReal := A.w1 (ix1 (0 : Fin 1))
def β1 : EReal := A.b1 (ix1 (0 : Fin 1))
def WF : Spec.Mat 64 64 := fun k c => A.Wf (ix2 k c)
def BF : Fin 64 → EReal := fun c => A.bf (ix1 c)
def g2 : EReal := A.w2 (ix1 (0 : Fin 1))
def β2 : EReal := A.b2 (ix1 (0 : Fin 1))

/-- The aggregate table of the node table along the edges. -/
def AGG : Spec.Mat 100000 64 := Spec.agg A.X A.src A.dst

/-- The layer's two results, by tiles and by segments. -/
def outT : Spec.Mat 100000 64 := Spec.outT A.ids A.X A.AGG A.WG A.BG A.g1 A.β1 A.WF A.BF A.g2 A.β2
def poolT : Spec.Mat 256 64 := Spec.poolT A.ids A.outT
def outS : Spec.Mat 100000 64 := Spec.outS A.ids A.X A.AGG A.WG A.BG A.g1 A.β1 A.WF A.BF A.g2 A.β2
def poolS : Spec.Mat 256 64 := Spec.poolS A.ids A.outS

/-- Every float entry is a real number. -/
structure Finite : Prop where
  x  : ∀ i, ∃ r : ℝ, A.x i = (r : EReal)
  Wg : ∀ i, ∃ r : ℝ, A.Wg i = (r : EReal)
  bg : ∀ i, ∃ r : ℝ, A.bg i = (r : EReal)
  w1 : ∀ i, ∃ r : ℝ, A.w1 i = (r : EReal)
  b1 : ∀ i, ∃ r : ℝ, A.b1 i = (r : EReal)
  Wf : ∀ i, ∃ r : ℝ, A.Wf i = (r : EReal)
  bf : ∀ i, ∃ r : ℝ, A.bf i = (r : EReal)
  w2 : ∀ i, ∃ r : ℝ, A.w2 i = (r : EReal)
  b2 : ∀ i, ∃ r : ℝ, A.b2 i = (r : EReal)

/-- Every graph id is one of 0 … 255. -/
def InRange : Prop := ∀ n : Fin 100000, (A.bt (ix1 n)).toNat < 256

end Args

end Cert

end
-- ==== Proof.Tabs.lean ====
/-
  Arrays read as plain tables: a rank-2 array as a table of rows and columns, a one-row array as a row, a 1 × 1 array as a
  number, a rank-3 array by its three coordinates, and the ids laid out as 20 tiles of one row of 5000 as one id per node
  (node n sits in tile n / 5000 at position n % 5000).
-/
import Idealize.ShloMosaic.Lib.ValueIdx
import proofs.«409760_j63745904607323_2_alg».proof.Proof.Spec

noncomputable section

namespace Cert.Tabs

open Idealize.ShloMosaic Idealize.ShloMosaic.ValueIdx

def tab2 {n k : Nat} (v : FVec Ideal ⟨2, ![n, k]⟩ .f32) : Spec.Mat n k := fun i j => v (ix2 i j)
def row2 {k : Nat} (v : FVec Ideal ⟨2, ![1, k]⟩ .f32) : Fin k → EReal := fun j => v (ix2 (0 : Fin 1) j)
def num2 (v : FVec Ideal ⟨2, ![1, 1]⟩ .f32) : EReal := v (ix2 (0 : Fin 1) (0 : Fin 1))
def vec1 {k : Nat} (v : FVec Ideal ⟨1, ![k]⟩ .f32) : Fin k → EReal := fun j => v (ix1 j)

/-- The ids of the 20 × 1 × 5000 layout, one per node. -/
def ids3 (v : IVec ⟨3, ![20, 1, 5000]⟩ 32) : Spec.Ids :=
  fun n => v (ix3 (⟨n.val / 5000, by have := n.isLt; omega⟩ : Fin 20) (0 : Fin 1) (⟨n.val % 5000, Nat.mod_lt _ (by decide)⟩ : Fin 5000))

/-- Row r of tile t is node 5000·t + r. -/
theorem ids3_nodeOf (v : IVec ⟨3, ![20, 1, 5000]⟩ 32) (t : Fin 20) (r : Fin 5000) :
    ids3 v (Spec.nodeOf t r) = v (ix3 t (0 : Fin 1) r) := by
  have ht := t.isLt
  have hr := r.isLt
  unfold ids3 Spec.nodeOf
  have h1 : (5000 * t.val + r.val) / 5000 = t.val := by omega
  have h2 : (5000 * t.val + r.val) % 5000 = r.val := by omega
  congr 1
  funext a
  match a with
  | ⟨0, _⟩ => exact Fin.ext h1
  | ⟨1, _⟩ => rfl
  | ⟨2, _⟩ => exact Fin.ext h2

/-! ## The norm with its per-graph tables given, and the tables from the sums -/

open Cert.Spec in
/-- The per-graph norm by tiles with the mean and scale tables GIVEN (a region reads them from arrays). -/
def lnWith (bt : Spec.Ids) (h : Spec.Mat 100000 64) (μ ι : Fin 256 → EReal) (w β : EReal) : Spec.Mat 100000 64 :=
  fun n c => max ((h n c - Spec.pickT bt μ n) * Spec.pickT bt ι n * w + β) 0

theorem lnT_eq_lnWith (bt : Spec.Ids) (h : Spec.Mat 100000 64) (w β : EReal) :
    Spec.lnT bt h w β = lnWith bt h (Spec.meanT bt h) (Spec.invT bt h) w β := rfl

/-- A graph's mean from its sum and its node count; its scale from its sum, its sum of squares and its count. -/
def meanOf (s1 cnt : EReal) : EReal := Ideal.div s1 (max 1 cnt * 64)
def invOf (s1 s2 cnt : EReal) : EReal :=
  Ideal.rsqrt (max (Ideal.div s2 (max 1 cnt * 64) - meanOf s1 cnt * meanOf s1 cnt) 0 + Spec.eps)

theorem meanT_eq_meanOf (bt : Spec.Ids) (h : Spec.Mat 100000 64) (g : Fin 256) :
    Spec.meanT bt h g = meanOf (Spec.tileTotal bt (Spec.rowSum h) g) (Spec.cntT bt g) := rfl

theorem invT_eq_invOf (bt : Spec.Ids) (h : Spec.Mat 100000 64) (g : Fin 256) :
    Spec.invT bt h g = invOf (Spec.tileTotal bt (Spec.rowSum h) g) (Spec.tileTotal bt (Spec.rowSq h) g) (Spec.cntT bt g) := rfl

end Cert.Tabs

end
-- ==== Proof.Consts.lean ====
/-
  The float words the two programs spell, as the extended reals they denote: 0, 1, 2, 64, and the small positive number
  added to a variance (a positive real).
-/
import Idealize.ShloMosaic.PureOps.Ideal
import proofs.«409760_j63745904607323_2_alg».proof.Proof.Spec

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = 2 := by
  have e : Ideal.ofBits .f32 0x40000000#32 = ((2 : ℝ) : EReal) := by
    simp [Ideal.ofBits, Ideal.ieee, -EReal.coe_mul]; norm_num
  rw [e]; norm_cast

theorem ofBits_64 : Ideal.ofBits .f32 0x42800000#32 = 64 := by
  have e : Ideal.ofBits .f32 0x42800000#32 = ((64 : ℝ) : EReal) := by
    simp [Ideal.ofBits, Ideal.ieee, -EReal.coe_mul]; norm_num
  rw [e]; norm_cast

/-- The word 9.99999974E-6 denotes a positive real. -/
theorem eps_pos : ∃ r : ℝ, 0 < r ∧ Cert.Spec.eps = (r : EReal) := by
  refine ⟨10995116 / 1099511627776, by norm_num, ?_⟩
  unfold Cert.Spec.eps
  simp [Ideal.ofBits, Ideal.ieee, -EReal.coe_mul]
  norm_num

end Cert.Consts

end
-- ==== Proof.KReg0.lean ====
/-
  What the first kernel region leaves in its two output arrays, as functions of the arrays it finds: each node row of the
  first output is the affine map (2·x + a)·W + b of that row; slot t of the second output holds, per graph, the tile's part
  of the per-graph sums of the rows' sums, of the rows' sums of squares, and of ones.
  A block of the node tables is 5000 rows (tile t is rows 5000·t … 5000·t + 4999); the ids' block is tile t's one row of
  5000; the weight matrix and the bias row are read whole at every point; the second output's block is its slot t.
-/
import proofs.«409760_j63745904607323_2_alg».proof.Proof.Gen.KernelIdeal.Frame
import proofs.«409760_j63745904607323_2_alg».proof.Proof.Tabs
import proofs.«409760_j63745904607323_2_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KReg0

open Cert.KernelIdeal Cert.KernelIdeal.Gen
open Idealize.ShloMosaic Idealize.ShloMosaic.TcCoe Idealize.ShloMosaic.ValueIdx Idealize.SL.Sem
open Cert.Spec Cert.Tabs

/-! ## The affine map's product: rows of the left operand against columns of the right -/

theorem lhsA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, at row r and column j: the sum over the 64 inner positions. -/
theorem affine_matmul_apply (lhs : FVec Ideal S5000x64 .bf16) (rhs : FVec Ideal S64x64 .bf16) (r : Fin 5000) (j : Fin 64) :
    matmul dot_S5000x64_S64x64_S5000x64_1_0_0_1_n_n none lhs rhs (constant (F := Ideal) S5000x64 .f32 0x00000000#32) (ix2 r j)
      = ∑ k : Fin 64, lhs (ix2 r k) * rhs (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhsA_0 _ _
    | ⟨1, _⟩ => exact (lhsA_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhsA_0 _ _).trans hk
    | ⟨1, _⟩ => exact rhsA_1 _ _)
  rw [el, er]

/-- The affine payload at row r and column j. -/
theorem pay2_apply (x0 x1 : FVec Ideal S5000x64 .f32) (x3 : FVec Ideal S64x64 .f32) (x4 : FVec Ideal S1x64 .f32) (r : Fin 5000) (j : Fin 64) :
    k0_pay2 (F := Ideal) x0 x1 x3 x4 (ix2 r j)
      = (∑ k : Fin 64, (2 * x0 (ix2 r k) + x1 (ix2 r k)) * x3 (ix2 k j)) + x4 (ix2 (0 : Fin 1) j) := by
  unfold k0_pay2
  rw [addf_apply, affine_matmul_apply, broadcastTo_1b_ab_apply, shapeCast_self, shapeCast_self]
  congr 1
  refine Finset.sum_congr rfl fun k _ => ?_
  rw [truncf_apply, truncf_apply, addf_apply, mulf_apply, broadcast_apply]
  show (Ideal.ofBits .f32 0x40000000#32 * x0 (ix2 r k) + x1 (ix2 r k)) * x3 (ix2 k j) = _
  rw [Cert.Consts.ofBits_two]

/-! ## The one-hot product: both operands contracted along the rows -/

theorem lhsB_0 (i : S256x3.Idx) (q : dot_S5000x256_S5000x3_S256x3_0_0_1_1_n_n.contr.Idx) :
    (dot_S5000x256_S5000x3_S256x3_0_0_1_1_n_n.lhsIdx i q 0).val = (q ⟨0, by decide⟩).val :=
  dot_S5000x256_S5000x3_S256x3_0_0_1_1_n_n.lhsIdx_val_of_single rfl i q
theorem lhsB_1 (i : S256x3.Idx) (q : dot_S5000x256_S5000x3_S256x3_0_0_1_1_n_n.contr.Idx) :
    (dot_S5000x256_S5000x3_S256x3_0_0_1_1_n_n.lhsIdx i q 1).val = (i 0).val := by
  unfold DotDims.lhsIdx
  rw [dif_neg (show ¬(1 : Fin S5000x256.rank) ∈ dot_S5000x256_S5000x3_S256x3_0_0_1_1_n_n.lhsBatch by decide), dif_pos (show (1 : Fin S5000x256.rank) ∈ dot_S5000x256_S5000x3_S256x3_0_0_1_1_n_n.lhsNonContracting by decide)]
  rfl
theorem rhsB_0 (i : S256x3.Idx) (q : dot_S5000x256_S5000x3_S256x3_0_0_1_1_n_n.contr.Idx) :
    (dot_S5000x256_S5000x3_S256x3_0_0_1_1_n_n.rhsIdx i q 0).val = (q ⟨0, by decide⟩).val :=
  dot_S5000x256_S5000x3_S256x3_0_0_1_1_n_n.rhsIdx_val_of_single rfl i q
theorem rhsB_1 (i : S256x3.Idx) (q : dot_S5000x256_S5000x3_S256x3_0_0_1_1_n_n.contr.Idx) :
    (dot_S5000x256_S5000x3_S256x3_0_0_1_1_n_n.rhsIdx i q 1).val = (i 1).val := by
  unfold DotDims.rhsIdx
  rw [dif_neg (show ¬(1 : Fin S5000x3.rank) ∈ dot_S5000x256_S5000x3_S256x3_0_0_1_1_n_n.rhsBatch by decide), dif_pos (show (1 : Fin S5000x3.rank) ∈ dot_S5000x256_S5000x3_S256x3_0_0_1_1_n_n.rhsNonContracting by decide)]
  rfl

/-- The product into a zero accumulator, at graph g and column s: the sum over the 5000 rows. -/
theorem onehot_matmul_apply (lhs : FVec Ideal S5000x256 .bf16) (rhs : FVec Ideal S5000x3 .bf16) (g : Fin 256) (s : Fin 3) :
    matmul dot_S5000x256_S5000x3_S256x3_0_0_1_1_n_n none lhs rhs (constant (F := Ideal) S256x3 .f32 0x00000000#32) (ix2 g s)
      = ∑ r : Fin 5000, lhs (ix2 r g) * rhs (ix2 r s) := by
  simp only [matmul]
  rw [Ideal.matmul_constant_zero_apply, ← Equiv.sum_comp (ValueIdx.contrEquiv1 dot_S5000x256_S5000x3_S256x3_0_0_1_1_n_n 5000 rfl rfl).symm]
  refine Finset.sum_congr rfl fun k _ => ?_
  have hk := ValueIdx.contrEquiv1_symm_val dot_S5000x256_S5000x3_S256x3_0_0_1_1_n_n 5000 rfl rfl k
  have el : dot_S5000x256_S5000x3_S256x3_0_0_1_1_n_n.lhsIdx (ix2 g s) ((ValueIdx.contrEquiv1 dot_S5000x256_S5000x3_S256x3_0_0_1_1_n_n 5000 rfl rfl).symm k) = ix2 k g := funext fun a => Fin.ext (by
    match a with
    | ⟨0, _⟩ => exact (lhsB_0 _ _).trans hk
    | ⟨1, _⟩ => exact lhsB_1 _ _)
  have er : dot_S5000x256_S5000x3_S256x3_0_0_1_1_n_n.rhsIdx (ix2 g s) ((ValueIdx.contrEquiv1 dot_S5000x256_S5000x3_S256x3_0_0_1_1_n_n 5000 rfl rfl).symm k) = ix2 k s := funext fun a => Fin.ext (by
    match a with
    | ⟨0, _⟩ => exact (rhsB_0 _ _).trans hk
    | ⟨1, _⟩ => exact rhsB_1 _ _)
  rw [el, er]

/-! ## Layout steps of the one-hot's operands -/

/-- A column broadcast over many columns reads the column's entry of the row. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a one-column matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row's sum over its 64 lanes. -/
theorem lanesum_apply (src : FVec Ideal S5000x64 .f32) (hφ : FKind.Formats FTy.f32) (hacc : (0x00000000#32 : BitVec 32) = 0x00000000#32) (r : Fin 5000) :
    multiReduction (F := Ideal) .add [1] S5000 src 0x00000000#32 reduces_S5000x64_S5000 hφ hacc (ix1 r) = ∑ k : Fin 64, src (ix2 r k) := by
  refine (Ideal.multiReduction_add_single src 0x00000000#32 reduces_S5000x64_S5000 hφ hacc (ix1 r)).trans ?_
  refine Finset.sum_congr rfl fun k _ => congrArg src ?_
  funext a; apply Fin.ext
  match a with
  | ⟨0, _⟩ => rfl
  | ⟨1, _⟩ => rfl

/-- The 0/1 entry: an equality test widened and read as a float. -/
theorem onehot_entry (a b : BitVec 32) :
    (FloatOps.sitofp (F := Ideal) .f32 ((IntOp.cmpi .eq a b).setWidth 32) : EReal) = if a = b then 1 else 0 := by
  show (((BitVec.setWidth 32 (IntOp.cmpi .eq a b)).toInt : ℝ) : EReal) = _
  by_cases h : a = b
  · have e : IntOp.cmpi .eq a b = 1#1 := by simp [IntOp.cmpi, h]
    rw [e, if_pos h]
    have e1 : ((1#1 : BitVec 1).setWidth 32).toInt = 1 := by decide
    rw [e1]; norm_num
  · have hb : (a == b) = false := by simpa using h
    have e : IntOp.cmpi .eq a b = 0#1 := by simp [IntOp.cmpi, hb]
    rw [e, if_neg h]
    have e0 : ((0#1 : BitVec 1).setWidth 32).toInt = 0 := by decide
    rw [e0]; norm_num

/-- Three one-column pieces side by side: column s of row r is the s-th piece's entry of row r. -/
theorem concat3_apply {α : Type} (y0 y1 y2 : S5000x1.Idx → α) (h : Shape.Concatenates [S5000x1, S5000x1, S5000x1] S5000x3 1) (r : Fin 5000) :
    concatenate S5000x3 1 [⟨S5000x1, y0⟩, ⟨S5000x1, y1⟩, ⟨S5000x1, y2⟩] h (ix2 r (0 : Fin 3)) = y0 (ix2 r (0 : Fin 1))
    ∧ concatenate S5000x3 1 [⟨S5000x1, y0⟩, ⟨S5000x1, y1⟩, ⟨S5000x1, y2⟩] h (ix2 r (1 : Fin 3)) = y1 (ix2 r (0 : Fin 1))
    ∧ concatenate S5000x3 1 [⟨S5000x1, y0⟩, ⟨S5000x1, y1⟩, ⟨S5000x1, y2⟩] h (ix2 r (2 : Fin 3)) = y2 (ix2 r (0 : Fin 1)) := by
  refine ⟨?_, ?_, ?_⟩
  · exact concatenate_apply_piece (1 : Fin S5000x3.rank) [⟨S5000x1, y0⟩, ⟨S5000x1, y1⟩, ⟨S5000x1, y2⟩] h (ix2 r (0 : Fin 3)) 0 (by show (0 : ℕ) < 3; omega) S5000x1 y0 rfl rfl 0 rfl
      (ix2 r (0 : Fin 1)) (fun b hb => match b with | ⟨0, _⟩ => rfl | ⟨1, _⟩ => absurd rfl hb) rfl
  · exact concatenate_apply_piece (1 : Fin S5000x3.rank) [⟨S5000x1, y0⟩, ⟨S5000x1, y1⟩, ⟨S5000x1, y2⟩] h (ix2 r (1 : Fin 3)) 1 (by show (1 : ℕ) < 3; omega) S5000x1 y1 rfl rfl 1 rfl
      (ix2 r (0 : Fin 1)) (fun b hb => match b with | ⟨0, _⟩ => rfl | ⟨1, _⟩ => absurd rfl hb) rfl
  · exact concatenate_apply_piece (1 : Fin S5000x3.rank) [⟨S5000x1, y0⟩, ⟨S5000x1, y1⟩, ⟨S5000x1, y2⟩] h (ix2 r (2 : Fin 3)) 2 (by show (2 : ℕ) < 3; omega) S5000x1 y2 rfl rfl 2 rfl
      (ix2 r (0 : Fin 1)) (fun b hb => match b with | ⟨0, _⟩ => rfl | ⟨1, _⟩ => absurd rfl hb) rfl

/-- The one-hot's left operand at row r and graph g: 1 if the row's id is the word of g, else 0. -/
theorem onehot_lhs_apply (x2 : IVec S1x1x5000 32) (r : Fin 5000) (g : Fin 256) :
    (sitofp (F := Ideal) .f32 (extui 32 (cmpi .eq
        (broadcastTo S5000x256 (transpose S5000x1 [1, 0] (shapeCast S1x5000 x2 shapeCasts_S1x1x5000_S1x5000) transposes_S1x5000_p1_0_S5000x1) broadcasts_S5000x1_S5000x256)
        (broadcastTo S5000x256 (iota .tc S1x256 32 [1] iota_S1x256_d1_w32) broadcasts_S1x256_S5000x256)) natLt_1_32) : FVec Ideal S5000x256 .f32) (ix2 r g)
      = if x2 (ix3 (0 : Fin 1) (0 : Fin 1) r) = BitVec.ofNat 32 g.val then 1 else 0 := by
  rw [sitofp_apply, extui_apply]
  show FloatOps.sitofp (F := Ideal) .f32 ((IntOp.cmpi .eq (broadcastTo S5000x256 _ broadcasts_S5000x1_S5000x256 (ix2 r g)) (broadcastTo S5000x256 _ broadcasts_S1x256_S5000x256 (ix2 r g))).setWidth 32) = _
  rw [broadcastTo_a1_ab_apply, broadcastTo_1b_ab_apply, transpose_ix2_apply, shapeCast_1ab_ab_apply, iota_single_apply, onehot_entry]

/-- The one-hot payload at graph g: per column, the sum over the rows of the 0/1 weight times the row's sum, the row's
    sum of squares, and one. -/
theorem pay3_apply (x2 : IVec S1x1x5000 32) (x0 x1 : FVec Ideal S5000x64 .f32) (x3 : FVec Ideal S64x64 .f32) (x4 : FVec Ideal S1x64 .f32) (g : Fin 256) :
    k0_pay3 (F := Ideal) x2 x0 x1 x3 x4 (ix2 g (0 : Fin 3))
        = ∑ r : Fin 5000, (if x2 (ix3 (0 : Fin 1) (0 : Fin 1) r) = BitVec.ofNat 32 g.val then 1 else 0) * ∑ k : Fin 64, k0_pay2 (F := Ideal) x0 x1 x3 x4 (ix2 r k)
    ∧ k0_pay3 (F := Ideal) x2 x0 x1 x3 x4 (ix2 g (1 : Fin 3))
        = ∑ r : Fin 5000, (if x2 (ix3 (0 : Fin 1) (0 : Fin 1) r) = BitVec.ofNat 32 g.val then 1 else 0) * ∑ k : Fin 64, k0_pay2 (F := Ideal) x0 x1 x3 x4 (ix2 r k) * k0_pay2 (F := Ideal) x0 x1 x3 x4 (ix2 r k)
    ∧ k0_pay3 (F := Ideal) x2 x0 x1 x3 x4 (ix2 g (2 : Fin 3))
        = ∑ r : Fin 5000, (if x2 (ix3 (0 : Fin 1) (0 : Fin 1) r) = BitVec.ofNat 32 g.val then 1 else 0) * 1 := by
  unfold k0_pay3
  refine ⟨?_, ?_, ?_⟩
  · rw [onehot_matmul_apply]
    refine Finset.sum_congr rfl fun r _ => ?_
    rw [truncf_apply, truncf_apply, onehot_lhs_apply, (concat3_apply _ _ _ _ r).1, shapeCast_a_a1_apply, lanesum_apply]
  · rw [onehot_matmul_apply]
    refine Finset.sum_congr rfl fun r _ => ?_
    rw [truncf_apply, truncf_apply, onehot_lhs_apply, (concat3_apply _ _ _ _ r).2.1, shapeCast_a_a1_apply, lanesum_apply]
    rfl
  · rw [onehot_matmul_apply]
    refine Finset.sum_congr rfl fun r _ => ?_
    rw [truncf_apply, truncf_apply, onehot_lhs_apply, (concat3_apply _ _ _ _ r).2.2, broadcast_apply]
    show _ * Ideal.ofBits .f32 0x3F800000#32 = _
    rw [Cert.Consts.ofBits_one]

/-- The stored block: the one-hot payload under a leading unit axis. -/
theorem pay1_apply (v : FVec Ideal S256x3 .f32) (u : Fin 1) (g : Fin 256) (s : Fin 3) :
    k0_pay1 (F := Ideal) v (ix3 u g s) = v (ix2 g s) := by
  unfold k0_pay1
  exact shapeCast_ab_1ab_apply v shapeCasts_S256x3_S1x256x3 u g s

-- the buffer contents when the region is entered
variable (V : (c : Dev nD) → (b : Ref sig .tc) → Buf (Elt Ideal) ((c : Thread nD τ).loc b)) (c : Dev nD)

/-- The region's five input arrays as it finds them. -/
abbrev xA : FVec Ideal S100000x64 .f32 := V c main_arg0
abbrev aA : FVec Ideal S100000x64 .f32 := V c main_v13
abbrev idA : IVec S20x1x5000 32 := V c main_v14
abbrev wA : FVec Ideal S64x64 .f32 := V c main_arg3
abbrev bA : FVec Ideal S1x64 .f32 := V c main_v15

/-- The affine map of the node rows the region finds. -/
def h : Mat 100000 64 := gin (tab2 (xA V c)) (tab2 (aA V c)) (tab2 (wA V c)) (row2 (bA V c))

/-! ## The blocks: where each window's block sits in its array -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The tile of a grid point. -/
abbrev tile (t : Fin cfg0.N) : Fin 20 := ⟨t.val, t.isLt⟩

/-- The printed index maps over the grid: the node tables, the ids and both outputs move with the point along their
    first axis; the weights and the bias row stay. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Row r, column k of the node table's block at point t is node 5000·t + r. -/
theorem xblk_apply (t : Fin cfg0.N) (r : Fin 5000) (k : Fin 64) :
    iblk0 V c 0 t (ix2 r k) = xA V c (ix2 (nodeOf (tile t) r) k) := by
  obtain ⟨e0, e1, -⟩ := block_index t
  show V c main_arg0 (((cfg0.win 0).blk t).view.emb (ix2 r k)) = V c main_arg0 (ix2 (nodeOf (tile t) r) k)
  refine congrArg (V c main_arg0) (funext fun a => Fin.ext ?_)
  match a with
  | ⟨0, _⟩ => show win0_0.index t (0 : Fin 2) * 5000 + 1 * r.val = 5000 * t.val + r.val; omega
  | ⟨1, _⟩ => show win0_0.index t (1 : Fin 2) * 64 + 1 * k.val = k.val; omega

theorem ablk_apply (t : Fin cfg0.N) (r : Fin 5000) (k : Fin 64) :
    iblk0 V c 1 t (ix2 r k) = aA V c (ix2 (nodeOf (tile t) r) k) := by
  obtain ⟨-, -, e0, e1, -⟩ := block_index t
  show V c main_v13 (((cfg0.win 1).blk t).view.emb (ix2 r k)) = V c main_v13 (ix2 (nodeOf (tile t) r) k)
  refine congrArg (V c main_v13) (funext fun a => Fin.ext ?_)
  match a with
  | ⟨0, _⟩ => show win0_1.index t (0 : Fin 2) * 5000 + 1 * r.val = 5000 * t.val + r.val; omega
  | ⟨1, _⟩ => show win0_1.index t (1 : Fin 2) * 64 + 1 * k.val = k.val; omega

/-- Position r of the ids' block at point t is node 5000·t + r's id. -/
theorem idblk_apply (t : Fin cfg0.N) (r : Fin 5000) :
    iblk0 V c 2 t (ix3 (0 : Fin 1) (0 : Fin 1) r) = ids3 (idA V c) (nodeOf (tile t) r) := by
  obtain ⟨-, -, -, -, e0, e1, e2, -⟩ := block_index t
  rw [ids3_nodeOf]
  show V c main_v14 (((cfg0.win 2).blk t).view.emb (ix3 (0 : Fin 1) (0 : Fin 1) r)) = V c main_v14 (ix3 (tile t) (0 : Fin 1) r)
  refine congrArg (V c main_v14) (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 5000 + 1 * r.val = r.val; omega

/-- The weights and the bias row are read whole at every point. -/
theorem wblk_apply (t : Fin cfg0.N) (k j : Fin 64) :
    iblk0 V c 3 t (ix2 k j) = wA V c (ix2 k j) := by
  obtain ⟨-, -, -, -, -, -, -, e0, e1, -⟩ := block_index t
  show V c main_arg3 (((cfg0.win 3).blk t).view.emb (ix2 k j)) = V c main_arg3 (ix2 k j)
  refine congrArg (V c main_arg3) (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

theorem bblk_apply (t : Fin cfg0.N) (j : Fin 64) :
    iblk0 V c 4 t (ix2 (0 : Fin 1) j) = bA V c (ix2 (0 : Fin 1) j) := by
  obtain ⟨-, -, -, -, -, -, -, -, -, e0, e1, -⟩ := block_index t
  show V c main_v15 (((cfg0.win 4).blk t).view.emb (ix2 (0 : Fin 1) j)) = V c main_v15 (ix2 (0 : Fin 1) j)
  refine congrArg (V c main_v15) (funext fun a => Fin.ext ?_)
  match a with
  | ⟨0, _⟩ => show win0_4.index t (0 : Fin 2) * 1 + 1 * 0 = 0; omega
  | ⟨1, _⟩ => show win0_4.index t (1 : Fin 2) * 64 + 1 * j.val = j.val; omega

/-- The affine payload of the blocks at point t, at row r: the affine map of node 5000·t + r. -/
theorem pay2_blocks (t : Fin cfg0.N) (r : Fin 5000) (j : Fin 64) :
    k0_pay2 (F := Ideal) (iblk0 V c 0 t) (iblk0 V c 1 t) (iblk0 V c 3 t) (iblk0 V c 4 t) (ix2 r j) = h V c (nodeOf (tile t) r) j := by
  refine (pay2_apply (iblk0 V c 0 t) (iblk0 V c 1 t) (iblk0 V c 3 t) (iblk0 V c 4 t) r j).trans ?_
  unfold h gin tab2 row2
  refine congrArg₂ (fun a b : EReal => a + b) (Finset.sum_congr rfl fun k _ => ?_) (bblk_apply V c t j)
  rw [xblk_apply V c t r k, ablk_apply V c t r k, wblk_apply V c t k j]

/-! ## The first output: the affine map, block by block -/

/-- The first output as one function of the arrays the region finds. -/
def outTable : S100000x64.Idx → Elt Ideal .f32 := fun i => h V c (i 0) (i 1)

/-- What point t writes back to the first output is block t of that function. -/
theorem out_flushed (t : Fin cfg0.N) :
    (dat0 V c).flushed 5 t = ((cfg0.win 5).blk t).view.read (Elt Ideal) (outTable V c) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S64x64) zeros2, View.ld_unit_zero (S := S1x64) zeros2]
  obtain ⟨-, -, -, -, -, -, -, -, -, -, -, e0, e1, -⟩ := block_index t
  funext y
  obtain ⟨p, q, rfl⟩ : ∃ (p : Fin 5000) (q : Fin 64), y = ix2 p q := ⟨y 0, y 1, eq_ix2 y⟩
  show k0_pay2 (F := Ideal) (iblk0 V c 0 t) (iblk0 V c 1 t) (iblk0 V c 3 t) (iblk0 V c 4 t) (ix2 p q)
    = outTable V c (((cfg0.win 5).blk t).view.emb (ix2 p q))
  rw [pay2_blocks V c t p q]
  have hemb : ((cfg0.win 5).blk t).view.emb (ix2 p q) = ix2 (nodeOf (tile t) p) q := funext fun a => Fin.ext (by
    match a with
    | ⟨0, _⟩ => show win0_5.index t (0 : Fin 2) * 5000 + 1 * p.val = 5000 * t.val + p.val; omega
    | ⟨1, _⟩ => show win0_5.index t (1 : Fin 2) * 64 + 1 * q.val = q.val; omega)
  rw [hemb]
  rfl

/-- An index is in point t's block of the first output iff each coordinate is in the block's range. -/
theorem out_mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v21_0).slice (win0_5.rect t)).set ↔ _
  rw [View.set_slice_whole, Rect.mem_set_unit]
  exact Iff.rfl

/-- Row n is in the block of point n / 5000. -/
theorem out_cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by show (i 0).val / 5000 < 20; omega⟩, rfl⟩
  obtain ⟨-, -, -, -, -, -, -, -, -, -, -, e0, e1, -⟩ := block_index t
  refine ⟨t, flush0_5 t, ?_⟩
  rw [out_mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-! ## The second output: the tile's parts of the three per-graph sums, slot by slot -/

/-- The second output as one function of the arrays the region finds. -/
def statTable : S20x256x3.Idx → Elt Ideal .f32 := fun i =>
  if (i 2).val = 0 then tilePart (ids3 (idA V c)) (rowSum (h V c)) (i 0) (i 1)
  else if (i 2).val = 1 then tilePart (ids3 (idA V c)) (rowSq (h V c)) (i 0) (i 1)
  else tilePart (ids3 (idA V c)) (fun _ => 1) (i 0) (i 1)

/-- The one-hot payload of the blocks at point t: the tile's three parts for graph g. -/
theorem pay3_blocks (t : Fin cfg0.N) (g : Fin 256) :
    k0_pay3 (F := Ideal) (iblk0 V c 2 t) (iblk0 V c 0 t) (iblk0 V c 1 t) (iblk0 V c 3 t) (iblk0 V c 4 t) (ix2 g (0 : Fin 3))
        = tilePart (ids3 (idA V c)) (rowSum (h V c)) (tile t) g
    ∧ k0_pay3 (F := Ideal) (iblk0 V c 2 t) (iblk0 V c 0 t) (iblk0 V c 1 t) (iblk0 V c 3 t) (iblk0 V c 4 t) (ix2 g (1 : Fin 3))
        = tilePart (ids3 (idA V c)) (rowSq (h V c)) (tile t) g
    ∧ k0_pay3 (F := Ideal) (iblk0 V c 2 t) (iblk0 V c 0 t) (iblk0 V c 1 t) (iblk0 V c 3 t) (iblk0 V c 4 t) (ix2 g (2 : Fin 3))
        = tilePart (ids3 (idA V c)) (fun _ => 1) (tile t) g := by
  obtain ⟨p0, p1, p2⟩ := pay3_apply (iblk0 V c 2 t) (iblk0 V c 0 t) (iblk0 V c 1 t) (iblk0 V c 3 t) (iblk0 V c 4 t) g
  refine ⟨p0.trans ?_, p1.trans ?_, p2.trans ?_⟩
  · unfold tilePart oh rowSum
    refine Finset.sum_congr rfl fun r _ => ?_
    rw [idblk_apply V c t r]
    exact congrArg (_ * ·) (Finset.sum_congr rfl fun k _ => pay2_blocks V c t r k)
  · unfold tilePart oh rowSq
    refine Finset.sum_congr rfl fun r _ => ?_
    rw [idblk_apply V c t r]
    exact congrArg (_ * ·) (Finset.sum_congr rfl fun k _ => by rw [pay2_blocks V c t r k])
  · unfold tilePart oh
    refine Finset.sum_congr rfl fun r _ => ?_
    rw [idblk_apply V c t r]

/-- What point t writes back to the second output is slot t of that function. -/
theorem stat_flushed (t : Fin cfg0.N) :
    (dat0 V c).flushed 6 t = ((cfg0.win 6).blk t).view.read (Elt Ideal) (statTable V c) := by
  show (cfg0.win 6).cut (grid0.coords t) ((dat0 V c).after 6 t) = _
  rw [after0_6]
  unfold out0_6
  rw [View.canon_unit_zero zeros3]
  simp only [View.ld_unit_zero (S := S5000x64) zeros2, View.ld_unit_zero (S := S64x64) zeros2, View.ld_unit_zero (S := S1x64) zeros2,
    View.ld_unit_zero (S := S1x1x5000) zeros3]
  obtain ⟨-, -, -, -, -, -, -, -, -, -, -, -, -, e0, e1, e2⟩ := block_index t
  funext y
  obtain ⟨u, g, s, rfl⟩ : ∃ (u : Fin 1) (g : Fin 256) (s : Fin 3), y = ix3 u g s := ⟨y 0, y 1, y 2, eq_ix3 y⟩
  show k0_pay1 (F := Ideal) (k0_pay3 (F := Ideal) (iblk0 V c 2 t) (iblk0 V c 0 t) (iblk0 V c 1 t) (iblk0 V c 3 t) (iblk0 V c 4 t)) (ix3 u g s)
    = statTable V c (((cfg0.win 6).blk t).view.emb (ix3 u g s))
  rw [pay1_apply]
  have hu : u.val = 0 := by omega
  have hemb : ((cfg0.win 6).blk t).view.emb (ix3 u g s) = ix3 (tile t) g s := funext fun a => Fin.ext (by
    match a with
    | ⟨0, _⟩ => show win0_6.index t (0 : Fin 3) * 1 + 1 * u.val = t.val; omega
    | ⟨1, _⟩ => show win0_6.index t (1 : Fin 3) * 256 + 1 * g.val = g.val; omega
    | ⟨2, _⟩ => show win0_6.index t (2 : Fin 3) * 3 + 1 * s.val = s.val; omega)
  rw [hemb]
  obtain ⟨q0, q1, q2⟩ := pay3_blocks V c t g
  match s with
  | ⟨0, _⟩ => exact q0
  | ⟨1, _⟩ => exact q1
  | ⟨2, _⟩ => exact q2

/-- An index is in point t's slot of the second output iff each coordinate is in the slot's range. -/
theorem stat_mem_blk (t : Fin cfg0.N) (i : S20x256x3.Idx) :
    i ∈ ((cfg0.win 6).blk t).view.set ↔ ∀ a : Fin 3, win0_6.index t a * S1x256x3.size a ≤ (i a).val ∧ (i a).val < win0_6.index t a * S1x256x3.size a + S1x256x3.size a := by
  show i ∈ ((View.whole main_v21_1).slice (win0_6.rect t)).set ↔ _
  rw [View.set_slice_whole, Rect.mem_set_unit]
  exact Iff.rfl

/-- Slot t is point t's. -/
theorem stat_cover (i : S20x256x3.Idx) :
    ∃ t : Fin cfg0.N, (cfg0.win 6).flush t = true ∧ i ∈ ((cfg0.win 6).blk t).view.set := by
  have hi0 : (i 0).val < 20 := (i 0).isLt
  have hi1 : (i 1).val < 256 := (i 1).isLt
  have hi2 : (i 2).val < 3 := (i 2).isLt
  obtain ⟨t, ht⟩ : ∃ t : Fin cfg0.N, t.val = (i 0).val := ⟨⟨(i 0).val, hi0⟩, rfl⟩
  obtain ⟨-, -, -, -, -, -, -, -, -, -, -, -, -, e0, e1, e2⟩ := block_index t
  refine ⟨t, flush0_6 t, ?_⟩
  rw [stat_mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 3 ≤ (i 2).val ∧ (i 2).val < win0_6.index t (2 : Fin 3) * 3 + 3; omega

/-- The first output array after the region: the affine map, row by row. -/
theorem out_apply (n : Fin 100000) (j : Fin 64) :
    ((dat0 V c).arrAt 5 cfg0.N : FVec Ideal S100000x64 .f32) (ix2 n j) = h V c n j := by
  have e := (dat0 V c).arrAt_eq_of_cover 5 (outTable V c) (fun t _ => out_flushed V c t) out_cover
  exact congrFun e (ix2 n j)

/-- The second output array after the region: per tile and graph, the tile's part of the three per-graph sums. -/
theorem stats_apply (t : Fin 20) (g : Fin 256) :
    ((dat0 V c).arrAt 6 cfg0.N : FVec Ideal S20x256x3 .f32) (ix3 t g (0 : Fin 3)) = tilePart (ids3 (idA V c)) (rowSum (h V c)) t g
    ∧ ((dat0 V c).arrAt 6 cfg0.N : FVec Ideal S20x256x3 .f32) (ix3 t g (1 : Fin 3)) = tilePart (ids3 (idA V c)) (rowSq (h V c)) t g
    ∧ ((dat0 V c).arrAt 6 cfg0.N : FVec Ideal S20x256x3 .f32) (ix3 t g (2 : Fin 3)) = tilePart (ids3 (idA V c)) (fun _ => 1) t g := by
  have e := (dat0 V c).arrAt_eq_of_cover 6 (statTable V c) (fun t _ => stat_flushed V c t) stat_cover
  exact ⟨congrFun e (ix3 t g (0 : Fin 3)), congrFun e (ix3 t g (1 : Fin 3)), congrFun e (ix3 t g (2 : Fin 3))⟩

end Cert.KernelIdeal.KReg0

end
-- ==== Proof.KReg1a.lean ====
/-
  The arithmetic of the second kernel region's body at one tile, entry by entry. From the tile's blocks — the rows of x and
  of the first affine map's table, the tile's 5000 ids, the per-graph mean and scale rows, the gain and bias numbers, the
  weight matrix and its bias row — the body forms: the 0/1 table (row r, graph g) that is 1 exactly when row r's id is the
  word of g; the residual row x + max(((h − Σ_g 0/1·mean) · Σ_g 0/1·scale) · gain + bias, 0), the two sums over the 256
  graphs being the per-graph tables read through the row's 0/1 weights; the affine map of that row, Σ_k row(k)·W(k, j) + b(j);
  and, per graph, the sums over the tile's rows of the 0/1 weight times the output row's sum and times its sum of squares.
  A change of float format is the identity on extended reals, a product into a zero table is the plain sum of products,
  and a sum along an axis is the finite sum.
-/
import proofs.«409760_j63745904607323_2_alg».proof.Proof.Gen.KernelIdeal.Skeleton
import proofs.«409760_j63745904607323_2_alg».proof.Proof.Spec
import proofs.«409760_j63745904607323_2_alg».proof.Proof.Consts
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

open scoped BigOperators

noncomputable section

namespace Cert.KernelIdeal.KReg1

open Cert.KernelIdeal Cert.KernelIdeal.Gen
open Idealize.ShloMosaic Idealize.ShloMosaic.ValueIdx Idealize.SL.Sem
open Cert.Spec

/-! ## Layout operations read at coordinates -/

section Layout
variable {α : Type}

/-- A column broadcast over many columns reads the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single number broadcast over a table reads the number. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector cast to a column reads the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Layout

/-- The sum along the rows of a table, at a row. -/
theorem rowsum_apply {n m : ℕ} (src : FVec Ideal ⟨2, ![n, m]⟩ .f32)
    (h : Shape.Reduces ⟨2, ![n, m]⟩ [1] ⟨1, ![n]⟩) (hφ : FKind.Formats .f32)
    (hacc : (0x00000000#32 : BitVec 32) = 0x00000000#32) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- A widened bit as a number is 1 or 0. -/
theorem sitofp_bit (b : BitVec 1) :
    FloatOps.sitofp (F := Ideal) .f32 (b.setWidth 32) = if b = 1#1 then (1 : EReal) else 0 := by
  rcases BitVec.eq_zero_or_eq_one b with rfl | rfl
  · have h0 : ((0#1 : BitVec 1).setWidth 32).toInt = 0 := by decide
    show ((((0#1 : BitVec 1).setWidth 32).toInt : ℝ) : EReal) = _
    rw [h0, if_neg (by decide)]; simp
  · have h1 : ((1#1 : BitVec 1).setWidth 32).toInt = 1 := by decide
    show ((((1#1 : BitVec 1).setWidth 32).toInt : ℝ) : EReal) = _
    rw [h1, if_pos rfl]; simp

/-- The 0/1 weight of an id word for graph g. -/
def ohw (b : BitVec 32) (g : Fin 256) : EReal := if b = BitVec.ofNat 32 g.val then 1 else 0

/-- The 0/1 table of a tile's ids: row r, graph g. -/
theorem pay3_apply (v0 : Vec Ideal S1x1x5000 .i32) (r : Fin 5000) (g : Fin 256) :
    k1_pay3 (F := Ideal) v0 (ix2 r g) = ohw (v0 (ix3 (0 : Fin 1) (0 : Fin 1) r)) g := by
  unfold k1_pay3
  rw [sitofp_apply, extui_apply, sitofp_bit]
  show (if IntOp.cmpi .eq
      (broadcastTo S5000x256 (transpose S5000x1 [1, 0] (shapeCast S1x5000 v0 shapeCasts_S1x1x5000_S1x5000)
        transposes_S1x5000_p1_0_S5000x1) broadcasts_S5000x1_S5000x256 (ix2 r g))
      (broadcastTo S5000x256 (iota Kind.tc S1x256 32 [1] iota_S1x256_d1_w32) broadcasts_S1x256_S5000x256 (ix2 r g)) = 1#1
    then (1 : EReal) else 0) = _
  rw [broadcastTo_a1_ab_apply, transpose_ix2_apply, shapeCast_1ab_ab_apply, broadcastTo_1b_ab_apply, iota_single_apply]
  unfold ohw
  exact if_congr Idealize.ShloMosaic.StableHlo.Predicate.cmpi_eq_iff rfl rfl

/-- The residual row: x plus the clamped norm, with the per-graph tables read through the 0/1 row. -/
theorem pay4_apply (v0 : Vec Ideal S1x1x5000 .i32) (v9 v15 : Vec Ideal S1x256 .f32) (v21 : Vec Ideal S5000x64 .f32)
    (v27 v31 : Vec Ideal S1x1 .f32) (v37 : Vec Ideal S5000x64 .f32) (r : Fin 5000) (j : Fin 64) :
    k1_pay4 (F := Ideal) v0 v9 v15 v21 v27 v31 v37 (ix2 r j)
      = v37 (ix2 r j) + max ((v21 (ix2 r j) - ∑ g : Fin 256, ohw (v0 (ix3 (0 : Fin 1) (0 : Fin 1) r)) g * v9 (ix2 (0 : Fin 1) g))
          * (∑ g : Fin 256, ohw (v0 (ix3 (0 : Fin 1) (0 : Fin 1) r)) g * v15 (ix2 (0 : Fin 1) g))
          * v27 (ix2 (0 : Fin 1) (0 : Fin 1)) + v31 (ix2 (0 : Fin 1) (0 : Fin 1))) 0 := by
  unfold k1_pay4
  simp only [shapeCast_self]
  simp only [truncf_apply, addf_apply, maximumf_apply, broadcast_apply, mulf_apply, subf_apply]
  rw [broadcastTo_a1_ab_apply, broadcastTo_a1_ab_apply, broadcastTo_11_ab_apply, broadcastTo_11_ab_apply,
    shapeCast_a_a1_apply, shapeCast_a_a1_apply, rowsum_apply, rowsum_apply]
  simp only [mulf_apply, broadcastTo_1b_ab_apply, pay3_apply, Ideal.ofBits_def, Ideal.ofBits_zero_f32]

/-! ## The two products -/

theorem lhs_mm1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_mm1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_mm1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_mm1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Rows times a square matrix, into zero: entry (r, j) is the sum over k of row r at k times the matrix at (k, j). -/
theorem matmul_rows_apply (lhs : FVec Ideal S5000x64 .bf16) (rhs : FVec Ideal S64x64 .bf16) (r : Fin 5000) (j : Fin 64) :
    matmul dot_S5000x64_S64x64_S5000x64_1_0_0_1_n_n none lhs rhs (constant (F := Ideal) S5000x64 .f32 0x00000000#32) (ix2 r j)
      = ∑ k : Fin 64, lhs (ix2 r k) * rhs (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r j) ((contrEquiv1 dot_S5000x64_S64x64_S5000x64_1_0_0_1_n_n 64 rfl rfl).symm k) = ix2 r k := funext fun a => Fin.ext (by
    match a with
    | ⟨0, _⟩ => exact lhs_mm1_0 _ _
    | ⟨1, _⟩ => exact (lhs_mm1_1 _ _).trans hk)
  have er : dot_S5000x64_S64x64_S5000x64_1_0_0_1_n_n.rhsIdx (ix2 r j) ((contrEquiv1 dot_S5000x64_S64x64_S5000x64_1_0_0_1_n_n 64 rfl rfl).symm k) = ix2 k j := funext fun a => Fin.ext (by
    match a with
    | ⟨0, _⟩ => exact (rhs_mm1_0 _ _).trans hk
    | ⟨1, _⟩ => exact rhs_mm1_1 _ _)
  rw [el, er]

/-- The affine map of the residual row. -/
theorem pay1_apply (v39 : FVec Ideal S5000x64 .bf16) (v40 : Vec Ideal S64x64 .f32) (v43 : Vec Ideal S1x64 .f32)
    (r : Fin 5000) (j : Fin 64) :
    k1_pay1 (F := Ideal) v39 v40 v43 (ix2 r j) = (∑ k : Fin 64, v39 (ix2 r k) * v40 (ix2 k j)) + v43 (ix2 (0 : Fin 1) j) := by
  unfold k1_pay1
  simp only [shapeCast_self]
  rw [addf_apply, broadcastTo_1b_ab_apply, matmul_rows_apply]
  simp only [truncf_apply]

theorem lhs_mm2_0 (i : S256x2.Idx) (q : dot_S5000x256_S5000x2_S256x2_0_0_1_1_n_n.contr.Idx) :
    (dot_S5000x256_S5000x2_S256x2_0_0_1_1_n_n.lhsIdx i q 0).val = (q ⟨0, by decide⟩).val :=
  dot_S5000x256_S5000x2_S256x2_0_0_1_1_n_n.lhsIdx_val_of_single rfl i q
theorem lhs_mm2_1 (i : S256x2.Idx) (q : dot_S5000x256_S5000x2_S256x2_0_0_1_1_n_n.contr.Idx) :
    (dot_S5000x256_S5000x2_S256x2_0_0_1_1_n_n.lhsIdx i q 1).val = (i 0).val := by
  unfold DotDims.lhsIdx
  rw [dif_neg (show ¬(1 : Fin S5000x256.rank) ∈ dot_S5000x256_S5000x2_S256x2_0_0_1_1_n_n.lhsBatch by decide), dif_pos (show (1 : Fin S5000x256.rank) ∈ dot_S5000x256_S5000x2_S256x2_0_0_1_1_n_n.lhsNonContracting by decide)]
  rfl
theorem rhs_mm2_0 (i : S256x2.Idx) (q : dot_S5000x256_S5000x2_S256x2_0_0_1_1_n_n.contr.Idx) :
    (dot_S5000x256_S5000x2_S256x2_0_0_1_1_n_n.rhsIdx i q 0).val = (q ⟨0, by decide⟩).val :=
  dot_S5000x256_S5000x2_S256x2_0_0_1_1_n_n.rhsIdx_val_of_single rfl i q
theorem rhs_mm2_1 (i : S256x2.Idx) (q : dot_S5000x256_S5000x2_S256x2_0_0_1_1_n_n.contr.Idx) :
    (dot_S5000x256_S5000x2_S256x2_0_0_1_1_n_n.rhsIdx i q 1).val = (i 1).val := by
  unfold DotDims.rhsIdx
  rw [dif_neg (show ¬(1 : Fin S5000x2.rank) ∈ dot_S5000x256_S5000x2_S256x2_0_0_1_1_n_n.rhsBatch by decide), dif_pos (show (1 : Fin S5000x2.rank) ∈ dot_S5000x256_S5000x2_S256x2_0_0_1_1_n_n.rhsNonContracting by decide)]
  rfl

/-- The 0/1 table transposed times a two-column table, into zero: entry (g, s) is the sum over the rows. -/
theorem matmul_cols_apply (lhs : FVec Ideal S5000x256 .bf16) (rhs : FVec Ideal S5000x2 .bf16) (g : Fin 256) (s : Fin 2) :
    matmul dot_S5000x256_S5000x2_S256x2_0_0_1_1_n_n none lhs rhs (constant (F := Ideal) S256x2 .f32 0x00000000#32) (ix2 g s)
      = ∑ k : Fin 5000, lhs (ix2 k g) * rhs (ix2 k s) := by
  simp only [matmul]
  rw [Ideal.matmul_constant_zero_apply, ← Equiv.sum_comp (contrEquiv1 dot_S5000x256_S5000x2_S256x2_0_0_1_1_n_n 5000 rfl rfl).symm]
  refine Finset.sum_congr rfl fun k _ => ?_
  have hk := contrEquiv1_symm_val dot_S5000x256_S5000x2_S256x2_0_0_1_1_n_n 5000 rfl rfl k
  have el : dot_S5000x256_S5000x2_S256x2_0_0_1_1_n_n.lhsIdx (ix2 g s) ((contrEquiv1 dot_S5000x256_S5000x2_S256x2_0_0_1_1_n_n 5000 rfl rfl).symm k) = ix2 k g := funext fun a => Fin.ext (by
    match a with
    | ⟨0, _⟩ => exact (lhs_mm2_0 _ _).trans hk
    | ⟨1, _⟩ => exact lhs_mm2_1 _ _)
  have er : dot_S5000x256_S5000x2_S256x2_0_0_1_1_n_n.rhsIdx (ix2 g s) ((contrEquiv1 dot_S5000x256_S5000x2_S256x2_0_0_1_1_n_n 5000 rfl rfl).symm k) = ix2 k s := funext fun a => Fin.ext (by
    match a with
    | ⟨0, _⟩ => exact (rhs_mm2_0 _ _).trans hk
    | ⟨1, _⟩ => exact rhs_mm2_1 _ _)
  rw [el, er]

/-- Two columns side by side: the left one. -/
theorem concat_cols_left {α : Type} (x₁ x₂ : S5000x1.Idx → α) (h : Shape.Concatenates [S5000x1, S5000x1] S5000x2 1) (k : Fin 5000) :
    concatenate S5000x2 1 [⟨S5000x1, x₁⟩, ⟨S5000x1, x₂⟩] h (ix2 k (0 : Fin 2)) = x₁ (ix2 k (0 : Fin 1)) :=
  concatenate_pair_apply_left 1 x₁ x₂ h (ix2 k (0 : Fin 2)) rfl (ix2 k (0 : Fin 1))
    (fun b => match b with | ⟨0, _⟩ => rfl | ⟨1, _⟩ => rfl)

/-- Two columns side by side: the right one. -/
theorem concat_cols_right {α : Type} (x₁ x₂ : S5000x1.Idx → α) (h : Shape.Concatenates [S5000x1, S5000x1] S5000x2 1) (k : Fin 5000) :
    concatenate S5000x2 1 [⟨S5000x1, x₁⟩, ⟨S5000x1, x₂⟩] h (ix2 k (1 : Fin 2)) = x₂ (ix2 k (0 : Fin 1)) :=
  concatenate_pair_apply_right 1 x₁ x₂ h (ix2 k (1 : Fin 2)) rfl rfl (ix2 k (0 : Fin 1))
    (fun b => match b with | ⟨0, _⟩ => fun _ => rfl | ⟨1, _⟩ => fun hb => absurd rfl hb) rfl

/-- The tile's per-graph sums of the output rows' sums. -/
theorem pay2_apply_0 (v8 : FVec Ideal S5000x256 .f32) (v39 : FVec Ideal S5000x64 .bf16) (v40 : Vec Ideal S64x64 .f32)
    (v43 : Vec Ideal S1x64 .f32) (g : Fin 256) :
    k1_pay2 (F := Ideal) v8 v39 v40 v43 (ix3 (0 : Fin 1) g (0 : Fin 2))
      = ∑ k : Fin 5000, v8 (ix2 k g) * ∑ c : Fin 64, k1_pay1 (F := Ideal) v39 v40 v43 (ix2 k c) := by
  unfold k1_pay2
  generalize k1_pay1 (F := Ideal) v39 v40 v43 = P
  rw [shapeCast_ab_1ab_apply, matmul_cols_apply]
  refine Finset.sum_congr rfl fun k _ => ?_
  rw [truncf_apply, truncf_apply, concat_cols_left, shapeCast_a_a1_apply, rowsum_apply]

/-- The tile's per-graph sums of the output rows' sums of squares. -/
theorem pay2_apply_1 (v8 : FVec Ideal S5000x256 .f32) (v39 : FVec Ideal S5000x64 .bf16) (v40 : Vec Ideal S64x64 .f32)
    (v43 : Vec Ideal S1x64 .f32) (g : Fin 256) :
    k1_pay2 (F := Ideal) v8 v39 v40 v43 (ix3 (0 : Fin 1) g (1 : Fin 2))
      = ∑ k : Fin 5000, v8 (ix2 k g) * ∑ c : Fin 64, (k1_pay1 (F := Ideal) v39 v40 v43 (ix2 k c) * k1_pay1 (F := Ideal) v39 v40 v43 (ix2 k c)) := by
  unfold k1_pay2
  generalize k1_pay1 (F := Ideal) v39 v40 v43 = P
  rw [shapeCast_ab_1ab_apply, matmul_cols_apply]
  refine Finset.sum_congr rfl fun k _ => ?_
  rw [truncf_apply, truncf_apply, concat_cols_right, shapeCast_a_a1_apply, rowsum_apply]
  simp only [mulf_apply]

end Cert.KernelIdeal.KReg1

end
-- ==== Proof.KReg1.lean ====
/-
  What the second kernel region leaves in its two output arrays, as functions of the arrays it finds: with the per-graph
  mean and scale tables read through each node's 0/1 row, the node's row of the first norm clamped at zero is added to the
  node's row of x, and the first output is the affine map x·W + b of that; slot t of the second output holds, per graph, the
  tile's part of the per-graph sums of the output rows' sums and of their sums of squares.
-/
import proofs.«409760_j63745904607323_2_alg».proof.Proof.Gen.KernelIdeal.Frame
import proofs.«409760_j63745904607323_2_alg».proof.Proof.Tabs
import proofs.«409760_j63745904607323_2_alg».proof.Proof.Consts
import proofs.«409760_j63745904607323_2_alg».proof.Proof.KReg1a
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KReg1

open Cert.KernelIdeal Cert.KernelIdeal.Gen
open Idealize.ShloMosaic Idealize.ShloMosaic.TcCoe Idealize.ShloMosaic.ValueIdx Idealize.SL.Sem
open Cert.Spec Cert.Tabs

-- the buffer contents when the region is entered
variable (V : (c : Dev nD) → (b : Ref sig .tc) → Buf (Elt Ideal) ((c : Thread nD τ).loc b)) (c : Dev nD)

/-- The region's nine input arrays as it finds them. -/
abbrev xA : FVec Ideal S100000x64 .f32 := V c main_arg0
abbrev hA : FVec Ideal S100000x64 .f32 := V c main_v21_0
abbrev idA : IVec S20x1x5000 32 := V c main_v14
abbrev muA : FVec Ideal S1x256 .f32 := V c main_v41
abbrev ivA : FVec Ideal S1x256 .f32 := V c main_v42
abbrev gA : FVec Ideal S1x1 .f32 := V c main_v17
abbrev beA : FVec Ideal S1x1 .f32 := V c main_v18
abbrev wA : FVec Ideal S64x64 .f32 := V c main_arg7
abbrev bA : FVec Ideal S1x64 .f32 := V c main_v16

/-- x plus the clamped norm of the table the region finds, with the tables it finds. -/
def x1 : Mat 100000 64 :=
  fun n k => tab2 (xA V c) n k + lnWith (ids3 (idA V c)) (tab2 (hA V c)) (row2 (muA V c)) (row2 (ivA V c)) (num2 (gA V c)) (num2 (beA V c)) n k

/-- The affine map of it. -/
def h2 : Mat 100000 64 := ffn (x1 V c) (tab2 (wA V c)) (row2 (bA V c))

/-! ## The grid points, the index maps and the blocks -/

/-- The grid point as a tile number. -/
def tile (t : Fin cfg1.N) : Fin 20 := ⟨t.val, Nat.lt_of_lt_of_eq t.isLt N_1⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the 20 grid points: the node tables, the ids and the two outputs move with the point along their
    first axis; the small tables stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0
    ∧ win1_10.index t (0 : Fin 3) = t.val ∧ win1_10.index t (1 : Fin 3) = 0 ∧ win1_10.index t (2 : Fin 3) = 0 :=
  (by decide +kernel : ∀ t : Fin grid1.N, _)

/-- The input windows' blocks at a point, each at its literal type. -/
abbrev xB (t : Fin cfg1.N) : Vec Ideal S5000x64 .f32 := iblk1 V c 0 t
abbrev hB (t : Fin cfg1.N) : Vec Ideal S5000x64 .f32 := iblk1 V c 1 t
abbrev idB (t : Fin cfg1.N) : Vec Ideal S1x1x5000 .i32 := iblk1 V c 2 t
abbrev muB (t : Fin cfg1.N) : Vec Ideal S1x256 .f32 := iblk1 V c 3 t
abbrev ivB (t : Fin cfg1.N) : Vec Ideal S1x256 .f32 := iblk1 V c 4 t
abbrev gB (t : Fin cfg1.N) : Vec Ideal S1x1 .f32 := iblk1 V c 5 t
abbrev beB (t : Fin cfg1.N) : Vec Ideal S1x1 .f32 := iblk1 V c 6 t
abbrev wB (t : Fin cfg1.N) : Vec Ideal S64x64 .f32 := iblk1 V c 7 t
abbrev bB (t : Fin cfg1.N) : Vec Ideal S1x64 .f32 := iblk1 V c 8 t

/-- Row r of tile t of a node table is node 5000·t + r's row. -/
theorem xB_apply (t : Fin cfg1.N) (r : Fin 5000) (j : Fin 64) :
    xB V c t (ix2 r j) = xA V c (ix2 (nodeOf (tile t) r) j) := by
  obtain ⟨e0, e1, -⟩ := idx_facts t
  show V c main_arg0 (((cfg1.win 0).blk t).view.emb (ix2 r j)) = V c main_arg0 (ix2 (nodeOf (tile t) r) j)
  refine congrArg _ (funext fun a => Fin.ext ?_)
  match a with
  | ⟨0, _⟩ => show win1_0.index t (0 : Fin 2) * 5000 + 1 * r.val = 5000 * t.val + r.val; omega
  | ⟨1, _⟩ => show win1_0.index t (1 : Fin 2) * 64 + 1 * j.val = j.val; omega

theorem hB_apply (t : Fin cfg1.N) (r : Fin 5000) (j : Fin 64) :
    hB V c t (ix2 r j) = hA V c (ix2 (nodeOf (tile t) r) j) := by
  obtain ⟨-, -, e0, e1, -⟩ := idx_facts t
  show V c main_v21_0 (((cfg1.win 1).blk t).view.emb (ix2 r j)) = V c main_v21_0 (ix2 (nodeOf (tile t) r) j)
  refine congrArg _ (funext fun a => Fin.ext ?_)
  match a with
  | ⟨0, _⟩ => show win1_1.index t (0 : Fin 2) * 5000 + 1 * r.val = 5000 * t.val + r.val; omega
  | ⟨1, _⟩ => show win1_1.index t (1 : Fin 2) * 64 + 1 * j.val = j.val; omega

/-- The tile's ids are the ids of its nodes. -/
theorem idB_apply (t : Fin cfg1.N) (r : Fin 5000) :
    idB V c t (ix3 (0 : Fin 1) (0 : Fin 1) r) = ids3 (idA V c) (nodeOf (tile t) r) := by
  obtain ⟨-, -, -, -, e0, e1, e2, -⟩ := idx_facts t
  rw [ids3_nodeOf]
  show V c main_v14 (((cfg1.win 2).blk t).view.emb (ix3 (0 : Fin 1) (0 : Fin 1) r)) = V c main_v14 (ix3 (tile t) (0 : Fin 1) r)
  refine congrArg _ (funext fun a => Fin.ext ?_)
  match a with
  | ⟨0, _⟩ => show win1_2.index t (0 : Fin 3) * 1 + 1 * 0 = t.val; omega
  | ⟨1, _⟩ => show win1_2.index t (1 : Fin 3) * 1 + 1 * 0 = 0; omega
  | ⟨2, _⟩ => show win1_2.index t (2 : Fin 3) * 5000 + 1 * r.val = r.val; omega

/-- The small tables are read whole. -/
theorem muB_apply (t : Fin cfg1.N) (g : Fin 256) : muB V c t (ix2 (0 : Fin 1) g) = muA V c (ix2 (0 : Fin 1) g) := by
  obtain ⟨-, -, -, -, -, -, -, e0, e1, -⟩ := idx_facts t
  show V c main_v41 (((cfg1.win 3).blk t).view.emb (ix2 (0 : Fin 1) g)) = V c main_v41 (ix2 (0 : Fin 1) g)
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * g.val = g.val; omega

theorem ivB_apply (t : Fin cfg1.N) (g : Fin 256) : ivB V c t (ix2 (0 : Fin 1) g) = ivA V c (ix2 (0 : Fin 1) g) := by
  obtain ⟨-, -, -, -, -, -, -, -, -, e0, e1, -⟩ := idx_facts t
  show V c main_v42 (((cfg1.win 4).blk t).view.emb (ix2 (0 : Fin 1) g)) = V c main_v42 (ix2 (0 : Fin 1) g)
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * g.val = g.val; omega

theorem gB_apply (t : Fin cfg1.N) : gB V c t (ix2 (0 : Fin 1) (0 : Fin 1)) = gA V c (ix2 (0 : Fin 1) (0 : Fin 1)) := by
  obtain ⟨-, -, -, -, -, -, -, -, -, -, -, e0, e1, -⟩ := idx_facts t
  show V c main_v17 (((cfg1.win 5).blk t).view.emb (ix2 (0 : Fin 1) (0 : Fin 1))) = V c main_v17 (ix2 (0 : Fin 1) (0 : Fin 1))
  refine congrArg _ (funext fun a => Fin.ext ?_)
  match a with
  | ⟨0, _⟩ => show win1_5.index t (0 : Fin 2) * 1 + 1 * 0 = 0; omega
  | ⟨1, _⟩ => show win1_5.index t (1 : Fin 2) * 1 + 1 * 0 = 0; omega

theorem beB_apply (t : Fin cfg1.N) : beB V c t (ix2 (0 : Fin 1) (0 : Fin 1)) = beA V c (ix2 (0 : Fin 1) (0 : Fin 1)) := by
  obtain ⟨-, -, -, -, -, -, -, -, -, -, -, -, -, e0, e1, -⟩ := idx_facts t
  show V c main_v18 (((cfg1.win 6).blk t).view.emb (ix2 (0 : Fin 1) (0 : Fin 1))) = V c main_v18 (ix2 (0 : Fin 1) (0 : Fin 1))
  refine congrArg _ (funext fun a => Fin.ext ?_)
  match a with
  | ⟨0, _⟩ => show win1_6.index t (0 : Fin 2) * 1 + 1 * 0 = 0; omega
  | ⟨1, _⟩ => show win1_6.index t (1 : Fin 2) * 1 + 1 * 0 = 0; omega

theorem wB_apply (t : Fin cfg1.N) (k j : Fin 64) : wB V c t (ix2 k j) = wA V c (ix2 k j) := by
  obtain ⟨-, -, -, -, -, -, -, -, -, -, -, -, -, -, -, e0, e1, -⟩ := idx_facts t
  show V c main_arg7 (((cfg1.win 7).blk t).view.emb (ix2 k j)) = V c main_arg7 (ix2 k j)
  refine congrArg _ (funext fun a => Fin.ext ?_)
  match a with
  | ⟨0, _⟩ => show win1_7.index t (0 : Fin 2) * 64 + 1 * k.val = k.val; omega
  | ⟨1, _⟩ => show win1_7.index t (1 : Fin 2) * 64 + 1 * j.val = j.val; omega

theorem bB_apply (t : Fin cfg1.N) (j : Fin 64) : bB V c t (ix2 (0 : Fin 1) j) = bA V c (ix2 (0 : Fin 1) j) := by
  obtain ⟨-, -, -, -, -, -, -, -, -, -, -, -, -, -, -, -, -, e0, e1, -⟩ := idx_facts t
  show V c main_v16 (((cfg1.win 8).blk t).view.emb (ix2 (0 : Fin 1) j)) = V c main_v16 (ix2 (0 : Fin 1) j)
  refine congrArg _ (funext fun a => Fin.ext ?_)
  match a with
  | ⟨0, _⟩ => show win1_8.index t (0 : Fin 2) * 1 + 1 * 0 = 0; omega
  | ⟨1, _⟩ => show win1_8.index t (1 : Fin 2) * 64 + 1 * j.val = j.val; omega

/-! ## The body's values at a tile -/

/-- The residual row of tile t at row r is node 5000·t + r's row of x1. -/
theorem res_apply (t : Fin cfg1.N) (r : Fin 5000) (k : Fin 64) :
    k1_pay4 (F := Ideal) (idB V c t) (muB V c t) (ivB V c t) (hB V c t) (gB V c t) (beB V c t) (xB V c t) (ix2 r k)
      = x1 V c (nodeOf (tile t) r) k := by
  rw [pay4_apply, xB_apply, hB_apply, idB_apply, gB_apply, beB_apply]
  simp only [muB_apply, ivB_apply]
  rfl

/-- The first output's block at tile t, row r, is node 5000·t + r's row of the affine map. -/
theorem out_tile_apply (t : Fin cfg1.N) (r : Fin 5000) (j : Fin 64) :
    k1_pay1 (F := Ideal) (k1_pay4 (F := Ideal) (idB V c t) (muB V c t) (ivB V c t) (hB V c t) (gB V c t) (beB V c t) (xB V c t))
        (wB V c t) (bB V c t) (ix2 r j)
      = h2 V c (nodeOf (tile t) r) j := by
  rw [pay1_apply, bB_apply]
  simp only [res_apply, wB_apply]
  rfl

theorem h2_congr (n n' : Fin 100000) (j j' : Fin 64) (hn : n.val = n'.val) (hj : j.val = j'.val) :
    h2 V c n j = h2 V c n' j' := by
  rw [Fin.ext hn, Fin.ext hj]

/-! ## The first output array -/

/-- The first output as one function of the arrays the region finds. -/
def G9 : S100000x64.Idx → EReal := fun i => h2 V c ⟨(i 0).val, idx2_lt0 i⟩ ⟨(i 1).val, idx2_lt1 i⟩

theorem flushed9_eq (t : Fin cfg1.N) :
    (dat1 V c).flushed 9 t = ((cfg1.win 9).blk t).view.read (Elt Ideal) (G9 V c) := by
  show (cfg1.win 9).cut (grid1.coords t) ((dat1 V c).after 9 t) = _
  rw [after1_9]
  unfold out1_9
  rw [View.canon_unit_zero hz2]
  simp only [View.ld_unit_zero (S := S5000x64) hz2, View.ld_unit_zero (S := S1x1x5000) hz3, View.ld_unit_zero (S := S1x256) hz2,
    View.ld_unit_zero (S := S1x1) hz2, View.ld_unit_zero (S := S64x64) hz2, View.ld_unit_zero (S := S1x64) hz2]
  obtain ⟨-, -, -, -, -, -, -, -, -, -, -, -, -, -, -, -, -, -, -, e0, e1, -⟩ := idx_facts t
  refine funext fun (y : S5000x64.Idx) => ?_
  obtain ⟨r, j, rfl⟩ : ∃ (r : Fin 5000) (j : Fin 64), y = ix2 r j := ⟨y 0, y 1, eq_ix2 y⟩
  show k1_pay1 (F := Ideal) (k1_pay4 (F := Ideal) (idB V c t) (muB V c t) (ivB V c t) (hB V c t) (gB V c t) (beB V c t) (xB V c t))
        (wB V c t) (bB V c t) (ix2 r j) = G9 V c (((cfg1.win 9).blk t).view.emb (ix2 r j))
  rw [out_tile_apply]
  unfold G9
  refine h2_congr V c _ _ _ _ ?_ ?_
  · show 5000 * t.val + r.val = win1_9.index t (0 : Fin 2) * 5000 + 1 * r.val; omega
  · show j.val = win1_9.index t (1 : Fin 2) * 64 + 1 * j.val; omega

theorem mem_blk9 (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v43_0).slice (win1_9.rect t)).set ↔ _
  rw [View.set_slice_whole, Rect.mem_set_unit]
  exact Iff.rfl

/-- Row n is in the block of tile n / 5000. -/
theorem cover9 (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega) N_1.symm⟩, rfl⟩
  obtain ⟨-, -, -, -, -, -, -, -, -, -, -, -, -, -, -, -, -, -, -, e0, e1, -⟩ := idx_facts t
  refine ⟨t, flush1_9 t, ?_⟩
  rw [mem_blk9]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

theorem final9 : (dat1 V c).arrAt 9 cfg1.N = G9 V c :=
  (dat1 V c).arrAt_eq_of_cover 9 (G9 V c) (fun t _ => flushed9_eq V c t) (cover9)

/-- The first output array after the region. -/
theorem out_apply (n : Fin 100000) (j : Fin 64) :
    ((dat1 V c).arrAt 9 cfg1.N : FVec Ideal S100000x64 .f32) (ix2 n j) = h2 V c n j := by
  rw [final9]
  rfl

/-! ## The second output array -/

theorem tilePart_congr (bt : Ids) (f : Fin 100000 → EReal) (t t' : Fin 20) (g g' : Fin 256) (ht : t.val = t'.val)
    (hg : g.val = g'.val) : tilePart bt f t g = tilePart bt f t' g' := by
  rw [Fin.ext ht, Fin.ext hg]

/-- The second output as one function of the arrays the region finds: slot (t, g, 0) the tile's part of the per-graph sum of
    the output rows' sums, slot (t, g, 1) that of their sums of squares. -/
def G10 : S20x256x2.Idx → EReal := fun i =>
  if (i 2).val = 0 then tilePart (ids3 (idA V c)) (rowSum (h2 V c)) ⟨(i 0).val, (i 0).isLt⟩ ⟨(i 1).val, (i 1).isLt⟩
  else tilePart (ids3 (idA V c)) (rowSq (h2 V c)) ⟨(i 0).val, (i 0).isLt⟩ ⟨(i 1).val, (i 1).isLt⟩

theorem G10_apply_0 (i : S20x256x2.Idx) (t : Fin 20) (g : Fin 256) (h0 : (i 0).val = t.val) (h1 : (i 1).val = g.val)
    (h2' : (i 2).val = 0) : G10 V c i = tilePart (ids3 (idA V c)) (rowSum (h2 V c)) t g := by
  unfold G10
  rw [if_pos h2']
  exact tilePart_congr _ _ _ _ _ _ h0 h1

theorem G10_apply_1 (i : S20x256x2.Idx) (t : Fin 20) (g : Fin 256) (h0 : (i 0).val = t.val) (h1 : (i 1).val = g.val)
    (h2' : (i 2).val = 1) : G10 V c i = tilePart (ids3 (idA V c)) (rowSq (h2 V c)) t g := by
  unfold G10
  rw [if_neg (by omega)]
  exact tilePart_congr _ _ _ _ _ _ h0 h1

/-- Tile t's part of the per-graph sum of the output rows' sums. -/
theorem stat_tile_0 (t : Fin cfg1.N) (g : Fin 256) :
    k1_pay2 (F := Ideal) (k1_pay3 (F := Ideal) (idB V c t)) (k1_pay4 (F := Ideal) (idB V c t) (muB V c t) (ivB V c t) (hB V c t) (gB V c t) (beB V c t) (xB V c t)) (wB V c t) (bB V c t) (ix3 (0 : Fin 1) g (0 : Fin 2))
      = tilePart (ids3 (idA V c)) (rowSum (h2 V c)) (tile t) g := by
  rw [pay2_apply_0]
  simp only [pay3_apply, idB_apply, out_tile_apply]
  rfl

/-- Tile t's part of the per-graph sum of the output rows' sums of squares. -/
theorem stat_tile_1 (t : Fin cfg1.N) (g : Fin 256) :
    k1_pay2 (F := Ideal) (k1_pay3 (F := Ideal) (idB V c t)) (k1_pay4 (F := Ideal) (idB V c t) (muB V c t) (ivB V c t) (hB V c t) (gB V c t) (beB V c t) (xB V c t)) (wB V c t) (bB V c t) (ix3 (0 : Fin 1) g (1 : Fin 2))
      = tilePart (ids3 (idA V c)) (rowSq (h2 V c)) (tile t) g := by
  rw [pay2_apply_1]
  simp only [pay3_apply, idB_apply, out_tile_apply]
  rfl

theorem flushed10_eq (t : Fin cfg1.N) :
    (dat1 V c).flushed 10 t = ((cfg1.win 10).blk t).view.read (Elt Ideal) (G10 V c) := by
  show (cfg1.win 10).cut (grid1.coords t) ((dat1 V c).after 10 t) = _
  rw [after1_10]
  unfold out1_10
  rw [View.canon_unit_zero hz3]
  simp only [View.ld_unit_zero (S := S5000x64) hz2, View.ld_unit_zero (S := S1x1x5000) hz3, View.ld_unit_zero (S := S1x256) hz2,
    View.ld_unit_zero (S := S1x1) hz2, View.ld_unit_zero (S := S64x64) hz2, View.ld_unit_zero (S := S1x64) hz2]
  obtain ⟨-, -, -, -, -, -, -, -, -, -, -, -, -, -, -, -, -, -, -, -, -, e0, e1, e2⟩ := idx_facts t
  refine funext fun (y : S1x256x2.Idx) => ?_
  obtain ⟨u, g, s, rfl⟩ : ∃ (u : Fin 1) (g : Fin 256) (s : Fin 2), y = ix3 u g s := ⟨y 0, y 1, y 2, eq_ix3 y⟩
  obtain rfl : u = 0 := Subsingleton.elim _ _
  have hs : s = 0 ∨ s = 1 := by
    rcases s with ⟨_ | _ | n, h⟩
    · exact Or.inl rfl
    · exact Or.inr rfl
    · omega
  rcases hs with rfl | rfl
  · show k1_pay2 (F := Ideal) (k1_pay3 (F := Ideal) (idB V c t)) (k1_pay4 (F := Ideal) (idB V c t) (muB V c t) (ivB V c t) (hB V c t) (gB V c t) (beB V c t) (xB V c t)) (wB V c t) (bB V c t) (ix3 (0 : Fin 1) g (0 : Fin 2))
        = G10 V c (((cfg1.win 10).blk t).view.emb (ix3 (0 : Fin 1) g (0 : Fin 2)))
    refine (stat_tile_0 V c t g).trans (G10_apply_0 V c _ (tile t) g ?_ ?_ ?_).symm
    · show win1_10.index t (0 : Fin 3) * 1 + 1 * 0 = t.val; omega
    · show win1_10.index t (1 : Fin 3) * 256 + 1 * g.val = g.val; omega
    · show win1_10.index t (2 : Fin 3) * 2 + 1 * 0 = 0; omega
  · show k1_pay2 (F := Ideal) (k1_pay3 (F := Ideal) (idB V c t)) (k1_pay4 (F := Ideal) (idB V c t) (muB V c t) (ivB V c t) (hB V c t) (gB V c t) (beB V c t) (xB V c t)) (wB V c t) (bB V c t) (ix3 (0 : Fin 1) g (1 : Fin 2))
        = G10 V c (((cfg1.win 10).blk t).view.emb (ix3 (0 : Fin 1) g (1 : Fin 2)))
    refine (stat_tile_1 V c t g).trans (G10_apply_1 V c _ (tile t) g ?_ ?_ ?_).symm
    · show win1_10.index t (0 : Fin 3) * 1 + 1 * 0 = t.val; omega
    · show win1_10.index t (1 : Fin 3) * 256 + 1 * g.val = g.val; omega
    · show win1_10.index t (2 : Fin 3) * 2 + 1 * 1 = 1; omega

theorem mem_blk10 (t : Fin cfg1.N) (i : S20x256x2.Idx) :
    i ∈ ((cfg1.win 10).blk t).view.set ↔ ∀ a : Fin 3, win1_10.index t a * S1x256x2.size a ≤ (i a).val ∧ (i a).val < win1_10.index t a * S1x256x2.size a + S1x256x2.size a := by
  show i ∈ ((View.whole main_v43_1).slice (win1_10.rect t)).set ↔ _
  rw [View.set_slice_whole, Rect.mem_set_unit]
  exact Iff.rfl

/-- Slot t is the block of tile t. -/
theorem cover10 (i : S20x256x2.Idx) :
    ∃ t : Fin cfg1.N, (cfg1.win 10).flush t = true ∧ i ∈ ((cfg1.win 10).blk t).view.set := by
  have hi0 : (i 0).val < 20 := (i 0).isLt
  have hi1 : (i 1).val < 256 := (i 1).isLt
  have hi2 : (i 2).val < 2 := (i 2).isLt
  obtain ⟨t, ht⟩ : ∃ t : Fin cfg1.N, t.val = (i 0).val :=
    ⟨⟨(i 0).val, Nat.lt_of_lt_of_eq hi0 N_1.symm⟩, rfl⟩
  obtain ⟨-, -, -, -, -, -, -, -, -, -, -, -, -, -, -, -, -, -, -, -, -, e0, e1, e2⟩ := idx_facts t
  refine ⟨t, flush1_10 t, ?_⟩
  rw [mem_blk10]
  intro a
  match a with
  | ⟨0, _⟩ => show win1_10.index t (0 : Fin 3) * 1 ≤ (i 0).val ∧ (i 0).val < win1_10.index t (0 : Fin 3) * 1 + 1; omega
  | ⟨1, _⟩ => show win1_10.index t (1 : Fin 3) * 256 ≤ (i 1).val ∧ (i 1).val < win1_10.index t (1 : Fin 3) * 256 + 256; omega
  | ⟨2, _⟩ => show win1_10.index t (2 : Fin 3) * 2 ≤ (i 2).val ∧ (i 2).val < win1_10.index t (2 : Fin 3) * 2 + 2; omega

theorem final10 : (dat1 V c).arrAt 10 cfg1.N = G10 V c :=
  (dat1 V c).arrAt_eq_of_cover 10 (G10 V c) (fun t _ => flushed10_eq V c t) (cover10)

/-- The second output array after the region: per tile and graph, the tile's part of the two per-graph sums. -/
theorem stats_apply (t : Fin 20) (g : Fin 256) :
    ((dat1 V c).arrAt 10 cfg1.N : FVec Ideal S20x256x2 .f32) (ix3 t g (0 : Fin 2)) = tilePart (ids3 (idA V c)) (rowSum (h2 V c)) t g
    ∧ ((dat1 V c).arrAt 10 cfg1.N : FVec Ideal S20x256x2 .f32) (ix3 t g (1 : Fin 2)) = tilePart (ids3 (idA V c)) (rowSq (h2 V c)) t g := by
  rw [final10]
  exact ⟨G10_apply_0 V c _ t g rfl rfl rfl, G10_apply_1 V c _ t g rfl rfl rfl⟩

end Cert.KernelIdeal.KReg1

end
-- ==== Proof.KReg2.lean ====
/-
  What the third kernel region leaves in its two output arrays, as functions of the arrays it finds: the first output is the
  per-graph norm, clamped at zero, of the table it finds, with the per-graph mean and scale tables read through each node's
  0/1 row; slot t of the second output holds, per graph and channel, the tile's part of the per-graph sum of that channel of
  the first output.
-/
import proofs.«409760_j63745904607323_2_alg».proof.Proof.Gen.KernelIdeal.Frame
import proofs.«409760_j63745904607323_2_alg».proof.Proof.Tabs
import proofs.«409760_j63745904607323_2_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KReg2

open Cert.KernelIdeal Cert.KernelIdeal.Gen
open Idealize.ShloMosaic Idealize.ShloMosaic.TcCoe Idealize.ShloMosaic.ValueIdx Idealize.SL.Sem
open Cert.Spec Cert.Tabs

/-! ## Layout operations at coordinates -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A row index `r` of the reduced array with column `k` put back is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

end Layout

/-- A sum along the rows' entries from the zero word: at row `r` it is the sum of the row. -/
theorem laneSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

/-- A comparison's bit, widened and read as a number: 1 if the two words are equal, else 0. -/
theorem eqBit_value (u v : BitVec 32) :
    FloatOps.sitofp (F := Ideal) .f32 ((IntOp.cmpi .eq u v).setWidth 32) = if u = v then (1 : EReal) else 0 := by
  show ((((IntOp.cmpi .eq u v).setWidth 32).toInt : ℝ) : EReal) = _
  by_cases h : u = v
  · rw [if_pos h, IntOp.cmpi_eq.2 h]
    have e : ((1#1 : BitVec 1).setWidth 32).toInt = 1 := by decide
    rw [e]; norm_num
  · rw [if_neg h, eq_zero_of_ne_one (fun e => h (IntOp.cmpi_eq.1 e))]
    have e : ((0#1 : BitVec 1).setWidth 32).toInt = 0 := by decide
    rw [e]; norm_num

/-! ## The body's values at coordinates -/

/-- The kernel's 0/1 table: at row `r` and graph `g`, 1 if the row's id is the word `g`, else 0. -/
theorem onehot_apply (x1 : Vec Ideal S1x1x5000 .i32) (r : Fin 5000) (g : Fin 256) :
    k2_pay2 (F := Ideal) x1 (ix2 r g)
      = if x1 (ix3 (0 : Fin 1) (0 : Fin 1) r) = BitVec.ofNat 32 g.val then (1 : EReal) else 0 := by
  unfold k2_pay2
  dsimp only
  rw [sitofp_apply, extui_apply]
  show FloatOps.sitofp (F := Ideal) .f32
      ((IntOp.cmpi .eq
        (broadcastTo S5000x256 (transpose S5000x1 [1, 0] (shapeCast S1x5000 x1 _) _) _ (ix2 r g))
        (broadcastTo S5000x256 (iota .tc S1x256 32 [1] _) _ (ix2 r g))).setWidth 32) = _
  rw [broadcastTo_a1_ab_apply, transpose_ix2_apply, shapeCast_1ab_ab_apply, broadcastTo_1b_ab_apply, iota_single_apply]
  exact eqBit_value _ _

/-- The body's clamped norm at row `r` and channel `j`: the row's entry minus the mean picked by the row's 0/1 entries, times the
    scale picked the same way, times the gain, plus the bias, clamped below at zero. -/
theorem pay3_apply (x1 : Vec Ideal S1x1x5000 .i32) (x2 x3 : Vec Ideal S1x256 .f32) (x0 : Vec Ideal S5000x64 .f32)
    (x4 x5 : Vec Ideal S1x1 .f32) (r : Fin 5000) (j : Fin 64) :
    k2_pay3 (F := Ideal) x1 x2 x3 x0 x4 x5 (ix2 r j)
      = max ((x0 (ix2 r j) - ∑ g : Fin 256, k2_pay2 (F := Ideal) x1 (ix2 r g) * x2 (ix2 (0 : Fin 1) g))
              * (∑ g : Fin 256, k2_pay2 (F := Ideal) x1 (ix2 r g) * x3 (ix2 (0 : Fin 1) g))
              * x4 (ix2 (0 : Fin 1) (0 : Fin 1)) + x5 (ix2 (0 : Fin 1) (0 : Fin 1))) 0 := by
  unfold k2_pay3
  dsimp only
  rw [maximumf_apply, addf_apply, mulf_apply, mulf_apply, subf_apply, broadcast_apply]
  simp only [shapeCast_self]
  rw [broadcastTo_a1_ab_apply, broadcastTo_a1_ab_apply, shapeCast_a_a1_apply, shapeCast_a_a1_apply,
    laneSum_apply, laneSum_apply, broadcastTo_11_ab_apply, broadcastTo_11_ab_apply, Ideal.ofBits_def, Cert.Consts.ofBits_zero]
  simp only [mulf_apply, broadcastTo_1b_ab_apply]

/-! ## The 0/1 table times the block, contracted over the tile's rows -/

theorem lhs_rows_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_rows_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_rows_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_rows_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The product of the two blocks contracted over the rows, from a zero table, in the 1 × 256 × 64 layout: at graph `g` and
    channel `j` it is the sum over the rows of the left entry at `(r, g)` times the right entry at `(r, j)`. -/
theorem pay1_apply (lhs : FVec Ideal S5000x256 .bf16) (rhs : FVec Ideal S5000x64 .bf16) (u : Fin 1) (g : Fin 256) (j : Fin 64) :
    k2_pay1 (F := Ideal) lhs rhs (ix3 u g j) = ∑ r : Fin 5000, lhs (ix2 r g) * rhs (ix2 r j) := by
  unfold k2_pay1
  rw [shapeCast_ab_1ab_apply]
  show FloatOps.matmul dot_S5000x256_S5000x64_S256x64_0_0_1_1_n_n none lhs rhs (constant S256x64 .f32 0x00000000#32) (ix2 g j) = _
  rw [Ideal.matmul_constant_zero_apply, ← Equiv.sum_comp (ValueIdx.contrEquiv1 dot_S5000x256_S5000x64_S256x64_0_0_1_1_n_n 5000 rfl rfl).symm]
  refine Finset.sum_congr rfl fun k _ => ?_
  have hk := ValueIdx.contrEquiv1_symm_val dot_S5000x256_S5000x64_S256x64_0_0_1_1_n_n 5000 rfl rfl k
  have el : dot_S5000x256_S5000x64_S256x64_0_0_1_1_n_n.lhsIdx (ix2 g j) ((ValueIdx.contrEquiv1 dot_S5000x256_S5000x64_S256x64_0_0_1_1_n_n 5000 rfl rfl).symm k) = ix2 k g := funext fun a => Fin.ext (by
    match a with
    | ⟨0, _⟩ => exact (lhs_rows_0 _ _).trans hk
    | ⟨1, _⟩ => exact lhs_rows_1 _ _)
  have er : dot_S5000x256_S5000x64_S256x64_0_0_1_1_n_n.rhsIdx (ix2 g j) ((ValueIdx.contrEquiv1 dot_S5000x256_S5000x64_S256x64_0_0_1_1_n_n 5000 rfl rfl).symm k) = ix2 k j := funext fun a => Fin.ext (by
    match a with
    | ⟨0, _⟩ => exact (rhs_rows_0 _ _).trans hk
    | ⟨1, _⟩ => exact rhs_rows_1 _ _)
  rw [el, er]

/-- The tile's per-graph sums as the body computes them: the 0/1 table against the clamped norm, summed over the tile's rows. -/
theorem poolPay_apply (x1 : Vec Ideal S1x1x5000 .i32) (x2 x3 : Vec Ideal S1x256 .f32) (x0 : Vec Ideal S5000x64 .f32)
    (x4 x5 : Vec Ideal S1x1 .f32) (u : Fin 1) (g : Fin 256) (j : Fin 64) :
    k2_pay1 (F := Ideal) (k2_pay4 (F := Ideal) x1) (k2_pay5 (F := Ideal) x1 x2 x3 x0 x4 x5) (ix3 u g j)
      = ∑ r : Fin 5000, k2_pay2 (F := Ideal) x1 (ix2 r g) * k2_pay3 (F := Ideal) x1 x2 x3 x0 x4 x5 (ix2 r j) := by
  rw [pay1_apply]
  rfl

/-! ## The body's values as the formulas over plain tables -/

/-- A per-graph table picked through the body's 0/1 row is the table's pick at the node, when the row's id is the node's. -/
theorem pick_eq (x1 : Vec Ideal S1x1x5000 .i32) (xr : Vec Ideal S1x256 .f32) (bt : Ids) (v : Fin 256 → EReal)
    (n : Fin 100000) (r : Fin 5000) (h1 : x1 (ix3 (0 : Fin 1) (0 : Fin 1) r) = bt n) (hv : ∀ g, xr (ix2 (0 : Fin 1) g) = v g) :
    (∑ g : Fin 256, k2_pay2 (F := Ideal) x1 (ix2 r g) * xr (ix2 (0 : Fin 1) g)) = pickT bt v n := by
  unfold pickT oh
  refine Finset.sum_congr rfl fun g _ => ?_
  rw [onehot_apply, h1, hv]

/-- The body's clamped norm at row `r` is the norm with the given tables at the node the row holds. -/
theorem pay3_eq_lnWith (x1 : Vec Ideal S1x1x5000 .i32) (x2 x3 : Vec Ideal S1x256 .f32) (x0 : Vec Ideal S5000x64 .f32)
    (x4 x5 : Vec Ideal S1x1 .f32) (bt : Ids) (H : Mat 100000 64) (μ ι : Fin 256 → EReal) (w β : EReal)
    (n : Fin 100000) (r : Fin 5000) (j : Fin 64)
    (h1 : x1 (ix3 (0 : Fin 1) (0 : Fin 1) r) = bt n) (h0 : x0 (ix2 r j) = H n j)
    (h2 : ∀ g, x2 (ix2 (0 : Fin 1) g) = μ g) (h3 : ∀ g, x3 (ix2 (0 : Fin 1) g) = ι g)
    (h4 : x4 (ix2 (0 : Fin 1) (0 : Fin 1)) = w) (h5 : x5 (ix2 (0 : Fin 1) (0 : Fin 1)) = β) :
    k2_pay3 (F := Ideal) x1 x2 x3 x0 x4 x5 (ix2 r j) = lnWith bt H μ ι w β n j := by
  rw [pay3_apply, pick_eq x1 x2 bt μ n r h1 h2, pick_eq x1 x3 bt ι n r h1 h3, h0, h4, h5]
  rfl

/-- The body's per-graph sums over a tile whose rows hold the tile's nodes are the tile's part of the per-graph sum of the norm. -/
theorem poolPay_eq_tilePart (x1 : Vec Ideal S1x1x5000 .i32) (x2 x3 : Vec Ideal S1x256 .f32) (x0 : Vec Ideal S5000x64 .f32)
    (x4 x5 : Vec Ideal S1x1 .f32) (bt : Ids) (H : Mat 100000 64) (μ ι : Fin 256 → EReal) (w β : EReal)
    (t : Fin 20) (u : Fin 1) (g : Fin 256) (j : Fin 64)
    (h1 : ∀ r, x1 (ix3 (0 : Fin 1) (0 : Fin 1) r) = bt (nodeOf t r)) (h0 : ∀ r, x0 (ix2 r j) = H (nodeOf t r) j)
    (h2 : ∀ g, x2 (ix2 (0 : Fin 1) g) = μ g) (h3 : ∀ g, x3 (ix2 (0 : Fin 1) g) = ι g)
    (h4 : x4 (ix2 (0 : Fin 1) (0 : Fin 1)) = w) (h5 : x5 (ix2 (0 : Fin 1) (0 : Fin 1)) = β) :
    k2_pay1 (F := Ideal) (k2_pay4 (F := Ideal) x1) (k2_pay5 (F := Ideal) x1 x2 x3 x0 x4 x5) (ix3 u g j)
      = tilePart bt (fun n => lnWith bt H μ ι w β n j) t g := by
  rw [poolPay_apply]
  unfold tilePart oh
  refine Finset.sum_congr rfl fun r _ => ?_
  rw [onehot_apply, h1 r, pay3_eq_lnWith x1 x2 x3 x0 x4 x5 bt H μ ι w β (nodeOf t r) r j (h1 r) (h0 r) h2 h3 h4 h5]

/-! ## Where the blocks sit -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- At grid point `t` the node table's, the ids' and the two outputs' blocks are block `t` along their first axis; the four small
    tables are read whole. -/
theorem block_at : ∀ t : Fin cfg2.N,
    win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

-- the buffer contents when the region is entered
variable (V : (c : Dev nD) → (b : Ref sig .tc) → Buf (Elt Ideal) ((c : Thread nD τ).loc b)) (c : Dev nD)

/-- The region's six input arrays as it finds them. -/
abbrev hA : FVec Ideal S100000x64 .f32 := V c main_v43_0
abbrev idA : IVec S20x1x5000 32 := V c main_v14
abbrev muA : FVec Ideal S1x256 .f32 := V c main_v61
abbrev ivA : FVec Ideal S1x256 .f32 := V c main_v62
abbrev gA : FVec Ideal S1x1 .f32 := V c main_v19
abbrev beA : FVec Ideal S1x1 .f32 := V c main_v20

/-- The clamped norm of the table the region finds, with the tables it finds. -/
def y : Mat 100000 64 :=
  lnWith (ids3 (idA V c)) (tab2 (hA V c)) (row2 (muA V c)) (row2 (ivA V c)) (num2 (gA V c)) (num2 (beA V c))

/-! ## The input blocks at grid point t, read off the arrays the region finds -/

/-- Row `r` of the ids' block is the id of node 5000·t + r. -/
theorem ids_block (t : Fin cfg2.N) (r : Fin 5000) :
    iblk2 V c 1 t (ix3 (0 : Fin 1) (0 : Fin 1) r) = ids3 (idA V c) (nodeOf t r) := by
  obtain ⟨e00, e01, e10, e11, e12, e20, e21, e30, e31, e40, e41, e50, e51, e60, e61, e70, e71, e72⟩ := block_at t
  refine Eq.trans ?_ (ids3_nodeOf (idA V c) t r).symm
  show V c main_v14 (((cfg2.win 1).blk t).view.emb (ix3 (0 : Fin 1) (0 : Fin 1) r)) = V c main_v14 (ix3 t (0 : Fin 1) r)
  refine congrArg (V c main_v14) (funext fun a => Fin.ext ?_)
  match a with
  | ⟨0, _⟩ => show win2_1.index t (0 : Fin 3) * 1 + 1 * 0 = t.val; omega
  | ⟨1, _⟩ => show win2_1.index t (1 : Fin 3) * 1 + 1 * 0 = 0; omega
  | ⟨2, _⟩ => show win2_1.index t (2 : Fin 3) * 5000 + 1 * r.val = r.val; omega

/-- Row `r` of the table's block is the row of node 5000·t + r. -/
theorem h_block (t : Fin cfg2.N) (r : Fin 5000) (j : Fin 64) :
    iblk2 V c 0 t (ix2 r j) = tab2 (hA V c) (nodeOf t r) j := by
  obtain ⟨e00, e01, e10, e11, e12, e20, e21, e30, e31, e40, e41, e50, e51, e60, e61, e70, e71, e72⟩ := block_at t
  show V c main_v43_0 (((cfg2.win 0).blk t).view.emb (ix2 r j)) = V c main_v43_0 (ix2 (nodeOf t r) j)
  refine congrArg (V c main_v43_0) (funext fun a => Fin.ext ?_)
  match a with
  | ⟨0, _⟩ => show win2_0.index t (0 : Fin 2) * 5000 + 1 * r.val = 5000 * t.val + r.val; omega
  | ⟨1, _⟩ => show win2_0.index t (1 : Fin 2) * 64 + 1 * j.val = j.val; omega

/-- The mean row's block is the whole row. -/
theorem mu_block (t : Fin cfg2.N) (g : Fin 256) : iblk2 V c 2 t (ix2 (0 : Fin 1) g) = row2 (muA V c) g := by
  obtain ⟨e00, e01, e10, e11, e12, e20, e21, e30, e31, e40, e41, e50, e51, e60, e61, e70, e71, e72⟩ := block_at t
  show V c main_v61 (((cfg2.win 2).blk t).view.emb (ix2 (0 : Fin 1) g)) = V c main_v61 (ix2 (0 : Fin 1) g)
  refine congrArg (V c main_v61) (funext fun a => Fin.ext ?_)
  match a with
  | ⟨0, _⟩ => show win2_2.index t (0 : Fin 2) * 1 + 1 * 0 = 0; omega
  | ⟨1, _⟩ => show win2_2.index t (1 : Fin 2) * 256 + 1 * g.val = g.val; omega

/-- The scale row's block is the whole row. -/
theorem iv_block (t : Fin cfg2.N) (g : Fin 256) : iblk2 V c 3 t (ix2 (0 : Fin 1) g) = row2 (ivA V c) g := by
  obtain ⟨e00, e01, e10, e11, e12, e20, e21, e30, e31, e40, e41, e50, e51, e60, e61, e70, e71, e72⟩ := block_at t
  show V c main_v62 (((cfg2.win 3).blk t).view.emb (ix2 (0 : Fin 1) g)) = V c main_v62 (ix2 (0 : Fin 1) g)
  refine congrArg (V c main_v62) (funext fun a => Fin.ext ?_)
  match a with
  | ⟨0, _⟩ => show win2_3.index t (0 : Fin 2) * 1 + 1 * 0 = 0; omega
  | ⟨1, _⟩ => show win2_3.index t (1 : Fin 2) * 256 + 1 * g.val = g.val; omega

/-- The gain's block is the number. -/
theorem g_block (t : Fin cfg2.N) : iblk2 V c 4 t (ix2 (0 : Fin 1) (0 : Fin 1)) = num2 (gA V c) := by
  obtain ⟨e00, e01, e10, e11, e12, e20, e21, e30, e31, e40, e41, e50, e51, e60, e61, e70, e71, e72⟩ := block_at t
  show V c main_v19 (((cfg2.win 4).blk t).view.emb (ix2 (0 : Fin 1) (0 : Fin 1))) = V c main_v19 (ix2 (0 : Fin 1) (0 : Fin 1))
  refine congrArg (V c main_v19) (funext fun a => Fin.ext ?_)
  match a with
  | ⟨0, _⟩ => show win2_4.index t (0 : Fin 2) * 1 + 1 * 0 = 0; omega
  | ⟨1, _⟩ => show win2_4.index t (1 : Fin 2) * 1 + 1 * 0 = 0; omega

/-- The bias's block is the number. -/
theorem be_block (t : Fin cfg2.N) : iblk2 V c 5 t (ix2 (0 : Fin 1) (0 : Fin 1)) = num2 (beA V c) := by
  obtain ⟨e00, e01, e10, e11, e12, e20, e21, e30, e31, e40, e41, e50, e51, e60, e61, e70, e71, e72⟩ := block_at t
  show V c main_v20 (((cfg2.win 5).blk t).view.emb (ix2 (0 : Fin 1) (0 : Fin 1))) = V c main_v20 (ix2 (0 : Fin 1) (0 : Fin 1))
  refine congrArg (V c main_v20) (funext fun a => Fin.ext ?_)
  match a with
  | ⟨0, _⟩ => show win2_5.index t (0 : Fin 2) * 1 + 1 * 0 = 0; omega
  | ⟨1, _⟩ => show win2_5.index t (1 : Fin 2) * 1 + 1 * 0 = 0; omega

/-! ## The first output array -/

/-- The first output as one function of the arrays the region finds. -/
def G6 : S100000x64.Idx → Elt Ideal .f32 := fun i => y V c ⟨(i 0).val, idx2_lt0 i⟩ ⟨(i 1).val, idx2_lt1 i⟩

/-- That function at row `r`, channel `j` of block `t` is the norm at node 5000·t + r. -/
theorem G6_block (t : Fin cfg2.N) (r : Fin 5000) (j : Fin 64) :
    G6 V c (((cfg2.win 6).blk t).view.emb (ix2 r j)) = y V c (nodeOf t r) j := by
  obtain ⟨e00, e01, e10, e11, e12, e20, e21, e30, e31, e40, e41, e50, e51, e60, e61, e70, e71, e72⟩ := block_at t
  have ha : (⟨((((cfg2.win 6).blk t).view.emb (ix2 r j)) 0).val, idx2_lt0 _⟩ : Fin 100000) = nodeOf t r :=
    Fin.ext (by show win2_6.index t (0 : Fin 2) * 5000 + 1 * r.val = 5000 * t.val + r.val; omega)
  have hb : (⟨((((cfg2.win 6).blk t).view.emb (ix2 r j)) 1).val, idx2_lt1 _⟩ : Fin 64) = j :=
    Fin.ext (by show win2_6.index t (1 : Fin 2) * 64 + 1 * j.val = j.val; omega)
  show y V c ⟨((((cfg2.win 6).blk t).view.emb (ix2 r j)) 0).val, idx2_lt0 _⟩ ⟨((((cfg2.win 6).blk t).view.emb (ix2 r j)) 1).val, idx2_lt1 _⟩ = _
  rw [ha, hb]

/-- What grid point `t` writes back to the first output is block `t` of that function. -/
theorem flushed6_eq (t : Fin cfg2.N) :
    (dat2 V c).flushed 6 t = ((cfg2.win 6).blk t).view.read (Elt Ideal) (G6 V c) := by
  show (cfg2.win 6).cut (grid2.coords t) ((dat2 V c).after 6 t) = _
  rw [after2_6]
  unfold out2_6
  rw [View.canon_unit_zero zeros2]
  simp only [View.ld_unit_zero (S := S1x1x5000) zeros3, View.ld_unit_zero (S := S1x256) zeros2,
    View.ld_unit_zero (S := S5000x64) zeros2, View.ld_unit_zero (S := S1x1) zeros2]
  funext y'
  obtain ⟨r, j, rfl⟩ : ∃ (r : Fin 5000) (j : Fin 64), y' = ix2 r j := ⟨y' 0, y' 1, eq_ix2 y'⟩
  show k2_pay3 (F := Ideal) (iblk2 V c 1 t) (iblk2 V c 2 t) (iblk2 V c 3 t) (iblk2 V c 0 t) (iblk2 V c 4 t) (iblk2 V c 5 t) (ix2 r j)
      = G6 V c (((cfg2.win 6).blk t).view.emb (ix2 r j))
  rw [G6_block V c t r j]
  exact pay3_eq_lnWith (iblk2 V c 1 t) (iblk2 V c 2 t) (iblk2 V c 3 t) (iblk2 V c 0 t) (iblk2 V c 4 t) (iblk2 V c 5 t)
    (ids3 (idA V c)) (tab2 (hA V c)) (row2 (muA V c)) (row2 (ivA V c)) (num2 (gA V c)) (num2 (beA V c)) (nodeOf t r) r j
    (ids_block V c t r) (h_block V c t r j) (mu_block V c t) (iv_block V c t) (g_block V c t) (be_block V c t)

/-- An index of the first output is in grid point `t`'s block iff each coordinate is in the block's range on its axis. -/
theorem mem_blk6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v63_0).slice (win2_6.rect t)).set ↔ _
  rw [View.set_slice_whole, Rect.mem_set_unit]
  exact Iff.rfl

/-- Every index of the first output is in some grid point's block: row n is in block n / 5000. -/
theorem cover6 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by show (i 0).val / 5000 < 20; omega⟩, rfl⟩
  obtain ⟨e00, e01, e10, e11, e12, e20, e21, e30, e31, e40, e41, e50, e51, e60, e61, e70, e71, e72⟩ := block_at t
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The first output array after the region is that function. -/
theorem final6 : (dat2 V c).arrAt 6 cfg2.N = G6 V c :=
  (dat2 V c).arrAt_eq_of_cover 6 (G6 V c) (fun t _ => flushed6_eq V c t) (cover6)

/-! ## The second output array -/

/-- The second output as one function of the arrays the region finds. -/
def G7 : S20x256x64.Idx → Elt Ideal .f32 := fun i =>
  tilePart (ids3 (idA V c)) (fun n => y V c n ⟨(i 2).val, (i 2).isLt⟩) ⟨(i 0).val, (i 0).isLt⟩ ⟨(i 1).val, (i 1).isLt⟩

/-- That function at graph `g`, channel `j` of slot `t` is tile `t`'s part of the per-graph sum. -/
theorem G7_block (t : Fin cfg2.N) (u : Fin 1) (g : Fin 256) (j : Fin 64) :
    G7 V c (((cfg2.win 7).blk t).view.emb (ix3 u g j)) = tilePart (ids3 (idA V c)) (fun n => y V c n j) t g := by
  obtain ⟨e00, e01, e10, e11, e12, e20, e21, e30, e31, e40, e41, e50, e51, e60, e61, e70, e71, e72⟩ := block_at t
  have hu : u.val = 0 := by have := u.isLt; omega
  have ha : (⟨((((cfg2.win 7).blk t).view.emb (ix3 u g j)) 0).val, ((((cfg2.win 7).blk t).view.emb (ix3 u g j)) 0).isLt⟩ : Fin 20) = t :=
    Fin.ext (by show win2_7.index t (0 : Fin 3) * 1 + 1 * u.val = t.val; omega)
  have hb : (⟨((((cfg2.win 7).blk t).view.emb (ix3 u g j)) 1).val, ((((cfg2.win 7).blk t).view.emb (ix3 u g j)) 1).isLt⟩ : Fin 256) = g :=
    Fin.ext (by show win2_7.index t (1 : Fin 3) * 256 + 1 * g.val = g.val; omega)
  have hc : (⟨((((cfg2.win 7).blk t).view.emb (ix3 u g j)) 2).val, ((((cfg2.win 7).blk t).view.emb (ix3 u g j)) 2).isLt⟩ : Fin 64) = j :=
    Fin.ext (by show win2_7.index t (2 : Fin 3) * 64 + 1 * j.val = j.val; omega)
  show tilePart (ids3 (idA V c))
      (fun n => y V c n ⟨((((cfg2.win 7).blk t).view.emb (ix3 u g j)) 2).val, ((((cfg2.win 7).blk t).view.emb (ix3 u g j)) 2).isLt⟩)
      ⟨((((cfg2.win 7).blk t).view.emb (ix3 u g j)) 0).val, ((((cfg2.win 7).blk t).view.emb (ix3 u g j)) 0).isLt⟩
      ⟨((((cfg2.win 7).blk t).view.emb (ix3 u g j)) 1).val, ((((cfg2.win 7).blk t).view.emb (ix3 u g j)) 1).isLt⟩ = _
  rw [ha, hb, hc]

/-- What grid point `t` writes back to the second output is slot `t` of that function. -/
theorem flushed7_eq (t : Fin cfg2.N) :
    (dat2 V c).flushed 7 t = ((cfg2.win 7).blk t).view.read (Elt Ideal) (G7 V c) := by
  show (cfg2.win 7).cut (grid2.coords t) ((dat2 V c).after 7 t) = _
  rw [after2_7]
  unfold out2_7
  rw [View.canon_unit_zero zeros3]
  simp only [View.ld_unit_zero (S := S1x1x5000) zeros3, View.ld_unit_zero (S := S1x256) zeros2,
    View.ld_unit_zero (S := S5000x64) zeros2, View.ld_unit_zero (S := S1x1) zeros2]
  funext y'
  obtain ⟨u, g, j, rfl⟩ : ∃ (u : Fin 1) (g : Fin 256) (j : Fin 64), y' = ix3 u g j := ⟨y' 0, y' 1, y' 2, eq_ix3 y'⟩
  show k2_pay1 (F := Ideal) (k2_pay4 (F := Ideal) (iblk2 V c 1 t))
        (k2_pay5 (F := Ideal) (iblk2 V c 1 t) (iblk2 V c 2 t) (iblk2 V c 3 t) (iblk2 V c 0 t) (iblk2 V c 4 t) (iblk2 V c 5 t)) (ix3 u g j)
      = G7 V c (((cfg2.win 7).blk t).view.emb (ix3 u g j))
  rw [G7_block V c t u g j]
  exact poolPay_eq_tilePart (iblk2 V c 1 t) (iblk2 V c 2 t) (iblk2 V c 3 t) (iblk2 V c 0 t) (iblk2 V c 4 t) (iblk2 V c 5 t)
    (ids3 (idA V c)) (tab2 (hA V c)) (row2 (muA V c)) (row2 (ivA V c)) (num2 (gA V c)) (num2 (beA V c)) t u g j
    (fun r => ids_block V c t r) (fun r => h_block V c t r j) (mu_block V c t) (iv_block V c t) (g_block V c t) (be_block V c t)

/-- An index of the second output is in grid point `t`'s slot iff each coordinate is in the slot's range on its axis. -/
theorem mem_blk7 (t : Fin cfg2.N) (i : S20x256x64.Idx) :
    i ∈ ((cfg2.win 7).blk t).view.set ↔ ∀ a : Fin 3, win2_7.index t a * S1x256x64.size a ≤ (i a).val ∧ (i a).val < win2_7.index t a * S1x256x64.size a + S1x256x64.size a := by
  show i ∈ ((View.whole main_v63_1).slice (win2_7.rect t)).set ↔ _
  rw [View.set_slice_whole, Rect.mem_set_unit]
  exact Iff.rfl

/-- Every index of the second output is in some grid point's slot: slot t is point t's. -/
theorem cover7 (i : S20x256x64.Idx) :
    ∃ t : Fin cfg2.N, (cfg2.win 7).flush t = true ∧ i ∈ ((cfg2.win 7).blk t).view.set := by
  have hi0 : (i 0).val < 20 := (i 0).isLt
  have hi1 : (i 1).val < 256 := (i 1).isLt
  have hi2 : (i 2).val < 64 := (i 2).isLt
  obtain ⟨t, ht⟩ : ∃ t : Fin cfg2.N, t.val = (i 0).val := ⟨⟨(i 0).val, by show (i 0).val < 20; omega⟩, rfl⟩
  obtain ⟨e00, e01, e10, e11, e12, e20, e21, e30, e31, e40, e41, e50, e51, e60, e61, e70, e71, e72⟩ := block_at t
  refine ⟨t, flush2_7 t, ?_⟩
  rw [mem_blk7]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 256 ≤ (i 1).val ∧ (i 1).val < win2_7.index t (1 : Fin 3) * 256 + 256; omega
  | ⟨2, _⟩ => show win2_7.index t (2 : Fin 3) * 64 ≤ (i 2).val ∧ (i 2).val < win2_7.index t (2 : Fin 3) * 64 + 64; omega

/-- The second output array after the region is that function. -/
theorem final7 : (dat2 V c).arrAt 7 cfg2.N = G7 V c :=
  (dat2 V c).arrAt_eq_of_cover 7 (G7 V c) (fun t _ => flushed7_eq V c t) (cover7)

/-- The first output array after the region. -/
theorem out_apply (n : Fin 100000) (j : Fin 64) :
    ((dat2 V c).arrAt 6 cfg2.N : FVec Ideal S100000x64 .f32) (ix2 n j) = y V c n j := by
  exact (congrFun (final6 V c) (ix2 n j)).trans rfl

/-- The second output array after the region: per tile, graph and channel, the tile's part of the per-graph sum. -/
theorem pool_apply (t : Fin 20) (g : Fin 256) (j : Fin 64) :
    ((dat2 V c).arrAt 7 cfg2.N : FVec Ideal S20x256x64 .f32) (ix3 t g j) = tilePart (ids3 (idA V c)) (fun n => y V c n j) t g := by
  exact (congrFun (final7 V c) (ix3 t g j)).trans rfl

end Cert.KernelIdeal.KReg2

end
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«409760_j63745904607323_2_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.KHost0.lean ====
/-
  The host operations before the first kernel region, read index by index from any buffer contents: the aggregate table
  (each edge's source row, its id wrapped and clamped, added into the row its target id names), the graph ids re-laid as 20
  tiles of one row of 5000, the two bias vectors as one-row tables, the four norm scalars as 1 × 1 tables; the argument
  arrays themselves are not written.
-/
import proofs.«409760_j63745904607323_2_alg».proof.Proof.Gen.KernelIdeal.Frame
import proofs.«409760_j63745904607323_2_alg».proof.Proof.Tabs
import proofs.«409760_j63745904607323_2_alg».proof.Proof.Consts
import proofs.«409760_j63745904607323_2_alg».proof.Proof.LibGatherScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KHost0

open Cert.KernelIdeal Cert.KernelIdeal.Gen
open Idealize.ShloMosaic Idealize.ShloMosaic.TcCoe Idealize.ShloMosaic.ValueIdx Idealize.SL.Sem Idealize.ShloMosaic.StableHlo
open Cert.Spec Cert.Tabs
open Idealize.ShloMosaic.StableHlo.Predicate

-- the buffer contents before the stretch
variable (U : Valuation τ sig (Elt Ideal))

/-- The contents after the stretch. -/
abbrev U' : Valuation τ sig (Elt Ideal) := StableHlo.after hostOps0 U

/-- The argument arrays before the stretch. -/
abbrev xA : FVec Ideal S100000x64 .f32 := U (Proc.devRef .tc main_arg0)
abbrev eiA : IVec S2x1200000 32 := U (Proc.devRef .tc main_arg1)
abbrev btA : IVec S100000 32 := U (Proc.devRef .tc main_arg2)
abbrev bgA : FVec Ideal S64 .f32 := U (Proc.devRef .tc main_arg4)
abbrev w1A : FVec Ideal S1 .f32 := U (Proc.devRef .tc main_arg5)
abbrev b1A : FVec Ideal S1 .f32 := U (Proc.devRef .tc main_arg6)
abbrev bfA : FVec Ideal S64 .f32 := U (Proc.devRef .tc main_arg8)
abbrev w2A : FVec Ideal S1 .f32 := U (Proc.devRef .tc main_arg9)
abbrev b2A : FVec Ideal S1 .f32 := U (Proc.devRef .tc main_arg10)

/-! ## The edge list's two rows, the wrapped source ids, the gathered rows -/

/-- Row 0 of the edge list as a vector: the source ids. -/
private def srcV : IVec S1200000 32 :=
  shapeCast S1200000 (extractStridedSlice S1x1200000 ![0, 0] (eiA U) slices_S2x1200000_S1x1200000_0_0) shapeCasts_S1x1200000_S1200000
/-- Row 1 of the edge list as a vector: the target ids. -/
private def dstV : IVec S1200000 32 :=
  shapeCast S1200000 (extractStridedSlice S1x1200000 ![1, 0] (eiA U) slices_S2x1200000_S1x1200000_1_0) shapeCasts_S1x1200000_S1200000
/-- The source ids, a negative one wrapped by 100000. -/
private def wrapV : IVec S1200000 32 :=
  (select : (⟨S1200000, .i1⟩ : BufTy).Contents (Elt Ideal) → (⟨S1200000, .i32⟩ : BufTy).Contents (Elt Ideal) → (⟨S1200000, .i32⟩ : BufTy).Contents (Elt Ideal) → (⟨S1200000, .i32⟩ : BufTy).Contents (Elt Ideal))
    ((cmpi .slt : (⟨S1200000, .i32⟩ : BufTy).Contents (Elt Ideal) → (⟨S1200000, .i32⟩ : BufTy).Contents (Elt Ideal) → (⟨S1200000, .i1⟩ : BufTy).Contents (Elt Ideal))
      (srcV U) (broadcastInDim S1200000 ![] bcast_S_S1200000 (constantI S_ 32 0#32)))
    ((addi : (⟨S1200000, .i32⟩ : BufTy).Contents (Elt Ideal) → (⟨S1200000, .i32⟩ : BufTy).Contents (Elt Ideal) → (⟨S1200000, .i32⟩ : BufTy).Contents (Elt Ideal))
      (srcV U) (broadcastInDim S1200000 ![] bcast_S_S1200000 (constantI S_ 32 100000#32)))
    (srcV U)
/-- The wrapped source ids and the target ids as columns. -/
private def srcCol : IVec S1200000x1 32 := broadcastInDim S1200000x1 ![0] bcast_S1200000_S1200000x1_0 (wrapV U)
private def dstCol : IVec S1200000x1 32 := broadcastInDim S1200000x1 ![0] bcast_S1200000_S1200000x1_0 (dstV U)
/-- Each edge's source row. -/
private def srcRows : FVec Ideal S1200000x64 .f32 :=
  Host.gather gather_S100000x64_S1200000x1_S1200000x64_1_0_n_n_0_1_164 (xA U) (srcCol U)
/-- The zero table. -/
private def zeroTab : FVec Ideal S100000x64 .f32 :=
  broadcastInDim S100000x64 ![] bcast_S_S100000x64 (constant (F := Ideal) S_ .f32 0x00000000#32)

/-- The aggregate buffer is the accumulating scatter of the source rows into the zero table at the target ids. -/
private theorem v13_eq :
    (U' U (Proc.devRef .tc main_v13) : FVec Ideal S100000x64 .f32)
      = Host.scatterAdd (F := Ideal) scatter_S100000x64_S1200000x1_S1200000x64_1_0_0_1 zeroTab (dstCol U) (srcRows U) := by
  show StableHlo.after hostOps0 U (Proc.devRef .tc main_v13) = _
  simp only [hostOps0]
  after_results_simp
  unfold zeroTab dstCol srcRows srcCol wrapV srcV dstV
  rfl

/-- The wrap of a negative index as the program spells it (compare with zero, add, select) is the conditional. -/
private theorem wrap_select (w k : BitVec 32) :
    Scalar.select (IntOp.cmpi .slt w 0#32) (IntOp.addi w k) w = if w.slt 0#32 then w + k else w := by
  show (if BitVec.ofBool (w.slt 0#32) = 1 then w + k else w) = _
  cases w.slt 0#32
  · rfl
  · rfl

/-- The target column of the edge list is row 1 of it. -/
private theorem dst_col (e : Fin 1200000) : dstCol U (ixP e) = eiA U (ix2 (1 : Fin 2) e) := by
  unfold dstCol
  rw [broadcastInDim_apply _ bcast_S1200000_S1200000x1_0 (dstV U) (ixP e) (ix1 e) (fun a => match a with
    | ⟨0, _⟩ => by show e.val = if (1200000 : Nat) = 1 then 0 else e.val; rw [if_neg (by decide)])]
  unfold dstV
  rw [shapeCast_1a_a_apply]
  exact extractStridedSlice_apply ![1, 0] (eiA U) slices_S2x1200000_S1x1200000_1_0 _ (ix2 (1 : Fin 2) e) (fun a => match a with
    | ⟨0, _⟩ => rfl
    | ⟨1, _⟩ => by show e.val = 0 + e.val; omega)

/-- Row 0 of the edge list at an edge. -/
private theorem src_word (e : Fin 1200000) : srcV U (ix1 e) = eiA U (ix2 (0 : Fin 2) e) := by
  unfold srcV
  rw [shapeCast_1a_a_apply]
  exact extractStridedSlice_apply ![0, 0] (eiA U) slices_S2x1200000_S1x1200000_0_0 _ (ix2 (0 : Fin 2) e) (fun a => match a with
    | ⟨0, _⟩ => rfl
    | ⟨1, _⟩ => by show e.val = 0 + e.val; omega)

/-- The source column: row 0 of the edge list, a negative id wrapped by 100000. -/
private theorem src_col (e : Fin 1200000) :
    srcCol U (ixP e) = if (eiA U (ix2 (0 : Fin 2) e)).slt 0#32 then eiA U (ix2 (0 : Fin 2) e) + 100000#32 else eiA U (ix2 (0 : Fin 2) e) := by
  unfold srcCol
  rw [broadcastInDim_apply _ bcast_S1200000_S1200000x1_0 (wrapV U) (ixP e) (ix1 e) (fun a => match a with
    | ⟨0, _⟩ => by show e.val = if (1200000 : Nat) = 1 then 0 else e.val; rw [if_neg (by decide)])]
  have h0 : (broadcastInDim S1200000 ![] bcast_S_S1200000 (constantI S_ 32 0#32) : IVec S1200000 32) (ix1 e) = 0#32 :=
    broadcastInDim_apply _ bcast_S_S1200000 _ _ (fun a => a.elim0) (fun a => a.elim0)
  have h1 : (broadcastInDim S1200000 ![] bcast_S_S1200000 (constantI S_ 32 100000#32) : IVec S1200000 32) (ix1 e) = 100000#32 :=
    broadcastInDim_apply _ bcast_S_S1200000 _ _ (fun a => a.elim0) (fun a => a.elim0)
  show Scalar.select (IntOp.cmpi .slt (srcV U (ix1 e)) ((broadcastInDim S1200000 ![] bcast_S_S1200000 (constantI S_ 32 0#32) : IVec S1200000 32) (ix1 e)))
      (IntOp.addi (srcV U (ix1 e)) ((broadcastInDim S1200000 ![] bcast_S_S1200000 (constantI S_ 32 100000#32) : IVec S1200000 32) (ix1 e))) (srcV U (ix1 e)) = _
  rw [h0, h1, src_word]
  exact wrap_select _ _

/-- The gathered source rows. -/
private theorem srcRows_apply (e : Fin 1200000) (c : Fin 64) :
    srcRows U (ix2 e c) = tab2 (xA U) (srcOf (fun e => eiA U (ix2 (0 : Fin 2) e)) e) c := by
  unfold srcRows
  rw [Cert.LibGatherScatter.gather_rows_apply (by decide) gather_S100000x64_S1200000x1_S1200000x64_1_0_n_n_0_1_164 rfl rfl rfl rfl rfl, src_col]
  rfl

/-- The zero table is zero. -/
private theorem zeroTab_apply (i : S100000x64.Idx) : (zeroTab i : EReal) = 0 := by
  unfold zeroTab
  rw [broadcastInDim_apply _ bcast_S_S100000x64 _ i (fun a => a.elim0) (fun a => a.elim0)]
  show FloatOps.ofBits (F := Ideal) .f32 0x00000000#32 = _
  rw [Ideal.ofBits_def, Cert.Consts.ofBits_zero]

/-- The aggregate table. -/
theorem agg_apply (n : Fin 100000) (k : Fin 64) :
    (U' U (Proc.devRef .tc main_v13) : FVec Ideal S100000x64 .f32) (ix2 n k)
      = agg (tab2 (xA U)) (fun e => eiA U (ix2 (0 : Fin 2) e)) (fun e => eiA U (ix2 (1 : Fin 2) e)) n k := by
  have h := Cert.LibGatherScatter.scatterAdd_rows_apply scatter_S100000x64_S1200000x1_S1200000x64_1_0_0_1 rfl rfl rfl rfl
    zeroTab (dstCol U) (srcRows U) n k
  rw [zeroTab_apply, zero_add] at h
  rw [v13_eq]
  refine h.trans ?_
  unfold agg
  refine Finset.sum_congr (Finset.filter_congr fun e _ => ?_) fun e _ => srcRows_apply U e k
  rw [dst_col]

/-- The ids re-laid in tiles are the ids. -/
theorem ids_apply (n : Fin 100000) :
    ids3 (U' U (Proc.devRef .tc main_v14) : IVec S20x1x5000 32) n = btA U (ix1 n) := by
  have e : (U' U (Proc.devRef .tc main_v14) : IVec S20x1x5000 32)
      = shapeCast S20x1x5000 (U (Proc.devRef .tc main_arg2) : IVec S100000 32) shapeCasts_S100000_S20x1x5000 := by
    show StableHlo.after hostOps0 U (Proc.devRef .tc main_v14) = _
    simp only [hostOps0]
    after_results
    rfl
  unfold ids3
  rw [e]
  refine shapeCast_apply (U (Proc.devRef .tc main_arg2) : IVec S100000 32) shapeCasts_S100000_S20x1x5000 _ (ix1 n) ?_
  show (S100000.rowMajor (ix1 n)).val = (S20x1x5000.rowMajor _).val
  rw [Shape.rowMajor_val_three, Shape.rowMajor_val_one]
  have hn := n.isLt
  show n.val = (n.val / 5000 * 1 + 0) * 5000 + n.val % 5000
  omega

/-- The bias vectors as rows, the norm scalars as 1 × 1 tables. -/
theorem bg_apply (j : Fin 64) : row2 (U' U (Proc.devRef .tc main_v15) : FVec Ideal S1x64 .f32) j = bgA U (ix1 j) := by
  have e : (U' U (Proc.devRef .tc main_v15) : FVec Ideal S1x64 .f32)
      = shapeCast S1x64 (U (Proc.devRef .tc main_arg4) : FVec Ideal S64 .f32) shapeCasts_S64_S1x64 := by
    show StableHlo.after hostOps0 U (Proc.devRef .tc main_v15) = _
    simp only [hostOps0]
    after_results
    rfl
  unfold row2
  rw [e]
  exact shapeCast_a_1a_apply _ _ _ _
theorem bf_apply (j : Fin 64) : row2 (U' U (Proc.devRef .tc main_v16) : FVec Ideal S1x64 .f32) j = bfA U (ix1 j) := by
  have e : (U' U (Proc.devRef .tc main_v16) : FVec Ideal S1x64 .f32)
      = shapeCast S1x64 (U (Proc.devRef .tc main_arg8) : FVec Ideal S64 .f32) shapeCasts_S64_S1x64 := by
    show StableHlo.after hostOps0 U (Proc.devRef .tc main_v16) = _
    simp only [hostOps0]
    after_results
    rfl
  unfold row2
  rw [e]
  exact shapeCast_a_1a_apply _ _ _ _
theorem w1_apply : num2 (U' U (Proc.devRef .tc main_v17) : FVec Ideal S1x1 .f32) = w1A U (ix1 (0 : Fin 1)) := by
  have e : (U' U (Proc.devRef .tc main_v17) : FVec Ideal S1x1 .f32)
      = shapeCast S1x1 (U (Proc.devRef .tc main_arg5) : FVec Ideal S1 .f32) shapeCasts_S1_S1x1 := by
    show StableHlo.after hostOps0 U (Proc.devRef .tc main_v17) = _
    simp only [hostOps0]
    after_results
    rfl
  unfold num2
  rw [e]
  exact shapeCast_a_1a_apply _ _ _ _
theorem b1_apply : num2 (U' U (Proc.devRef .tc main_v18) : FVec Ideal S1x1 .f32) = b1A U (ix1 (0 : Fin 1)) := by
  have e : (U' U (Proc.devRef .tc main_v18) : FVec Ideal S1x1 .f32)
      = shapeCast S1x1 (U (Proc.devRef .tc main_arg6) : FVec Ideal S1 .f32) shapeCasts_S1_S1x1 := by
    show StableHlo.after hostOps0 U (Proc.devRef .tc main_v18) = _
    simp only [hostOps0]
    after_results
    rfl
  unfold num2
  rw [e]
  exact shapeCast_a_1a_apply _ _ _ _
theorem w2_apply : num2 (U' U (Proc.devRef .tc main_v19) : FVec Ideal S1x1 .f32) = w2A U (ix1 (0 : Fin 1)) := by
  have e : (U' U (Proc.devRef .tc main_v19) : FVec Ideal S1x1 .f32)
      = shapeCast S1x1 (U (Proc.devRef .tc main_arg9) : FVec Ideal S1 .f32) shapeCasts_S1_S1x1 := by
    show StableHlo.after hostOps0 U (Proc.devRef .tc main_v19) = _
    simp only [hostOps0]
    after_results
    rfl
  unfold num2
  rw [e]
  exact shapeCast_a_1a_apply _ _ _ _
theorem b2_apply : num2 (U' U (Proc.devRef .tc main_v20) : FVec Ideal S1x1 .f32) = b2A U (ix1 (0 : Fin 1)) := by
  have e : (U' U (Proc.devRef .tc main_v20) : FVec Ideal S1x1 .f32)
      = shapeCast S1x1 (U (Proc.devRef .tc main_arg10) : FVec Ideal S1 .f32) shapeCasts_S1_S1x1 := by
    show StableHlo.after hostOps0 U (Proc.devRef .tc main_v20) = _
    simp only [hostOps0]
    after_results
    rfl
  unfold num2
  rw [e]
  exact shapeCast_a_1a_apply _ _ _ _

/-- The stretch writes none of the argument arrays the regions read. -/
theorem keep_arg0 : U' U (Proc.devRef .tc main_arg0) = U (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg3 : U' U (Proc.devRef .tc main_arg3) = U (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep_arg7 : U' U (Proc.devRef .tc main_arg7) = U (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KHost0

end
-- ==== Proof.KHost123.lean ====
/-
  The three host stretches after the kernel regions, read index by index from any buffer contents. After the first region:
  the 20 tile parts of each per-graph sum are added; the count is kept; the mean is the sum over max(1, count)·64 and the
  scale the reciprocal square root of (mean of squares − mean², clamped at zero, plus the small positive number); both are
  re-laid as one-row tables. After the second region the same with that region's sums and the kept count. After the third:
  the tile parts of the per-graph row sums are added and divided by max(1, count); the node table is not written.
-/
import proofs.«409760_j63745904607323_2_alg».proof.Proof.Gen.KernelIdeal.Frame
import proofs.«409760_j63745904607323_2_alg».proof.Proof.Tabs
import proofs.«409760_j63745904607323_2_alg».proof.Proof.Consts
import proofs.«409760_j63745904607323_2_alg».proof.Proof.LibGatherScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

open scoped BigOperators

noncomputable section

namespace Cert.KernelIdeal.KHost123

open Cert.KernelIdeal Cert.KernelIdeal.Gen
open Idealize.ShloMosaic Idealize.ShloMosaic.TcCoe Idealize.ShloMosaic.ValueIdx Idealize.SL.Sem Idealize.ShloMosaic.StableHlo
open Cert.Spec Cert.Tabs

-- the buffer contents before the stretch
variable (U : Valuation τ sig (Elt Ideal))

/-- The contents after each stretch (each stretch is three lists of operations). -/
abbrev U1 : Valuation τ sig (Elt Ideal) := StableHlo.after hostOps1_2 (StableHlo.after hostOps1_1 (StableHlo.after hostOps1 U))
abbrev U2 : Valuation τ sig (Elt Ideal) := StableHlo.after hostOps2_2 (StableHlo.after hostOps2_1 (StableHlo.after hostOps2 U))
abbrev U3 : Valuation τ sig (Elt Ideal) := StableHlo.after hostOps3_2 (StableHlo.after hostOps3_1 (StableHlo.after hostOps3 U))

/-- The arrays each stretch reads. -/
abbrev st1 : FVec Ideal S20x256x3 .f32 := U (Proc.devRef .tc main_v21_1)
abbrev st2 : FVec Ideal S20x256x2 .f32 := U (Proc.devRef .tc main_v43_1)
abbrev pp : FVec Ideal S20x256x64 .f32 := U (Proc.devRef .tc main_v63_1)
abbrev cntA : FVec Ideal S256 .f32 := U (Proc.devRef .tc main_v28)

/-! ## The operations read at an index -/

/-- The 20 tile parts of a 20 × 256 × 3 array added, from zero. -/
theorem red3_apply (x : FVec Ideal S20x256x3 .f32) (g : Fin 256) (k : Fin 3) :
    Host.reduceAdd (F := Ideal) x (constant (F := Ideal) S_ .f32 0x00000000#32) reducesTo_S20x256x3_S256x3_d0 h_S_ (ix2 g k)
      = ∑ t : Fin 20, x (ix3 t g k) := by
  simp only [Host.reduceAdd, Ideal.hostReduceAdd_def]
  rw [Ideal.hostReduceAdd_single reducesTo_S20x256x3_S256x3_d0 (by decide)]
  rw [constant_apply, Consts.ofBits_zero, zero_add]
  refine Finset.sum_congr rfl fun t _ => ?_
  exact congrArg x (funext fun a => Fin.ext (by match a with | ⟨0, _⟩ => rfl | ⟨1, _⟩ => rfl | ⟨2, _⟩ => rfl))

/-- A 256 × 1 column re-laid as a vector. -/
theorem col_apply (y : FVec Ideal S256x1 .f32) (g : Fin 256) :
    shapeCast S256 y shapeCasts_S256x1_S256 (ix1 g) = y (ix2 g (0 : Fin 1)) :=
  shapeCast_apply y shapeCasts_S256x1_S256 _ _ (by
    rw [Shape.rowMajor_val_two, Shape.rowMajor_val_one]
    show g.val * 1 + 0 = g.val
    omega)

/-- A constant spread over the 256 graphs. -/
theorem spread_apply (y : FVec Ideal S_ .f32) (g : Fin 256) :
    broadcastInDim S256 ![] bcast_S_S256 y (ix1 g) = y ix0 :=
  broadcastInDim_apply _ bcast_S_S256 y _ _ (fun a => a.elim0)

/-- An entry of a vector over the graphs, and the one entry of a constant, as extended reals. -/
abbrev e1 (x : FVec Ideal S256 .f32) (g : Fin 256) : EReal := x (ix1 g)
abbrev e0 (x : FVec Ideal S_ .f32) : EReal := x ix0

/-! ## The first stretch's lists: what each leaves in the buffers read later -/

section Lists

variable (V : Valuation τ sig (Elt Ideal))

theorem ops1_v24 :
    (StableHlo.after hostOps1 V (Proc.devRef .tc main_v24) : FVec Ideal S256 .f32)
      = shapeCast S256 (extractStridedSlice S256x1 ![0, 0] (Host.reduceAdd (F := Ideal) (V (Proc.devRef .tc main_v21_1) : FVec Ideal S20x256x3 .f32) (constant (F := Ideal) S_ .f32 0x00000000#32) reducesTo_S20x256x3_S256x3_d0 h_S_) slices_S256x3_S256x1_0_0) shapeCasts_S256x1_S256 := by
  simp only [hostOps1]; after_results; rfl

theorem ops1_v26 :
    (StableHlo.after hostOps1 V (Proc.devRef .tc main_v26) : FVec Ideal S256 .f32)
      = shapeCast S256 (extractStridedSlice S256x1 ![0, 1] (Host.reduceAdd (F := Ideal) (V (Proc.devRef .tc main_v21_1) : FVec Ideal S20x256x3 .f32) (constant (F := Ideal) S_ .f32 0x00000000#32) reducesTo_S20x256x3_S256x3_d0 h_S_) slices_S256x3_S256x1_0_1) shapeCasts_S256x1_S256 := by
  simp only [hostOps1]; after_results; rfl

theorem ops1_v28 :
    (StableHlo.after hostOps1 V (Proc.devRef .tc main_v28) : FVec Ideal S256 .f32)
      = shapeCast S256 (extractStridedSlice S256x1 ![0, 2] (Host.reduceAdd (F := Ideal) (V (Proc.devRef .tc main_v21_1) : FVec Ideal S20x256x3 .f32) (constant (F := Ideal) S_ .f32 0x00000000#32) reducesTo_S20x256x3_S256x3_d0 h_S_) slices_S256x3_S256x1_0_2) shapeCasts_S256x1_S256 := by
  simp only [hostOps1]; after_results; rfl

theorem ops1_cst2 :
    (StableHlo.after hostOps1 V (Proc.devRef .tc main_cst_2) : FVec Ideal S_ .f32) = constant (F := Ideal) S_ .f32 0x3F800000#32 := by
  simp only [hostOps1]; after_results

theorem ops11_v29 :
    (StableHlo.after hostOps1_1 V (Proc.devRef .tc main_v29) : FVec Ideal S256 .f32)
      = (maximumf (broadcastInDim S256 ![] bcast_S_S256 (V (Proc.devRef .tc main_cst_2) : FVec Ideal S_ .f32)) (V (Proc.devRef .tc main_v28) : FVec Ideal S256 .f32) : FVec Ideal S256 .f32) := by
  simp only [hostOps1_1]; after_results; rfl

end Lists

section Lists

variable (V : Valuation τ sig (Elt Ideal))

theorem ops11_keep_v24 : StableHlo.after hostOps1_1 V (Proc.devRef .tc main_v24) = V (Proc.devRef .tc main_v24) := by
  simp only [hostOps1_1]; after_results

theorem ops11_keep_v26 : StableHlo.after hostOps1_1 V (Proc.devRef .tc main_v26) = V (Proc.devRef .tc main_v26) := by
  simp only [hostOps1_1]; after_results

theorem ops11_keep_v28 : StableHlo.after hostOps1_1 V (Proc.devRef .tc main_v28) = V (Proc.devRef .tc main_v28) := by
  simp only [hostOps1_1]; after_results

theorem ops12_keep_v28 : StableHlo.after hostOps1_2 V (Proc.devRef .tc main_v28) = V (Proc.devRef .tc main_v28) := by
  simp only [hostOps1_2]; after_results

theorem ops12_v41 :
    (StableHlo.after hostOps1_2 V (Proc.devRef .tc main_v41) : FVec Ideal S1x256 .f32)
      = shapeCast S1x256 (Host.divf (V (Proc.devRef .tc main_v24) : FVec Ideal S256 .f32) (mulf (V (Proc.devRef .tc main_v29) : FVec Ideal S256 .f32) (broadcastInDim S256 ![] bcast_S_S256 (constant (F := Ideal) S_ .f32 0x42800000#32) : FVec Ideal S256 .f32))) shapeCasts_S256_S1x256 := by
  simp only [hostOps1_2]; after_results; rfl

theorem ops12_v42 :
    (StableHlo.after hostOps1_2 V (Proc.devRef .tc main_v42) : FVec Ideal S1x256 .f32)
      = shapeCast S1x256 (Host.rsqrt (addf (maximumf (subf (Host.divf (V (Proc.devRef .tc main_v26) : FVec Ideal S256 .f32) (mulf (V (Proc.devRef .tc main_v29) : FVec Ideal S256 .f32) (broadcastInDim S256 ![] bcast_S_S256 (constant (F := Ideal) S_ .f32 0x42800000#32) : FVec Ideal S256 .f32))) (mulf (Host.divf (V (Proc.devRef .tc main_v24) : FVec Ideal S256 .f32) (mulf (V (Proc.devRef .tc main_v29) : FVec Ideal S256 .f32) (broadcastInDim S256 ![] bcast_S_S256 (constant (F := Ideal) S_ .f32 0x42800000#32) : FVec Ideal S256 .f32))) (Host.divf (V (Proc.devRef .tc main_v24) : FVec Ideal S256 .f32) (mulf (V (Proc.devRef .tc main_v29) : FVec Ideal S256 .f32) (broadcastInDim S256 ![] bcast_S_S256 (constant (F := Ideal) S_ .f32 0x42800000#32) : FVec Ideal S256 .f32))))) (broadcastInDim S256 ![] bcast_S_S256 (constant (F := Ideal) S_ .f32 0x00000000#32) : FVec Ideal S256 .f32)) (broadcastInDim S256 ![] bcast_S_S256 (constant (F := Ideal) S_ .f32 0x3727C5AC#32) : FVec Ideal S256 .f32))) shapeCasts_S256_S1x256 := by
  simp only [hostOps1_2]; after_results; rfl

/-- One entry of the sums, of the sums of squares, of the counts. -/
theorem ops1_v24_apply (g : Fin 256) :
    e1 (StableHlo.after hostOps1 V (Proc.devRef .tc main_v24)) g = ∑ t : Fin 20, st1 V (ix3 t g (0 : Fin 3)) := by
  show (StableHlo.after hostOps1 V (Proc.devRef .tc main_v24) : FVec Ideal S256 .f32) (ix1 g) = _
  rw [ops1_v24, col_apply, slice2_axis1_apply 0 _ _ g (0 : Fin 1) (0 : Fin 3) rfl, red3_apply]

theorem ops1_v26_apply (g : Fin 256) :
    e1 (StableHlo.after hostOps1 V (Proc.devRef .tc main_v26)) g = ∑ t : Fin 20, st1 V (ix3 t g (1 : Fin 3)) := by
  show (StableHlo.after hostOps1 V (Proc.devRef .tc main_v26) : FVec Ideal S256 .f32) (ix1 g) = _
  rw [ops1_v26, col_apply, slice2_axis1_apply 1 _ _ g (0 : Fin 1) (1 : Fin 3) rfl, red3_apply]

theorem ops1_v28_apply (g : Fin 256) :
    e1 (StableHlo.after hostOps1 V (Proc.devRef .tc main_v28)) g = ∑ t : Fin 20, st1 V (ix3 t g (2 : Fin 3)) := by
  show (StableHlo.after hostOps1 V (Proc.devRef .tc main_v28) : FVec Ideal S256 .f32) (ix1 g) = _
  rw [ops1_v28, col_apply, slice2_axis1_apply 2 _ _ g (0 : Fin 1) (2 : Fin 3) rfl, red3_apply]

/-- The count clamped below at one. -/
theorem ops11_v29_apply (g : Fin 256) :
    e1 (StableHlo.after hostOps1_1 V (Proc.devRef .tc main_v29)) g
      = max (e0 (V (Proc.devRef .tc main_cst_2))) (e1 (V (Proc.devRef .tc main_v28)) g) := by
  show (StableHlo.after hostOps1_1 V (Proc.devRef .tc main_v29) : FVec Ideal S256 .f32) (ix1 g) = _
  rw [ops11_v29, maximumf_apply, spread_apply]

/-- The mean and the scale from the sums and the clamped count. -/
theorem ops12_v41_apply (g : Fin 256) :
    row2 (StableHlo.after hostOps1_2 V (Proc.devRef .tc main_v41)) g
      = Ideal.div (e1 (V (Proc.devRef .tc main_v24)) g) (e1 (V (Proc.devRef .tc main_v29)) g * 64) := by
  show (StableHlo.after hostOps1_2 V (Proc.devRef .tc main_v41) : FVec Ideal S1x256 .f32) (ix2 (0 : Fin 1) g) = _
  rw [ops12_v41, shapeCast_a_1a_apply]
  show Ideal.div _ (_ * ((broadcastInDim S256 ![] bcast_S_S256 (constant (F := Ideal) S_ .f32 0x42800000#32) : FVec Ideal S256 .f32) (ix1 g))) = _
  rw [spread_apply, constant_apply, Consts.ofBits_64]

theorem ops12_v42_apply (g : Fin 256) :
    row2 (StableHlo.after hostOps1_2 V (Proc.devRef .tc main_v42)) g
      = Ideal.rsqrt (max (Ideal.div (e1 (V (Proc.devRef .tc main_v26)) g) (e1 (V (Proc.devRef .tc main_v29)) g * 64)
          - Ideal.div (e1 (V (Proc.devRef .tc main_v24)) g) (e1 (V (Proc.devRef .tc main_v29)) g * 64)
            * Ideal.div (e1 (V (Proc.devRef .tc main_v24)) g) (e1 (V (Proc.devRef .tc main_v29)) g * 64)) 0 + Spec.eps) := by
  show (StableHlo.after hostOps1_2 V (Proc.devRef .tc main_v42) : FVec Ideal S1x256 .f32) (ix2 (0 : Fin 1) g) = _
  rw [ops12_v42, shapeCast_a_1a_apply]
  show Ideal.rsqrt (max (Ideal.div _ (_ * ((broadcastInDim S256 ![] bcast_S_S256 (constant (F := Ideal) S_ .f32 0x42800000#32) : FVec Ideal S256 .f32) (ix1 g))) - Ideal.div _ (_ * ((broadcastInDim S256 ![] bcast_S_S256 (constant (F := Ideal) S_ .f32 0x42800000#32) : FVec Ideal S256 .f32) (ix1 g))) * Ideal.div _ (_ * ((broadcastInDim S256 ![] bcast_S_S256 (constant (F := Ideal) S_ .f32 0x42800000#32) : FVec Ideal S256 .f32) (ix1 g)))) ((broadcastInDim S256 ![] bcast_S_S256 (constant (F := Ideal) S_ .f32 0x00000000#32) : FVec Ideal S256 .f32) (ix1 g)) + ((broadcastInDim S256 ![] bcast_S_S256 (constant (F := Ideal) S_ .f32 0x3727C5AC#32) : FVec Ideal S256 .f32) (ix1 g))) = _
  rw [spread_apply, spread_apply, spread_apply, constant_apply, constant_apply, constant_apply, Consts.ofBits_64,
    Consts.ofBits_zero]
  rfl

end Lists

/-! ## After the first region -/

theorem cnt1_apply (g : Fin 256) :
    (U1 U (Proc.devRef .tc main_v28) : FVec Ideal S256 .f32) (ix1 g) = ∑ t : Fin 20, st1 U (ix3 t g (2 : Fin 3)) := by
  show e1 (StableHlo.after hostOps1_2 (StableHlo.after hostOps1_1 (StableHlo.after hostOps1 U)) (Proc.devRef .tc main_v28)) g = _
  rw [ops12_keep_v28, ops11_keep_v28, ops1_v28_apply]

/-- The clamped count after the first two lists. -/
theorem clip1_apply (g : Fin 256) :
    e1 (StableHlo.after hostOps1_1 (StableHlo.after hostOps1 U) (Proc.devRef .tc main_v29)) g
      = max 1 (∑ t : Fin 20, st1 U (ix3 t g (2 : Fin 3))) := by
  rw [ops11_v29_apply, ops1_cst2, ops1_v28_apply]
  show max (Ideal.ofBits .f32 0x3F800000#32) _ = _
  rw [Consts.ofBits_one]

theorem mean1_apply (g : Fin 256) :
    row2 (U1 U (Proc.devRef .tc main_v41) : FVec Ideal S1x256 .f32) g
      = meanOf (∑ t : Fin 20, st1 U (ix3 t g (0 : Fin 3))) (∑ t : Fin 20, st1 U (ix3 t g (2 : Fin 3))) := by
  show row2 (StableHlo.after hostOps1_2 (StableHlo.after hostOps1_1 (StableHlo.after hostOps1 U)) (Proc.devRef .tc main_v41)) g = _
  rw [ops12_v41_apply, clip1_apply, ops11_keep_v24, ops1_v24_apply]
  rfl

theorem inv1_apply (g : Fin 256) :
    row2 (U1 U (Proc.devRef .tc main_v42) : FVec Ideal S1x256 .f32) g
      = invOf (∑ t : Fin 20, st1 U (ix3 t g (0 : Fin 3))) (∑ t : Fin 20, st1 U (ix3 t g (1 : Fin 3)))
          (∑ t : Fin 20, st1 U (ix3 t g (2 : Fin 3))) := by
  show row2 (StableHlo.after hostOps1_2 (StableHlo.after hostOps1_1 (StableHlo.after hostOps1 U)) (Proc.devRef .tc main_v42)) g = _
  rw [ops12_v42_apply, clip1_apply, ops11_keep_v24, ops11_keep_v26, ops1_v24_apply, ops1_v26_apply]
  rfl

/-! ## The second stretch's lists -/

/-- The 20 tile parts of a 20 × 256 × 2 array added, from zero. -/
theorem red2_apply (x : FVec Ideal S20x256x2 .f32) (g : Fin 256) (k : Fin 2) :
    Host.reduceAdd (F := Ideal) x (constant (F := Ideal) S_ .f32 0x00000000#32) reducesTo_S20x256x2_S256x2_d0 h_S_ (ix2 g k)
      = ∑ t : Fin 20, x (ix3 t g k) := by
  simp only [Host.reduceAdd, Ideal.hostReduceAdd_def]
  rw [Ideal.hostReduceAdd_single reducesTo_S20x256x2_S256x2_d0 (by decide)]
  rw [constant_apply, Consts.ofBits_zero, zero_add]
  refine Finset.sum_congr rfl fun t _ => ?_
  exact congrArg x (funext fun a => Fin.ext (by match a with | ⟨0, _⟩ => rfl | ⟨1, _⟩ => rfl | ⟨2, _⟩ => rfl))

section Lists2

variable (V : Valuation τ sig (Elt Ideal))

theorem ops2_v46 :
    (StableHlo.after hostOps2 V (Proc.devRef .tc main_v46) : FVec Ideal S256 .f32)
      = shapeCast S256 (extractStridedSlice S256x1 ![0, 0] (Host.reduceAdd (F := Ideal) (V (Proc.devRef .tc main_v43_1) : FVec Ideal S20x256x2 .f32) (constant (F := Ideal) S_ .f32 0x00000000#32) reducesTo_S20x256x2_S256x2_d0 h_S_) slices_S256x2_S256x1_0_0) shapeCasts_S256x1_S256 := by
  simp only [hostOps2]; after_results; rfl

theorem ops2_v48 :
    (StableHlo.after hostOps2 V (Proc.devRef .tc main_v48) : FVec Ideal S256 .f32)
      = shapeCast S256 (extractStridedSlice S256x1 ![0, 1] (Host.reduceAdd (F := Ideal) (V (Proc.devRef .tc main_v43_1) : FVec Ideal S20x256x2 .f32) (constant (F := Ideal) S_ .f32 0x00000000#32) reducesTo_S20x256x2_S256x2_d0 h_S_) slices_S256x2_S256x1_0_1) shapeCasts_S256x1_S256 := by
  simp only [hostOps2]; after_results; rfl

theorem ops2_cst7 :
    (StableHlo.after hostOps2 V (Proc.devRef .tc main_cst_7) : FVec Ideal S_ .f32) = constant (F := Ideal) S_ .f32 0x3F800000#32 := by
  simp only [hostOps2]; after_results

theorem ops2_keep_v28 : StableHlo.after hostOps2 V (Proc.devRef .tc main_v28) = V (Proc.devRef .tc main_v28) := by
  simp only [hostOps2]; after_results

theorem ops21_v49 :
    (StableHlo.after hostOps2_1 V (Proc.devRef .tc main_v49) : FVec Ideal S256 .f32)
      = (maximumf (broadcastInDim S256 ![] bcast_S_S256 (V (Proc.devRef .tc main_cst_7) : FVec Ideal S_ .f32)) (V (Proc.devRef .tc main_v28) : FVec Ideal S256 .f32) : FVec Ideal S256 .f32) := by
  simp only [hostOps2_1]; after_results; rfl

theorem ops21_keep_v46 : StableHlo.after hostOps2_1 V (Proc.devRef .tc main_v46) = V (Proc.devRef .tc main_v46) := by
  simp only [hostOps2_1]; after_results

theorem ops21_keep_v48 : StableHlo.after hostOps2_1 V (Proc.devRef .tc main_v48) = V (Proc.devRef .tc main_v48) := by
  simp only [hostOps2_1]; after_results

theorem ops22_v61 :
    (StableHlo.after hostOps2_2 V (Proc.devRef .tc main_v61) : FVec Ideal S1x256 .f32)
      = shapeCast S1x256 (Host.divf (V (Proc.devRef .tc main_v46) : FVec Ideal S256 .f32) (mulf (V (Proc.devRef .tc main_v49) : FVec Ideal S256 .f32) (broadcastInDim S256 ![] bcast_S_S256 (constant (F := Ideal) S_ .f32 0x42800000#32) : FVec Ideal S256 .f32))) shapeCasts_S256_S1x256 := by
  simp only [hostOps2_2]; after_results; rfl

theorem ops22_v62 :
    (StableHlo.after hostOps2_2 V (Proc.devRef .tc main_v62) : FVec Ideal S1x256 .f32)
      = shapeCast S1x256 (Host.rsqrt (addf (maximumf (subf (Host.divf (V (Proc.devRef .tc main_v48) : FVec Ideal S256 .f32) (mulf (V (Proc.devRef .tc main_v49) : FVec Ideal S256 .f32) (broadcastInDim S256 ![] bcast_S_S256 (constant (F := Ideal) S_ .f32 0x42800000#32) : FVec Ideal S256 .f32))) (mulf (Host.divf (V (Proc.devRef .tc main_v46) : FVec Ideal S256 .f32) (mulf (V (Proc.devRef .tc main_v49) : FVec Ideal S256 .f32) (broadcastInDim S256 ![] bcast_S_S256 (constant (F := Ideal) S_ .f32 0x42800000#32) : FVec Ideal S256 .f32))) (Host.divf (V (Proc.devRef .tc main_v46) : FVec Ideal S256 .f32) (mulf (V (Proc.devRef .tc main_v49) : FVec Ideal S256 .f32) (broadcastInDim S256 ![] bcast_S_S256 (constant (F := Ideal) S_ .f32 0x42800000#32) : FVec Ideal S256 .f32))))) (broadcastInDim S256 ![] bcast_S_S256 (constant (F := Ideal) S_ .f32 0x00000000#32) : FVec Ideal S256 .f32)) (broadcastInDim S256 ![] bcast_S_S256 (constant (F := Ideal) S_ .f32 0x3727C5AC#32) : FVec Ideal S256 .f32))) shapeCasts_S256_S1x256 := by
  simp only [hostOps2_2]; after_results; rfl

theorem ops2_v46_apply (g : Fin 256) :
    e1 (StableHlo.after hostOps2 V (Proc.devRef .tc main_v46)) g = ∑ t : Fin 20, st2 V (ix3 t g (0 : Fin 2)) := by
  show (StableHlo.after hostOps2 V (Proc.devRef .tc main_v46) : FVec Ideal S256 .f32) (ix1 g) = _
  rw [ops2_v46, col_apply, slice2_axis1_apply 0 _ _ g (0 : Fin 1) (0 : Fin 2) rfl, red2_apply]

theorem ops2_v48_apply (g : Fin 256) :
    e1 (StableHlo.after hostOps2 V (Proc.devRef .tc main_v48)) g = ∑ t : Fin 20, st2 V (ix3 t g (1 : Fin 2)) := by
  show (StableHlo.after hostOps2 V (Proc.devRef .tc main_v48) : FVec Ideal S256 .f32) (ix1 g) = _
  rw [ops2_v48, col_apply, slice2_axis1_apply 1 _ _ g (0 : Fin 1) (1 : Fin 2) rfl, red2_apply]

theorem ops21_v49_apply (g : Fin 256) :
    e1 (StableHlo.after hostOps2_1 V (Proc.devRef .tc main_v49)) g
      = max (e0 (V (Proc.devRef .tc main_cst_7))) (e1 (V (Proc.devRef .tc main_v28)) g) := by
  show (StableHlo.after hostOps2_1 V (Proc.devRef .tc main_v49) : FVec Ideal S256 .f32) (ix1 g) = _
  rw [ops21_v49, maximumf_apply, spread_apply]

theorem ops22_v61_apply (g : Fin 256) :
    row2 (StableHlo.after hostOps2_2 V (Proc.devRef .tc main_v61)) g
      = Ideal.div (e1 (V (Proc.devRef .tc main_v46)) g) (e1 (V (Proc.devRef .tc main_v49)) g * 64) := by
  show (StableHlo.after hostOps2_2 V (Proc.devRef .tc main_v61) : FVec Ideal S1x256 .f32) (ix2 (0 : Fin 1) g) = _
  rw [ops22_v61, shapeCast_a_1a_apply]
  show Ideal.div _ (_ * ((broadcastInDim S256 ![] bcast_S_S256 (constant (F := Ideal) S_ .f32 0x42800000#32) : FVec Ideal S256 .f32) (ix1 g))) = _
  rw [spread_apply, constant_apply, Consts.ofBits_64]

theorem ops22_v62_apply (g : Fin 256) :
    row2 (StableHlo.after hostOps2_2 V (Proc.devRef .tc main_v62)) g
      = Ideal.rsqrt (max (Ideal.div (e1 (V (Proc.devRef .tc main_v48)) g) (e1 (V (Proc.devRef .tc main_v49)) g * 64)
          - Ideal.div (e1 (V (Proc.devRef .tc main_v46)) g) (e1 (V (Proc.devRef .tc main_v49)) g * 64)
            * Ideal.div (e1 (V (Proc.devRef .tc main_v46)) g) (e1 (V (Proc.devRef .tc main_v49)) g * 64)) 0 + Spec.eps) := by
  show (StableHlo.after hostOps2_2 V (Proc.devRef .tc main_v62) : FVec Ideal S1x256 .f32) (ix2 (0 : Fin 1) g) = _
  rw [ops22_v62, shapeCast_a_1a_apply]
  show Ideal.rsqrt (max (Ideal.div _ (_ * ((broadcastInDim S256 ![] bcast_S_S256 (constant (F := Ideal) S_ .f32 0x42800000#32) : FVec Ideal S256 .f32) (ix1 g))) - Ideal.div _ (_ * ((broadcastInDim S256 ![] bcast_S_S256 (constant (F := Ideal) S_ .f32 0x42800000#32) : FVec Ideal S256 .f32) (ix1 g))) * Ideal.div _ (_ * ((broadcastInDim S256 ![] bcast_S_S256 (constant (F := Ideal) S_ .f32 0x42800000#32) : FVec Ideal S256 .f32) (ix1 g)))) ((broadcastInDim S256 ![] bcast_S_S256 (constant (F := Ideal) S_ .f32 0x00000000#32) : FVec Ideal S256 .f32) (ix1 g)) + ((broadcastInDim S256 ![] bcast_S_S256 (constant (F := Ideal) S_ .f32 0x3727C5AC#32) : FVec Ideal S256 .f32) (ix1 g))) = _
  rw [spread_apply, spread_apply, spread_apply, constant_apply, constant_apply, constant_apply, Consts.ofBits_64,
    Consts.ofBits_zero]
  rfl

end Lists2

/-! ## After the second region -/

/-- The kept count clamped below at one. -/
theorem clip2_apply (g : Fin 256) :
    e1 (StableHlo.after hostOps2_1 (StableHlo.after hostOps2 U) (Proc.devRef .tc main_v49)) g = max 1 (cntA U (ix1 g)) := by
  rw [ops21_v49_apply, ops2_cst7, ops2_keep_v28]
  show max (Ideal.ofBits .f32 0x3F800000#32) _ = _
  rw [Consts.ofBits_one]

theorem mean2_apply (g : Fin 256) :
    row2 (U2 U (Proc.devRef .tc main_v61) : FVec Ideal S1x256 .f32) g
      = meanOf (∑ t : Fin 20, st2 U (ix3 t g (0 : Fin 2))) (cntA U (ix1 g)) := by
  show row2 (StableHlo.after hostOps2_2 (StableHlo.after hostOps2_1 (StableHlo.after hostOps2 U)) (Proc.devRef .tc main_v61)) g = _
  rw [ops22_v61_apply, clip2_apply, ops21_keep_v46, ops2_v46_apply]
  rfl

theorem inv2_apply (g : Fin 256) :
    row2 (U2 U (Proc.devRef .tc main_v62) : FVec Ideal S1x256 .f32) g
      = invOf (∑ t : Fin 20, st2 U (ix3 t g (0 : Fin 2))) (∑ t : Fin 20, st2 U (ix3 t g (1 : Fin 2))) (cntA U (ix1 g)) := by
  show row2 (StableHlo.after hostOps2_2 (StableHlo.after hostOps2_1 (StableHlo.after hostOps2 U)) (Proc.devRef .tc main_v62)) g = _
  rw [ops22_v62_apply, clip2_apply, ops21_keep_v46, ops21_keep_v48, ops2_v46_apply, ops2_v48_apply]
  rfl

/-! ## The third stretch's lists -/

/-- The 20 tile parts of a 20 × 256 × 64 array added, from zero. -/
theorem red64_apply (x : FVec Ideal S20x256x64 .f32) (g : Fin 256) (j : Fin 64) :
    Host.reduceAdd (F := Ideal) x (constant (F := Ideal) S_ .f32 0x00000000#32) reducesTo_S20x256x64_S256x64_d0 h_S_ (ix2 g j)
      = ∑ t : Fin 20, x (ix3 t g j) := by
  simp only [Host.reduceAdd, Ideal.hostReduceAdd_def]
  rw [Ideal.hostReduceAdd_single reducesTo_S20x256x64_S256x64_d0 (by decide)]
  rw [constant_apply, Consts.ofBits_zero, zero_add]
  refine Finset.sum_congr rfl fun t _ => ?_
  exact congrArg x (funext fun a => Fin.ext (by match a with | ⟨0, _⟩ => rfl | ⟨1, _⟩ => rfl | ⟨2, _⟩ => rfl))

/-- A vector over the graphs spread along the 64 channels. -/
theorem spread2_apply (y : FVec Ideal S256 .f32) (g : Fin 256) (j : Fin 64) :
    broadcastInDim S256x64 ![0, 1] bcast_S256x1_S256x64_0_1 (broadcastInDim S256x1 ![0] bcast_S256_S256x1_0 y) (ix2 g j) = y (ix1 g) := by
  rw [broadcastInDim_apply _ bcast_S256x1_S256x64_0_1 _ (ix2 g j) (ix2 g (0 : Fin 1)) (fun a => match a with
    | ⟨0, _⟩ => by show g.val = if (256 : Nat) = 1 then 0 else g.val; rw [if_neg (by decide)]
    | ⟨1, _⟩ => by show 0 = if (1 : Nat) = 1 then 0 else j.val; rw [if_pos rfl])]
  exact broadcastInDim_apply _ bcast_S256_S256x1_0 y (ix2 g (0 : Fin 1)) (ix1 g) (fun a => match a with
    | ⟨0, _⟩ => by show g.val = if (256 : Nat) = 1 then 0 else g.val; rw [if_neg (by decide)])

section Lists3

variable (V : Valuation τ sig (Elt Ideal))

theorem ops3_v64 :
    (StableHlo.after hostOps3 V (Proc.devRef .tc main_v64) : FVec Ideal S256x64 .f32)
      = Host.reduceAdd (F := Ideal) (V (Proc.devRef .tc main_v63_1) : FVec Ideal S20x256x64 .f32) (constant (F := Ideal) S_ .f32 0x00000000#32) reducesTo_S20x256x64_S256x64_d0 h_S_ := by
  simp only [hostOps3]; after_results

theorem ops3_cst12 :
    (StableHlo.after hostOps3 V (Proc.devRef .tc main_cst_12) : FVec Ideal S_ .f32) = constant (F := Ideal) S_ .f32 0x3F800000#32 := by
  simp only [hostOps3]; after_results

theorem ops3_keep_v28 : StableHlo.after hostOps3 V (Proc.devRef .tc main_v28) = V (Proc.devRef .tc main_v28) := by
  simp only [hostOps3]; after_results

theorem ops31_v65 :
    (StableHlo.after hostOps3_1 V (Proc.devRef .tc main_v65) : FVec Ideal S256 .f32)
      = (maximumf (broadcastInDim S256 ![] bcast_S_S256 (V (Proc.devRef .tc main_cst_12) : FVec Ideal S_ .f32)) (V (Proc.devRef .tc main_v28) : FVec Ideal S256 .f32) : FVec Ideal S256 .f32) := by
  simp only [hostOps3_1]; after_results; rfl

theorem ops31_keep_v64 : StableHlo.after hostOps3_1 V (Proc.devRef .tc main_v64) = V (Proc.devRef .tc main_v64) := by
  simp only [hostOps3_1]; after_results

theorem ops32_v68 :
    (StableHlo.after hostOps3_2 V (Proc.devRef .tc main_v68) : FVec Ideal S256x64 .f32)
      = (Host.divf (V (Proc.devRef .tc main_v64) : FVec Ideal S256x64 .f32)
          (broadcastInDim S256x64 ![0, 1] bcast_S256x1_S256x64_0_1 (broadcastInDim S256x1 ![0] bcast_S256_S256x1_0 (V (Proc.devRef .tc main_v65) : FVec Ideal S256 .f32))) : FVec Ideal S256x64 .f32) := by
  simp only [hostOps3_2]; after_results

theorem ops31_v65_apply (g : Fin 256) :
    e1 (StableHlo.after hostOps3_1 V (Proc.devRef .tc main_v65)) g
      = max (e0 (V (Proc.devRef .tc main_cst_12))) (e1 (V (Proc.devRef .tc main_v28)) g) := by
  show (StableHlo.after hostOps3_1 V (Proc.devRef .tc main_v65) : FVec Ideal S256 .f32) (ix1 g) = _
  rw [ops31_v65, maximumf_apply, spread_apply]

theorem ops32_v68_apply (g : Fin 256) (j : Fin 64) :
    (StableHlo.after hostOps3_2 V (Proc.devRef .tc main_v68) : FVec Ideal S256x64 .f32) (ix2 g j)
      = Ideal.div ((V (Proc.devRef .tc main_v64) : FVec Ideal S256x64 .f32) (ix2 g j)) (e1 (V (Proc.devRef .tc main_v65)) g) := by
  rw [ops32_v68]
  show Ideal.div _ (broadcastInDim S256x64 ![0, 1] bcast_S256x1_S256x64_0_1 (broadcastInDim S256x1 ![0] bcast_S256_S256x1_0 (V (Proc.devRef .tc main_v65) : FVec Ideal S256 .f32)) (ix2 g j)) = _
  rw [spread2_apply]

end Lists3

/-! ## After the third region -/

theorem pool_apply (g : Fin 256) (j : Fin 64) :
    (U3 U (Proc.devRef .tc main_v68) : FVec Ideal S256x64 .f32) (ix2 g j)
      = Ideal.div (∑ t : Fin 20, pp U (ix3 t g j)) (max 1 (cntA U (ix1 g))) := by
  show (StableHlo.after hostOps3_2 (StableHlo.after hostOps3_1 (StableHlo.after hostOps3 U)) (Proc.devRef .tc main_v68) : FVec Ideal S256x64 .f32) (ix2 g j) = _
  rw [ops32_v68_apply, ops31_v65_apply, ops31_keep_v64, ops3_v64, red64_apply, ops3_cst12, ops3_keep_v28]
  show Ideal.div _ (max (Ideal.ofBits .f32 0x3F800000#32) _) = _
  rw [Consts.ofBits_one]

/-- The last stretch does not write the node table. -/
theorem keep_out : U3 U (Proc.devRef .tc main_v63_0) = U (Proc.devRef .tc main_v63_0) := by
  show StableHlo.after hostOps3_2 (StableHlo.after hostOps3_1 (StableHlo.after hostOps3 U)) (Proc.devRef .tc main_v63_0) = _
  have h2 : ∀ V : Valuation τ sig (Elt Ideal), StableHlo.after hostOps3_2 V (Proc.devRef .tc main_v63_0) = V (Proc.devRef .tc main_v63_0) := fun V => by
    simp only [hostOps3_2]; after_results
  have h1 : ∀ V : Valuation τ sig (Elt Ideal), StableHlo.after hostOps3_1 V (Proc.devRef .tc main_v63_0) = V (Proc.devRef .tc main_v63_0) := fun V => by
    simp only [hostOps3_1]; after_results
  have h0 : ∀ V : Valuation τ sig (Elt Ideal), StableHlo.after hostOps3 V (Proc.devRef .tc main_v63_0) = V (Proc.devRef .tc main_v63_0) := fun V => by
    simp only [hostOps3]; after_results
  rw [h2, h1, h0]

end Cert.KernelIdeal.KHost123

end
-- ==== Proof.KChain.lean ====
/-
  The kernel program's two result buffers as the layer by tiles. The buffer contents at each boundary of the program are a
  fold: a host stretch applies its operations, a region replaces its arrays by what its write-backs leave. Following each
  buffer back through the fold — a stretch that does not write it leaves it, a region that does not own it leaves it, a
  region's input array is as the region found it — the first region finds the node table, the aggregate table, the ids in
  tiles, the first weights and bias, and leaves the first affine map and the tile parts of its per-graph sums; the stretch
  after it forms the count, the mean and the scale per graph; the second region finds those and leaves the second affine
  map of the residual and its tile parts; the next stretch forms its mean and scale with the count kept from before; the
  third region leaves the second norm and the tile parts of its per-graph row sums; the last stretch adds those and divides
  by max(1, count).
-/
import proofs.«409760_j63745904607323_2_alg».proof.Proof.Gen.KernelIdeal.Frame
import proofs.«409760_j63745904607323_2_alg».proof.Proof.Args
import proofs.«409760_j63745904607323_2_alg».proof.Proof.Tabs
import proofs.«409760_j63745904607323_2_alg».proof.Proof.KReg0
import proofs.«409760_j63745904607323_2_alg».proof.Proof.KReg1
import proofs.«409760_j63745904607323_2_alg».proof.Proof.KReg2
import proofs.«409760_j63745904607323_2_alg».proof.Proof.KHost0
import proofs.«409760_j63745904607323_2_alg».proof.Proof.KHost123

set_option maxRecDepth 16384

open scoped BigOperators

noncomputable section

namespace Cert.KernelIdeal.KChain

open Cert.KernelIdeal Cert.KernelIdeal.Gen
open Idealize.ShloMosaic Idealize.ShloMosaic.TcCoe Idealize.ShloMosaic.ValueIdx Idealize.SL.Sem
open Cert.Spec Cert.Tabs

variable (m : (ℓ : Loc nD τ sig) → Buf (Elt Ideal) ℓ) (ρ : Dev nD → PrngReg) (c : Dev nD)

/-- The program's argument arrays at launch, as one record. -/
def argsK : Cert.Args where
  x  := m ((c : Thread nD τ).loc main_arg0)
  ei := m ((c : Thread nD τ).loc main_arg1)
  bt := m ((c : Thread nD τ).loc main_arg2)
  Wg := m ((c : Thread nD τ).loc main_arg3)
  bg := m ((c : Thread nD τ).loc main_arg4)
  w1 := m ((c : Thread nD τ).loc main_arg5)
  b1 := m ((c : Thread nD τ).loc main_arg6)
  Wf := m ((c : Thread nD τ).loc main_arg7)
  bf := m ((c : Thread nD τ).loc main_arg8)
  w2 := m ((c : Thread nD τ).loc main_arg9)
  b2 := m ((c : Thread nD τ).loc main_arg10)

/-- A host stretch leaves a buffer none of its operations writes. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Across the three lists of the stretch between the first and second regions. -/
macro "keepS1(" m:term "," r:term "," c:term "," b:term ")" : term => `(
  ((by host_keep hostOps1_2 : W5 $m $r $c (Proc.devRef .tc $b) = W4 $m $r $c (Proc.devRef .tc $b)).trans
   ((by host_keep hostOps1_1 : W4 $m $r $c (Proc.devRef .tc $b) = W3 $m $r $c (Proc.devRef .tc $b)).trans
    (by host_keep hostOps1 : W3 $m $r $c (Proc.devRef .tc $b) = W2 $m $r $c (Proc.devRef .tc $b)))))

/-- Across the three lists of the stretch between the second and third regions. -/
macro "keepS2(" m:term "," r:term "," c:term "," b:term ")" : term => `(
  ((by host_keep hostOps2_2 : W9 $m $r $c (Proc.devRef .tc $b) = W8 $m $r $c (Proc.devRef .tc $b)).trans
   ((by host_keep hostOps2_1 : W8 $m $r $c (Proc.devRef .tc $b) = W7 $m $r $c (Proc.devRef .tc $b)).trans
    (by host_keep hostOps2 : W7 $m $r $c (Proc.devRef .tc $b) = W6 $m $r $c (Proc.devRef .tc $b)))))

/-! ## What the first region finds -/

/-- The ids in tiles, as the first stretch lays them, are the ids. -/
theorem ids1 : ids3 (KReg0.idA (V1 m ρ) c) = (argsK m c).ids := by
  funext n; exact KHost0.ids_apply (W0 m ρ c) n

/-- The first affine map of what the first region finds is the layer's. -/
theorem reg0_h : KReg0.h (V1 m ρ) c = gin (argsK m c).X (argsK m c).AGG (argsK m c).WG (argsK m c).BG := by
  have e0 : tab2 (KReg0.xA (V1 m ρ) c) = (argsK m c).X := by
    funext n k; exact congrFun (KHost0.keep_arg0 (W0 m ρ c)) (ix2 n k)
  have e1 : tab2 (KReg0.aA (V1 m ρ) c) = (argsK m c).AGG := by
    funext n k; exact KHost0.agg_apply (W0 m ρ c) n k
  have e2 : tab2 (KReg0.wA (V1 m ρ) c) = (argsK m c).WG := by
    funext n k; exact congrFun (KHost0.keep_arg3 (W0 m ρ c)) (ix2 n k)
  have e3 : row2 (KReg0.bA (V1 m ρ) c) = (argsK m c).BG := by
    funext j; exact KHost0.bg_apply (W0 m ρ c) j
  unfold KReg0.h
  rw [e0, e1, e2, e3]

/-- The layer's first affine map. -/
abbrev H1 : Mat 100000 64 := gin (argsK m c).X (argsK m c).AGG (argsK m c).WG (argsK m c).BG

/-! ## What the first region leaves -/

theorem W2_h (n : Fin 100000) (j : Fin 64) :
    (W2 m ρ c (Proc.devRef .tc main_v21_0) : FVec Ideal S100000x64 .f32) (ix2 n j) = H1 m c n j :=
  (congrFun (W2_arr m ρ c 5) (ix2 n j)).trans
    ((KReg0.out_apply (V1 m ρ) c n j).trans (congrFun (congrFun (reg0_h m ρ c) n) j))

theorem W2_stats (t : Fin 20) (g : Fin 256) :
    (W2 m ρ c (Proc.devRef .tc main_v21_1) : FVec Ideal S20x256x3 .f32) (ix3 t g (0 : Fin 3)) = tilePart (argsK m c).ids (rowSum (H1 m c)) t g
    ∧ (W2 m ρ c (Proc.devRef .tc main_v21_1) : FVec Ideal S20x256x3 .f32) (ix3 t g (1 : Fin 3)) = tilePart (argsK m c).ids (rowSq (H1 m c)) t g
    ∧ (W2 m ρ c (Proc.devRef .tc main_v21_1) : FVec Ideal S20x256x3 .f32) (ix3 t g (2 : Fin 3)) = tilePart (argsK m c).ids (fun _ => 1) t g := by
  have h := KReg0.stats_apply (V1 m ρ) c t g
  rw [reg0_h m ρ c, ids1 m ρ c] at h
  have e := W2_arr m ρ c 6
  exact ⟨(congrFun e _).trans h.1, (congrFun e _).trans h.2.1, (congrFun e _).trans h.2.2⟩

/-! ## After the first stretch of sums: count, mean and scale per graph -/

theorem W5_cnt (g : Fin 256) :
    (W5 m ρ c (Proc.devRef .tc main_v28) : FVec Ideal S256 .f32) (ix1 g) = cntT (argsK m c).ids g := by
  refine (KHost123.cnt1_apply (W2 m ρ c) g).trans ?_
  show _ = tileTotal (argsK m c).ids (fun _ => 1) g
  exact Finset.sum_congr rfl fun t _ => (W2_stats m ρ c t g).2.2

theorem V5_mean : row2 (KReg1.muA (V5 m ρ) c) = meanT (argsK m c).ids (H1 m c) := by
  funext g
  rw [meanT_eq_meanOf]
  refine (KHost123.mean1_apply (W2 m ρ c) g).trans ?_
  have e0 : (∑ t : Fin 20, ((KHost123.st1 (W2 m ρ c) : FVec Ideal S20x256x3 .f32) (ix3 t g (0 : Fin 3)) : EReal)) = tileTotal (argsK m c).ids (rowSum (H1 m c)) g :=
    Finset.sum_congr rfl fun t _ => (W2_stats m ρ c t g).1
  have e2 : (∑ t : Fin 20, ((KHost123.st1 (W2 m ρ c) : FVec Ideal S20x256x3 .f32) (ix3 t g (2 : Fin 3)) : EReal)) = cntT (argsK m c).ids g :=
    (Finset.sum_congr rfl fun t _ => (W2_stats m ρ c t g).2.2 : _ = tileTotal (argsK m c).ids (fun _ => 1) g)
  rw [e0, e2]

theorem V5_inv : row2 (KReg1.ivA (V5 m ρ) c) = invT (argsK m c).ids (H1 m c) := by
  funext g
  rw [invT_eq_invOf]
  refine (KHost123.inv1_apply (W2 m ρ c) g).trans ?_
  have e0 : (∑ t : Fin 20, ((KHost123.st1 (W2 m ρ c) : FVec Ideal S20x256x3 .f32) (ix3 t g (0 : Fin 3)) : EReal)) = tileTotal (argsK m c).ids (rowSum (H1 m c)) g :=
    Finset.sum_congr rfl fun t _ => (W2_stats m ρ c t g).1
  have e1 : (∑ t : Fin 20, ((KHost123.st1 (W2 m ρ c) : FVec Ideal S20x256x3 .f32) (ix3 t g (1 : Fin 3)) : EReal)) = tileTotal (argsK m c).ids (rowSq (H1 m c)) g :=
    Finset.sum_congr rfl fun t _ => (W2_stats m ρ c t g).2.1
  have e2 : (∑ t : Fin 20, ((KHost123.st1 (W2 m ρ c) : FVec Ideal S20x256x3 .f32) (ix3 t g (2 : Fin 3)) : EReal)) = cntT (argsK m c).ids g :=
    (Finset.sum_congr rfl fun t _ => (W2_stats m ρ c t g).2.2 : _ = tileTotal (argsK m c).ids (fun _ => 1) g)
  rw [e0, e1, e2]

/-! ## What the second region finds -/

theorem V5_x : (V5 m ρ c main_arg0 : FVec Ideal S100000x64 .f32) = (argsK m c).x :=
  (keepS1(m, ρ, c, main_arg0)).trans
    (((W2_arr m ρ c 0).trans (((dat0 (V1 m ρ) c).arrAt_in 0 rfl _).trans (A_eq0 (V1 m ρ) c 0))).trans
      (KHost0.keep_arg0 (W0 m ρ c)))

theorem V5_h : (V5 m ρ c main_v21_0 : FVec Ideal S100000x64 .f32) = W2 m ρ c (Proc.devRef .tc main_v21_0) :=
  keepS1(m, ρ, c, main_v21_0)

theorem V5_ids : (V5 m ρ c main_v14 : IVec S20x1x5000 32) = V1 m ρ c main_v14 :=
  (keepS1(m, ρ, c, main_v14)).trans
    ((W2_arr m ρ c 2).trans (((dat0 (V1 m ρ) c).arrAt_in 2 rfl _).trans (A_eq0 (V1 m ρ) c 2)))

theorem V5_Wf : (V5 m ρ c main_arg7 : FVec Ideal S64x64 .f32) = (argsK m c).Wf :=
  (keepS1(m, ρ, c, main_arg7)).trans ((W2_of_ne m ρ c main_arg7 (by decide)).trans (KHost0.keep_arg7 (W0 m ρ c)))

theorem V5_bf : (V5 m ρ c main_v16 : FVec Ideal S1x64 .f32) = V1 m ρ c main_v16 :=
  (keepS1(m, ρ, c, main_v16)).trans (W2_of_ne m ρ c main_v16 (by decide))

theorem V5_g1 : (V5 m ρ c main_v17 : FVec Ideal S1x1 .f32) = V1 m ρ c main_v17 :=
  (keepS1(m, ρ, c, main_v17)).trans (W2_of_ne m ρ c main_v17 (by decide))

theorem V5_b1 : (V5 m ρ c main_v18 : FVec Ideal S1x1 .f32) = V1 m ρ c main_v18 :=
  (keepS1(m, ρ, c, main_v18)).trans (W2_of_ne m ρ c main_v18 (by decide))

/-- The residual the second region forms is the layer's. -/
theorem reg1_x1 : KReg1.x1 (V5 m ρ) c
    = x1T (argsK m c).ids (argsK m c).X (argsK m c).AGG (argsK m c).WG (argsK m c).BG (argsK m c).g1 (argsK m c).β1 := by
  have e0 : tab2 (KReg1.xA (V5 m ρ) c) = (argsK m c).X := by
    funext n k; exact congrFun (V5_x m ρ c) (ix2 n k)
  have e1 : tab2 (KReg1.hA (V5 m ρ) c) = H1 m c := by
    funext n k; exact (congrFun (V5_h m ρ c) (ix2 n k)).trans (W2_h m ρ c n k)
  have e2 : ids3 (KReg1.idA (V5 m ρ) c) = (argsK m c).ids := by
    have : KReg1.idA (V5 m ρ) c = KReg0.idA (V1 m ρ) c := V5_ids m ρ c
    rw [this]; exact ids1 m ρ c
  have e3 : num2 (KReg1.gA (V5 m ρ) c) = (argsK m c).g1 := by
    have : KReg1.gA (V5 m ρ) c = (V1 m ρ c main_v17 : FVec Ideal S1x1 .f32) := V5_g1 m ρ c
    rw [this]; exact KHost0.w1_apply (W0 m ρ c)
  have e4 : num2 (KReg1.beA (V5 m ρ) c) = (argsK m c).β1 := by
    have : KReg1.beA (V5 m ρ) c = (V1 m ρ c main_v18 : FVec Ideal S1x1 .f32) := V5_b1 m ρ c
    rw [this]; exact KHost0.b1_apply (W0 m ρ c)
  funext n k
  unfold KReg1.x1 x1T h1T
  rw [e0, e1, e2, e3, e4, V5_mean m ρ c, V5_inv m ρ c, lnT_eq_lnWith]

/-- The layer's residual and second affine map. -/
abbrev X1 : Mat 100000 64 :=
  x1T (argsK m c).ids (argsK m c).X (argsK m c).AGG (argsK m c).WG (argsK m c).BG (argsK m c).g1 (argsK m c).β1
abbrev H2 : Mat 100000 64 := ffn (X1 m c) (argsK m c).WF (argsK m c).BF

theorem reg1_h2 : KReg1.h2 (V5 m ρ) c = H2 m c := by
  have e0 : tab2 (KReg1.wA (V5 m ρ) c) = (argsK m c).WF := by
    funext n k; exact congrFun (V5_Wf m ρ c) (ix2 n k)
  have e1 : row2 (KReg1.bA (V5 m ρ) c) = (argsK m c).BF := by
    have : KReg1.bA (V5 m ρ) c = (V1 m ρ c main_v16 : FVec Ideal S1x64 .f32) := V5_bf m ρ c
    rw [this]; funext j; exact KHost0.bf_apply (W0 m ρ c) j
  unfold KReg1.h2
  rw [reg1_x1 m ρ c, e0, e1]

/-! ## What the second region leaves, and the count kept -/

theorem W6_h (n : Fin 100000) (j : Fin 64) :
    (W6 m ρ c (Proc.devRef .tc main_v43_0) : FVec Ideal S100000x64 .f32) (ix2 n j) = H2 m c n j :=
  (congrFun (W6_arr m ρ c 9) (ix2 n j)).trans
    ((KReg1.out_apply (V5 m ρ) c n j).trans (congrFun (congrFun (reg1_h2 m ρ c) n) j))

theorem ids5 : ids3 (KReg1.idA (V5 m ρ) c) = (argsK m c).ids := by
  have : KReg1.idA (V5 m ρ) c = KReg0.idA (V1 m ρ) c := V5_ids m ρ c
  rw [this]; exact ids1 m ρ c

theorem W6_stats (t : Fin 20) (g : Fin 256) :
    (W6 m ρ c (Proc.devRef .tc main_v43_1) : FVec Ideal S20x256x2 .f32) (ix3 t g (0 : Fin 2)) = tilePart (argsK m c).ids (rowSum (H2 m c)) t g
    ∧ (W6 m ρ c (Proc.devRef .tc main_v43_1) : FVec Ideal S20x256x2 .f32) (ix3 t g (1 : Fin 2)) = tilePart (argsK m c).ids (rowSq (H2 m c)) t g := by
  have h := KReg1.stats_apply (V5 m ρ) c t g
  rw [reg1_h2 m ρ c, ids5 m ρ c] at h
  have e := W6_arr m ρ c 10
  exact ⟨(congrFun e _).trans h.1, (congrFun e _).trans h.2⟩

theorem W6_cnt (g : Fin 256) :
    (W6 m ρ c (Proc.devRef .tc main_v28) : FVec Ideal S256 .f32) (ix1 g) = cntT (argsK m c).ids g :=
  (congrFun (W6_of_ne m ρ c main_v28 (by decide)) (ix1 g)).trans (W5_cnt m ρ c g)

/-! ## After the second stretch of sums -/

theorem V9_mean : row2 (KReg2.muA (V9 m ρ) c) = meanT (argsK m c).ids (H2 m c) := by
  funext g
  rw [meanT_eq_meanOf]
  refine (KHost123.mean2_apply (W6 m ρ c) g).trans ?_
  have e0 : (∑ t : Fin 20, ((KHost123.st2 (W6 m ρ c) : FVec Ideal S20x256x2 .f32) (ix3 t g (0 : Fin 2)) : EReal)) = tileTotal (argsK m c).ids (rowSum (H2 m c)) g :=
    Finset.sum_congr rfl fun t _ => (W6_stats m ρ c t g).1
  have e2 : ((KHost123.cntA (W6 m ρ c) : FVec Ideal S256 .f32) (ix1 g) : EReal) = cntT (argsK m c).ids g := W6_cnt m ρ c g
  rw [e0, e2]

theorem V9_inv : row2 (KReg2.ivA (V9 m ρ) c) = invT (argsK m c).ids (H2 m c) := by
  funext g
  rw [invT_eq_invOf]
  refine (KHost123.inv2_apply (W6 m ρ c) g).trans ?_
  have e0 : (∑ t : Fin 20, ((KHost123.st2 (W6 m ρ c) : FVec Ideal S20x256x2 .f32) (ix3 t g (0 : Fin 2)) : EReal)) = tileTotal (argsK m c).ids (rowSum (H2 m c)) g :=
    Finset.sum_congr rfl fun t _ => (W6_stats m ρ c t g).1
  have e1 : (∑ t : Fin 20, ((KHost123.st2 (W6 m ρ c) : FVec Ideal S20x256x2 .f32) (ix3 t g (1 : Fin 2)) : EReal)) = tileTotal (argsK m c).ids (rowSq (H2 m c)) g :=
    Finset.sum_congr rfl fun t _ => (W6_stats m ρ c t g).2
  have e2 : ((KHost123.cntA (W6 m ρ c) : FVec Ideal S256 .f32) (ix1 g) : EReal) = cntT (argsK m c).ids g := W6_cnt m ρ c g
  rw [e0, e1, e2]

/-! ## What the third region finds and leaves -/

theorem V9_h : (V9 m ρ c main_v43_0 : FVec Ideal S100000x64 .f32) = W6 m ρ c (Proc.devRef .tc main_v43_0) :=
  keepS2(m, ρ, c, main_v43_0)

theorem V9_ids : (V9 m ρ c main_v14 : IVec S20x1x5000 32) = V5 m ρ c main_v14 :=
  (keepS2(m, ρ, c, main_v14)).trans
    ((W6_arr m ρ c 2).trans (((dat1 (V5 m ρ) c).arrAt_in 2 rfl _).trans (A_eq1 (V5 m ρ) c 2)))

theorem V9_g2 : (V9 m ρ c main_v19 : FVec Ideal S1x1 .f32) = V1 m ρ c main_v19 :=
  (keepS2(m, ρ, c, main_v19)).trans ((W6_of_ne m ρ c main_v19 (by decide)).trans
    ((keepS1(m, ρ, c, main_v19)).trans (W2_of_ne m ρ c main_v19 (by decide))))

theorem V9_b2 : (V9 m ρ c main_v20 : FVec Ideal S1x1 .f32) = V1 m ρ c main_v20 :=
  (keepS2(m, ρ, c, main_v20)).trans ((W6_of_ne m ρ c main_v20 (by decide)).trans
    ((keepS1(m, ρ, c, main_v20)).trans (W2_of_ne m ρ c main_v20 (by decide))))

theorem ids9 : ids3 (KReg2.idA (V9 m ρ) c) = (argsK m c).ids := by
  have : KReg2.idA (V9 m ρ) c = KReg1.idA (V5 m ρ) c := V9_ids m ρ c
  rw [this]; exact ids5 m ρ c

/-- The norm the third region forms is the layer's node table. -/
theorem reg2_y : KReg2.y (V9 m ρ) c = (argsK m c).outT := by
  have e1 : tab2 (KReg2.hA (V9 m ρ) c) = H2 m c := by
    funext n k; exact (congrFun (V9_h m ρ c) (ix2 n k)).trans (W6_h m ρ c n k)
  have e3 : num2 (KReg2.gA (V9 m ρ) c) = (argsK m c).g2 := by
    have : KReg2.gA (V9 m ρ) c = (V1 m ρ c main_v19 : FVec Ideal S1x1 .f32) := V9_g2 m ρ c
    rw [this]; exact KHost0.w2_apply (W0 m ρ c)
  have e4 : num2 (KReg2.beA (V9 m ρ) c) = (argsK m c).β2 := by
    have : KReg2.beA (V9 m ρ) c = (V1 m ρ c main_v20 : FVec Ideal S1x1 .f32) := V9_b2 m ρ c
    rw [this]; exact KHost0.b2_apply (W0 m ρ c)
  unfold KReg2.y
  rw [e1, ids9 m ρ c, e3, e4, V9_mean m ρ c, V9_inv m ρ c, ← lnT_eq_lnWith]
  rfl

theorem W10_out (n : Fin 100000) (j : Fin 64) :
    (W10 m ρ c (Proc.devRef .tc main_v63_0) : FVec Ideal S100000x64 .f32) (ix2 n j) = (argsK m c).outT n j :=
  (congrFun (W10_arr m ρ c 6) (ix2 n j)).trans
    ((KReg2.out_apply (V9 m ρ) c n j).trans (congrFun (congrFun (reg2_y m ρ c) n) j))

theorem W10_pool (t : Fin 20) (g : Fin 256) (j : Fin 64) :
    (W10 m ρ c (Proc.devRef .tc main_v63_1) : FVec Ideal S20x256x64 .f32) (ix3 t g j)
      = tilePart (argsK m c).ids (fun n => (argsK m c).outT n j) t g := by
  have h := KReg2.pool_apply (V9 m ρ) c t g j
  rw [reg2_y m ρ c, ids9 m ρ c] at h
  exact (congrFun (W10_arr m ρ c 7) _).trans h

theorem W10_cnt (g : Fin 256) :
    (W10 m ρ c (Proc.devRef .tc main_v28) : FVec Ideal S256 .f32) (ix1 g) = cntT (argsK m c).ids g :=
  (congrFun ((W10_of_ne m ρ c main_v28 (by decide)).trans (keepS2(m, ρ, c, main_v28))) (ix1 g)).trans (W6_cnt m ρ c g)

/-! ## The two results -/

/-- The node table the program returns is the layer's, by tiles. -/
theorem out_eq (n : Fin 100000) (j : Fin 64) :
    (W13 m ρ c (Proc.devRef .tc main_v63_0) : FVec Ideal S100000x64 .f32) (ix2 n j) = (argsK m c).outT n j :=
  (congrFun (KHost123.keep_out (W10 m ρ c)) (ix2 n j)).trans (W10_out m ρ c n j)

/-- The per-graph means the program returns are the layer's, by tiles. -/
theorem pool_eq (g : Fin 256) (j : Fin 64) :
    (W13 m ρ c (Proc.devRef .tc main_v68) : FVec Ideal S256x64 .f32) (ix2 g j) = (argsK m c).poolT g j := by
  refine (KHost123.pool_apply (W10 m ρ c) g j).trans ?_
  have e0 : (∑ t : Fin 20, ((KHost123.pp (W10 m ρ c) : FVec Ideal S20x256x64 .f32) (ix3 t g j) : EReal)) = tileTotal (argsK m c).ids (fun n => (argsK m c).outT n j) g :=
    Finset.sum_congr rfl fun t _ => W10_pool m ρ c t g j
  have e2 : ((KHost123.cntA (W10 m ρ c) : FVec Ideal S256 .f32) (ix1 g) : EReal) = cntT (argsK m c).ids g := W10_cnt m ρ c g
  rw [e0, e2]
  rfl

end Cert.KernelIdeal.KChain

end
-- ==== Proof.RefA.lean ====
/-
  The reference's first half read index by index, as the formulas by segments: the aggregate table (each edge's source row,
  its id wrapped and clamped, added into the row its target id names); the affine map (2·x + a)·W + b; the per-graph norm
  of it (counts and sums as accumulating scatters by graph id, the per-graph tables gathered back at each node's id
  wrapped and clamped); and the residual x + that.
-/
import proofs.«409760_j63745904607323_2_alg».proof.Proof.Gen.ReferenceIdeal.Read
import proofs.«409760_j63745904607323_2_alg».proof.Proof.LibGatherScatter
import proofs.«409760_j63745904607323_2_alg».proof.Proof.Args
import proofs.«409760_j63745904607323_2_alg».proof.Proof.Consts
import Idealize.ShloMosaic.Lib.ValueIdx
import Idealize.ShloMosaic.Lib.Pipeline.Value
import Idealize.ShloMosaic.PureOps.Ideal.Laws

set_option maxRecDepth 16384

open scoped BigOperators

noncomputable section

namespace Cert.RefA

open Cert.ReferenceIdeal Cert.ReferenceIdeal.Read
open Idealize.ShloMosaic Idealize.ShloMosaic.ValueIdx
open Cert.Spec Cert.LibGatherScatter Cert.LibClamp
open Idealize.ShloMosaic.StableHlo.Predicate

/-! ## Index words -/

/-- The wrap of a negative index as the program spells it (compare with zero, add, select) is the conditional. -/
theorem wrap_select (w k : BitVec 32) :
    Scalar.select (IntOp.cmpi .slt w 0#32) (IntOp.addi w k) w = if w.slt 0#32 then w + k else w := by
  show (if BitVec.ofBool (w.slt 0#32) = 1 then w + k else w) = _
  cases w.slt 0#32
  · rfl
  · rfl

/-! ## Sums by graph id and reads at a graph id, for any table -/

/-- An accumulating scatter of rows into a zero table, the indices a column of the graph ids: entry (g, k) is the sum of
    column k over the nodes of graph g. -/
theorem segRows {R C n : Nat} (d : ScatterDims ⟨2, ![R, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (z : FVec Ideal ⟨2, ![R, C]⟩ .f32) (hz : ∀ i, z i = (0 : EReal))
    (idx : IVec ⟨2, ![n, 1]⟩ 32) (bt : Fin n → BitVec 32) (hidx : ∀ e, idx (ixP e) = bt e)
    (u : FVec Ideal ⟨2, ![n, C]⟩ .f32) (g : Fin R) (k : Fin C) :
    Host.scatterAdd (F := Ideal) d z idx u (ix2 g k)
      = ∑ e ∈ Finset.univ.filter (fun e : Fin n => (bt e).toInt = (g.val : ℤ)), u (ix2 e k) := by
  rw [scatterAdd_rows_apply d huw hiw hsd hivd, hz, zero_add]
  refine Finset.sum_congr (Finset.filter_congr fun e _ => ?_) fun _ _ => rfl
  rw [hidx]

/-- The same into a rank-1 zero table: entry g is the sum of the updates over the nodes of graph g. -/
theorem segVec {R n : Nat} (d : ScatterDims ⟨1, ![R]⟩ ⟨2, ![n, 1]⟩ ⟨1, ![n]⟩)
    (huw : d.updateWindowDims = []) (hiw : d.insertedWindowDims = [0])
    (hsd : d.scatterDimsToOperandDims = [0]) (hivd : d.indexVectorDim = 1)
    (z : FVec Ideal ⟨1, ![R]⟩ .f32) (hz : ∀ i, z i = (0 : EReal))
    (idx : IVec ⟨2, ![n, 1]⟩ 32) (bt : Fin n → BitVec 32) (hidx : ∀ e, idx (ixP e) = bt e)
    (u : FVec Ideal ⟨1, ![n]⟩ .f32) (g : Fin R) :
    Host.scatterAdd (F := Ideal) d z idx u (ix1 g)
      = ∑ e ∈ Finset.univ.filter (fun e : Fin n => (bt e).toInt = (g.val : ℤ)), u (ix1 e) := by
  rw [scatterAdd_vec_apply d huw hiw hsd hivd, hz, zero_add]
  refine Finset.sum_congr (Finset.filter_congr fun e _ => ?_) fun _ _ => rfl
  rw [hidx]

/-- A sum over the nodes of graph g, as the formula by segments writes it. -/
theorem segTotal_eq (bt : Ids) (f : Fin 100000 → EReal) (g : Fin 256) :
    segTotal bt f g = ∑ e ∈ Finset.univ.filter (fun e : Fin 100000 => (bt e).toInt = (g.val : ℤ)), f e := by
  unfold segTotal
  exact Finset.sum_congr (Finset.filter_congr fun e _ => Iff.rfl) fun _ _ => rfl

/-- A per-graph table gathered at the wrapped ids: node n reads the entry of its graph. -/
theorem pickVec {α : Type} (d : GatherDims ⟨1, ![256]⟩ ⟨2, ![100000, 1]⟩ ⟨1, ![100000]⟩)
    (hcoll : d.collapsedSliceDims = [0]) (hob : d.operandBatchingDims = [])
    (hsim : d.startIndexMap = [0]) (hivd : d.indexVectorDim = 1)
    (t : (⟨1, ![256]⟩ : Shape).Idx → α) (idx : IVec ⟨2, ![100000, 1]⟩ 32) (bt : Ids)
    (hidx : ∀ e, idx (ixP e) = if (bt e).slt 0#32 then bt e + 256#32 else bt e) (n : Fin 100000) :
    Host.gather d t idx (ix1 n) = t (ix1 (graphOf bt n)) := by
  rw [gather_vec_apply (by decide) d hcoll hob hsim hivd, hidx]
  rfl

variable (A : Cert.Args)

/-! ## The aggregate table -/

/-- The target column of the edge list is row 1 of it. -/
private theorem dst_col (e : Fin 1200000) : val_main_v12 (F := Ideal) A.ei (ixP e) = A.dst e := by
  rw [val_main_v12_apply, val_main_v3_apply, val_main_v2_apply]
  show A.ei _ = A.ei (ix2 (1 : Fin 2) e)
  refine congrArg A.ei (funext fun a => Fin.ext ?_)
  match a with
  | ⟨0, _⟩ => rfl
  | ⟨1, _⟩ => exact Nat.mod_eq_of_lt e.isLt

/-- Row 0 of the edge list at an edge. -/
private theorem src_word (e : Fin 1200000) : val_main_v1 (F := Ideal) A.ei (ix1 e) = A.src e := by
  rw [val_main_v1_apply, val_main_v0_apply]
  show A.ei _ = A.ei (ix2 (0 : Fin 2) e)
  refine congrArg A.ei (funext fun a => Fin.ext ?_)
  match a with
  | ⟨0, _⟩ => rfl
  | ⟨1, _⟩ => exact Nat.mod_eq_of_lt e.isLt

/-- The source column: row 0 of the edge list, a negative id wrapped by 100000. -/
private theorem src_col (e : Fin 1200000) :
    val_main_v9 (F := Ideal) A.ei (ixP e) = if (A.src e).slt 0#32 then A.src e + 100000#32 else A.src e := by
  have hi : idx_main_v9 (ixP e) = ix1 e := funext fun a => Fin.ext (by match a with | ⟨0, _⟩ => rfl)
  rw [val_main_v9_apply, hi, val_main_v8_apply, val_main_v5_apply, val_main_v7_apply, val_main_v4_apply, val_main_v6_apply,
    val_main_c_apply, val_main_c_0_apply, src_word]
  exact wrap_select _ _

/-- The gathered source rows. -/
private theorem srcRow_apply (e : Fin 1200000) (c : Fin 64) :
    val_main_v10 (F := Ideal) A.x A.ei (ix2 e c) = A.X (srcOf A.src e) c := by
  unfold val_main_v10
  rw [gather_rows_apply (by decide) gather_S100000x64_S1200000x1_S1200000x64_1_0_n_n_0_1_164 rfl rfl rfl rfl rfl, src_col]
  rfl

/-- The aggregate table. -/
theorem agg_apply (n : Fin 100000) (c : Fin 64) :
    val_main_v13 (F := Ideal) A.x A.ei (ix2 n c) = A.AGG n c := by
  unfold val_main_v13
  rw [segRows scatter_S100000x64_S1200000x1_S1200000x64_1_0_0_1 rfl rfl rfl rfl _
    (fun i => by rw [val_main_v11_apply, val_main_cst_apply, Ideal.ofBits_def, Cert.Consts.ofBits_zero]) _ A.dst (dst_col A)]
  unfold Args.AGG Spec.agg
  exact Finset.sum_congr rfl fun e _ => srcRow_apply A e c

/-! ## The first affine map -/

/-- The first affine map. -/
theorem h1_apply (n : Fin 100000) (c : Fin 64) :
    val_main_v20 (F := Ideal) A.x A.ei A.Wg A.bg (ix2 n c) = gin A.X A.AGG A.WG A.BG n c := by
  have e3 : idx_main_v18 (idx_main_v19 (ix2 n c)) = ix1 c := funext fun a => Fin.ext (by match a with | ⟨0, _⟩ => rfl)
  rw [val_main_v20_apply, val_main_v17_apply, val_main_v19_apply, val_main_v18_apply, e3, Ideal.addf_def]
  unfold gin
  refine congrArg (· + A.bg (ix1 c)) (Finset.sum_congr rfl fun k _ => ?_)
  have e1 : lidx_main_v17 (ix2 n c) k = ix2 n k :=
    funext fun a => Fin.ext (by match a with | ⟨0, _⟩ => rfl | ⟨1, _⟩ => rfl)
  have e2 : ridx_main_v17 (ix2 n c) k = ix2 k c :=
    funext fun a => Fin.ext (by match a with | ⟨0, _⟩ => rfl | ⟨1, _⟩ => rfl)
  rw [e1, e2, val_main_v16_apply, val_main_v15_apply, val_main_v14_apply, val_main_cst_1_apply, agg_apply,
    Ideal.addf_def, Ideal.mulf_def, Ideal.ofBits_def, Cert.Consts.ofBits_two]
  rfl

/-! ## The first per-graph norm -/

/-- The three index columns of the graph ids. -/
private theorem ids_col23 (e : Fin 100000) : val_main_v23 (F := Ideal) A.bt (ixP e) = A.ids e := by
  rw [val_main_v23_apply]
  show A.bt _ = A.bt (ix1 e)
  refine congrArg A.bt (funext fun a => Fin.ext ?_)
  match a with
  | ⟨0, _⟩ => rfl
private theorem ids_col29 (e : Fin 100000) : val_main_v29 (F := Ideal) A.bt (ixP e) = A.ids e := by
  rw [val_main_v29_apply]
  show A.bt _ = A.bt (ix1 e)
  refine congrArg A.bt (funext fun a => Fin.ext ?_)
  match a with
  | ⟨0, _⟩ => rfl
private theorem ids_col45 (e : Fin 100000) : val_main_v45 (F := Ideal) A.bt (ixP e) = A.ids e := by
  rw [val_main_v45_apply]
  show A.bt _ = A.bt (ix1 e)
  refine congrArg A.bt (funext fun a => Fin.ext ?_)
  match a with
  | ⟨0, _⟩ => rfl

/-- The two columns of wrapped graph ids. -/
private theorem sel_col38 (e : Fin 100000) :
    val_main_v38 (F := Ideal) A.bt (ixP e) = if (A.ids e).slt 0#32 then A.ids e + 256#32 else A.ids e := by
  have hi : idx_main_v38 (ixP e) = ix1 e := funext fun a => Fin.ext (by match a with | ⟨0, _⟩ => rfl)
  rw [val_main_v38_apply, hi, val_main_v37_apply, val_main_v34_apply, val_main_v36_apply, val_main_v33_apply,
    val_main_v35_apply, val_main_c_8_apply, val_main_c_9_apply]
  exact wrap_select _ _
private theorem sel_col59 (e : Fin 100000) :
    val_main_v59 (F := Ideal) A.bt (ixP e) = if (A.ids e).slt 0#32 then A.ids e + 256#32 else A.ids e := by
  have hi : idx_main_v59 (ixP e) = ix1 e := funext fun a => Fin.ext (by match a with | ⟨0, _⟩ => rfl)
  rw [val_main_v59_apply, hi, val_main_v58_apply, val_main_v55_apply, val_main_v57_apply, val_main_v54_apply,
    val_main_v56_apply, val_main_c_14_apply, val_main_c_15_apply]
  exact wrap_select _ _

/-- The node count of a graph. -/
private theorem cnt_apply (g : Fin 256) : val_main_v24 (F := Ideal) A.bt (ix1 g) = cntS A.ids g := by
  unfold val_main_v24
  rw [segVec scatter_S256_S100000x1_S100000_n_0_0_1 rfl rfl rfl rfl _
    (fun i => by rw [val_main_v22_apply, val_main_cst_3_apply, Ideal.ofBits_def, Cert.Consts.ofBits_zero]) _ A.ids (ids_col23 A)]
  unfold cntS
  rw [segTotal_eq]
  refine Finset.sum_congr rfl fun e _ => ?_
  rw [val_main_v21_apply, val_main_cst_2_apply, Ideal.ofBits_def, Cert.Consts.ofBits_one]

/-- The norm's divisor. -/
private theorem nrm_apply (g : Fin 256) : val_main_v27 (F := Ideal) A.bt (ix1 g) = nrmS A.ids g := by
  rw [val_main_v27_apply, val_main_v25_apply, val_main_call0_v1_apply, val_main_call0_v0_apply, val_main_cst_4_apply,
    val_main_v26_apply, val_main_cst_5_apply, cnt_apply, Ideal.mulf_def, Ideal.maximumf_def, Ideal.ofBits_def,
    Ideal.ofBits_def, Cert.Consts.ofBits_one, Cert.Consts.ofBits_64]
  rfl

/-- The per-graph column sums of the affine map's table. -/
private theorem sum_apply (g : Fin 256) (k : Fin 64) :
    val_main_v30 (F := Ideal) A.x A.ei A.bt A.Wg A.bg (ix2 g k)
      = segTotal A.ids (fun n => val_main_v20 (F := Ideal) A.x A.ei A.Wg A.bg (ix2 n k)) g := by
  unfold val_main_v30
  rw [segRows scatter_S256x64_S100000x1_S100000x64_1_0_0_1 rfl rfl rfl rfl _
    (fun i => by rw [val_main_v28_apply, val_main_cst_6_apply, Ideal.ofBits_def, Cert.Consts.ofBits_zero]) _ A.ids (ids_col29 A),
    segTotal_eq]

/-- The per-graph mean. -/
private theorem mean_apply (g : Fin 256) :
    val_main_v32 (F := Ideal) A.x A.ei A.bt A.Wg A.bg (ix1 g) = meanS A.ids (fun n k => val_main_v20 (F := Ideal) A.x A.ei A.Wg A.bg (ix2 n k)) g := by
  rw [val_main_v32_apply, val_main_v31_apply, val_main_cst_7_apply, nrm_apply, Ideal.hostDivf_def, Ideal.ofBits_def,
    Cert.Consts.ofBits_zero, zero_add]
  unfold meanS
  refine congrArg (fun t => Ideal.div t (nrmS A.ids g)) (Finset.sum_congr rfl fun k _ => ?_)
  have e1 : idx_main_v31 (ix1 g) k = ix2 g k :=
    funext fun a => Fin.ext (by match a with | ⟨0, _⟩ => rfl | ⟨1, _⟩ => rfl)
  rw [e1, sum_apply]

/-- The mean of a node's graph, spread over the node's row. -/
private theorem meanAt_apply (n : Fin 100000) (c : Fin 64) :
    val_main_v41 (F := Ideal) A.x A.ei A.bt A.Wg A.bg (ix2 n c) = meanS A.ids (fun n k => val_main_v20 (F := Ideal) A.x A.ei A.Wg A.bg (ix2 n k)) (graphOf A.ids n) := by
  have e1 : idx_main_v40 (idx_main_v41 (ix2 n c)) = ix1 n := funext fun a => Fin.ext (by match a with | ⟨0, _⟩ => rfl)
  rw [val_main_v41_apply, val_main_v40_apply, e1]
  unfold val_main_v39
  rw [pickVec gather_S256_S100000x1_S100000_n_0_n_n_0_1_1 rfl rfl rfl rfl _ _ A.ids (sel_col38 A) n, mean_apply]

/-- The deviations from the mean. -/
private theorem dev_apply (n : Fin 100000) (c : Fin 64) :
    val_main_v42 (F := Ideal) A.x A.ei A.bt A.Wg A.bg (ix2 n c)
      = val_main_v20 (F := Ideal) A.x A.ei A.Wg A.bg (ix2 n c) - meanS A.ids (fun n k => val_main_v20 (F := Ideal) A.x A.ei A.Wg A.bg (ix2 n k)) (graphOf A.ids n) := by
  rw [val_main_v42_apply, meanAt_apply, Ideal.subf_def]

/-- The per-graph column sums of the squared deviations. -/
private theorem sq_apply (g : Fin 256) (k : Fin 64) :
    val_main_v46 (F := Ideal) A.x A.ei A.bt A.Wg A.bg (ix2 g k)
      = segTotal A.ids (fun n => (val_main_v20 (F := Ideal) A.x A.ei A.Wg A.bg (ix2 n k) - meanS A.ids (fun n k => val_main_v20 (F := Ideal) A.x A.ei A.Wg A.bg (ix2 n k)) (graphOf A.ids n))
          * (val_main_v20 (F := Ideal) A.x A.ei A.Wg A.bg (ix2 n k) - meanS A.ids (fun n k => val_main_v20 (F := Ideal) A.x A.ei A.Wg A.bg (ix2 n k)) (graphOf A.ids n))) g := by
  unfold val_main_v46
  rw [segRows scatter_S256x64_S100000x1_S100000x64_1_0_0_1 rfl rfl rfl rfl _
    (fun i => by rw [val_main_v44_apply, val_main_cst_10_apply, Ideal.ofBits_def, Cert.Consts.ofBits_zero]) _ A.ids (ids_col45 A),
    segTotal_eq]
  refine Finset.sum_congr rfl fun e _ => ?_
  rw [val_main_v43_apply, dev_apply, Ideal.mulf_def]

/-- The per-graph variance. -/
private theorem var_apply (g : Fin 256) :
    val_main_v48 (F := Ideal) A.x A.ei A.bt A.Wg A.bg (ix1 g) = varS A.ids (fun n k => val_main_v20 (F := Ideal) A.x A.ei A.Wg A.bg (ix2 n k)) g := by
  rw [val_main_v48_apply, val_main_v47_apply, val_main_cst_11_apply, nrm_apply, Ideal.hostDivf_def, Ideal.ofBits_def,
    Cert.Consts.ofBits_zero, zero_add]
  unfold varS
  refine congrArg (fun t => Ideal.div t (nrmS A.ids g)) (Finset.sum_congr rfl fun k _ => ?_)
  have e1 : idx_main_v47 (ix1 g) k = ix2 g k :=
    funext fun a => Fin.ext (by match a with | ⟨0, _⟩ => rfl | ⟨1, _⟩ => rfl)
  rw [e1, sq_apply]

/-- One over the deviation. -/
private theorem inv_apply (g : Fin 256) :
    val_main_v53 (F := Ideal) A.x A.ei A.bt A.Wg A.bg (ix1 g) = invS A.ids (fun n k => val_main_v20 (F := Ideal) A.x A.ei A.Wg A.bg (ix2 n k)) g := by
  rw [val_main_v53_apply, val_main_v52_apply, val_main_cst_13_apply, val_main_v51_apply, val_main_v50_apply, var_apply,
    val_main_v49_apply, val_main_cst_12_apply, Ideal.hostDivf_def, Ideal.hostUnary_sqrt_def, Ideal.addf_def,
    Ideal.ofBits_def, Ideal.ofBits_def, Cert.Consts.ofBits_one]
  rfl

/-- One over the deviation of a node's graph, spread over the node's row. -/
private theorem invAt_apply (n : Fin 100000) (c : Fin 64) :
    val_main_v62 (F := Ideal) A.x A.ei A.bt A.Wg A.bg (ix2 n c) = invS A.ids (fun n k => val_main_v20 (F := Ideal) A.x A.ei A.Wg A.bg (ix2 n k)) (graphOf A.ids n) := by
  have e1 : idx_main_v61 (idx_main_v62 (ix2 n c)) = ix1 n := funext fun a => Fin.ext (by match a with | ⟨0, _⟩ => rfl)
  rw [val_main_v62_apply, val_main_v61_apply, e1]
  unfold val_main_v60
  rw [pickVec gather_S256_S100000x1_S100000_n_0_n_n_0_1_1 rfl rfl rfl rfl _ _ A.ids (sel_col59 A) n, inv_apply]

/-- The first per-graph norm, clamped at zero, of whatever table the affine map's stage holds. -/
theorem ln1_apply (n : Fin 100000) (c : Fin 64) :
    val_main_v70 (F := Ideal) A.x A.ei A.bt A.Wg A.bg A.w1 A.b1 (ix2 n c)
      = lnS A.ids (fun n k => val_main_v20 (F := Ideal) A.x A.ei A.Wg A.bg (ix2 n k)) A.g1 A.β1 n c := by
  have e5 : idx_main_v64 (idx_main_v65 (ix2 n c)) = ix1 (0 : Fin 1) :=
    funext fun a => Fin.ext (by match a with | ⟨0, _⟩ => rfl)
  have e6 : idx_main_v67 (idx_main_v68 (ix2 n c)) = ix1 (0 : Fin 1) :=
    funext fun a => Fin.ext (by match a with | ⟨0, _⟩ => rfl)
  rw [val_main_v70_apply, val_main_v69_apply, val_main_v66_apply, val_main_v63_apply, dev_apply, invAt_apply,
    val_main_v65_apply, val_main_v64_apply, e5, val_main_v68_apply, val_main_v67_apply, e6, val_main_call1_v0_apply,
    val_main_call1_cst_apply, Ideal.maximumf_def, Ideal.addf_def, Ideal.mulf_def, Ideal.mulf_def, Ideal.ofBits_def,
    Cert.Consts.ofBits_zero]
  rfl

/-! ## The residual -/

/-- The residual. -/
theorem x1_apply (n : Fin 100000) (c : Fin 64) :
    val_main_v71 (F := Ideal) A.x A.ei A.bt A.Wg A.bg A.w1 A.b1 (ix2 n c)
      = x1S A.ids A.X A.AGG A.WG A.BG A.g1 A.β1 n c := by
  have hh : (fun n k => val_main_v20 (F := Ideal) A.x A.ei A.Wg A.bg (ix2 n k)) = gin A.X A.AGG A.WG A.BG :=
    funext fun n => funext fun k => h1_apply A n k
  rw [val_main_v71_apply, ln1_apply, Ideal.addf_def]
  exact congrArg (fun h => A.x (ix2 n c) + lnS A.ids h A.g1 A.β1 n c) hh

end Cert.RefA

end
-- ==== Proof.RefB.lean ====
/-
  The reference's second half read index by index, as the formulas by segments: the second affine map x·W + b of the
  residual stage's table; the per-graph norm of it, clamped at zero; and the per-graph mean of the rows of the result
  (an accumulating scatter by graph id over max(1, count)).
-/
import proofs.«409760_j63745904607323_2_alg».proof.Proof.Gen.ReferenceIdeal.Read
import proofs.«409760_j63745904607323_2_alg».proof.Proof.LibGatherScatter
import proofs.«409760_j63745904607323_2_alg».proof.Proof.Args
import proofs.«409760_j63745904607323_2_alg».proof.Proof.Consts
import Idealize.ShloMosaic.Lib.ValueIdx
import Idealize.ShloMosaic.Lib.Pipeline.Value
import Idealize.ShloMosaic.PureOps.Ideal.Laws

set_option maxRecDepth 16384

open scoped BigOperators

noncomputable section

namespace Cert.RefB

open Cert.ReferenceIdeal Cert.ReferenceIdeal.Read
open Idealize.ShloMosaic Idealize.ShloMosaic.ValueIdx
open Cert.Spec Cert.LibGatherScatter Cert.LibClamp
open Idealize.ShloMosaic.StableHlo.Predicate (ixP)

variable (A : Cert.Args)

/-! ## Indices and words -/

local macro "idx_eq2" : tactic =>
  `(tactic| exact funext fun a => Fin.ext (by match a with | ⟨0, _⟩ => rfl | ⟨1, _⟩ => rfl))
local macro "idx_eq1" : tactic =>
  `(tactic| exact funext fun a => Fin.ext (by match a with | ⟨0, _⟩ => rfl))

/-- The select that wraps a negative id by 256, as the `if` on the signed comparison. -/
private theorem wrap_eq (w : BitVec 32) :
    Scalar.select (IntOp.cmpi .slt w 0#32) (IntOp.addi w 256#32) w = if w.slt 0#32 then w + 256#32 else w := by
  unfold Scalar.select IntOp.cmpi IntOp.addi
  cases h : w.slt 0#32 <;> simp

/-! ## Sums over a graph's nodes -/

/-- A sum over the rows whose id column entry, read signed, is g is the sum over the graph's nodes. -/
private theorem sum_seg (ib : IVec ⟨2, ![100000, 1]⟩ 32) (hib : ∀ e : Fin 100000, ib (ixP e) = A.bt (ix1 e))
    (f : Fin 100000 → EReal) (g : Fin 256) :
    (∑ e ∈ Finset.univ.filter (fun e : Fin 100000 => (ib (ixP e)).toInt = (g.val : ℤ)), f e) = segTotal A.ids f g := by
  unfold segTotal
  refine Finset.sum_congr (Finset.filter_congr fun e _ => ?_) fun _ _ => rfl
  show _ ↔ (A.bt (ix1 e)).toInt = (g.val : ℤ)
  rw [hib e]

/-- The accumulating scatter of ones into a zero table counts the graph's nodes. -/
private theorem count_apply (z : FVec Ideal ⟨1, ![256]⟩ .f32) (ib : IVec ⟨2, ![100000, 1]⟩ 32)
    (o : FVec Ideal ⟨1, ![100000]⟩ .f32) (hz : ∀ q, z q = (0 : EReal))
    (hib : ∀ e : Fin 100000, ib (ixP e) = A.bt (ix1 e)) (ho : ∀ e, o e = (1 : EReal)) (g : Fin 256) :
    Host.scatterAdd (F := Ideal) scatter_S256_S100000x1_S100000_n_0_0_1 z ib o (ix1 g) = cntS A.ids g := by
  rw [scatterAdd_vec_apply _ rfl rfl rfl rfl, hz, zero_add]
  unfold cntS
  rw [← sum_seg A ib hib]
  exact Finset.sum_congr rfl fun e _ => ho _

/-- The accumulating row scatter into a zero table is, column by column, the sum over the graph's nodes. -/
private theorem rows_apply (z : FVec Ideal ⟨2, ![256, 64]⟩ .f32) (ib : IVec ⟨2, ![100000, 1]⟩ 32)
    (u : FVec Ideal ⟨2, ![100000, 64]⟩ .f32) (hz : ∀ q, z q = (0 : EReal))
    (hib : ∀ e : Fin 100000, ib (ixP e) = A.bt (ix1 e)) (g : Fin 256) (c : Fin 64) :
    Host.scatterAdd (F := Ideal) scatter_S256x64_S100000x1_S100000x64_1_0_0_1 z ib u (ix2 g c)
      = segTotal A.ids (fun n => u (ix2 n c)) g := by
  rw [scatterAdd_rows_apply _ rfl rfl rfl rfl, hz, zero_add]
  exact sum_seg A ib hib (fun n => u (ix2 n c)) g

/-! ## The constant tables and the id columns -/

private theorem v77_zero (q) : val_main_v77 (F := Ideal) q = (0 : EReal) := by
  rw [val_main_v77_apply, val_main_cst_17_apply]; exact Cert.Consts.ofBits_zero

private theorem v83_zero (q) : val_main_v83 (F := Ideal) q = (0 : EReal) := by
  rw [val_main_v83_apply, val_main_cst_20_apply]; exact Cert.Consts.ofBits_zero

private theorem v99_zero (q) : val_main_v99 (F := Ideal) q = (0 : EReal) := by
  rw [val_main_v99_apply, val_main_cst_24_apply]; exact Cert.Consts.ofBits_zero

private theorem v127_zero (q) : val_main_v127 (F := Ideal) q = (0 : EReal) := by
  rw [val_main_v127_apply, val_main_cst_31_apply]; exact Cert.Consts.ofBits_zero

private theorem v130_zero (q) : val_main_v130 (F := Ideal) q = (0 : EReal) := by
  rw [val_main_v130_apply, val_main_cst_32_apply]; exact Cert.Consts.ofBits_zero

private theorem v76_one (q) : val_main_v76 (F := Ideal) q = (1 : EReal) := by
  rw [val_main_v76_apply, val_main_cst_16_apply]; exact Cert.Consts.ofBits_one

private theorem v126_one (q) : val_main_v126 (F := Ideal) q = (1 : EReal) := by
  rw [val_main_v126_apply, val_main_cst_30_apply]; exact Cert.Consts.ofBits_one

private theorem v78_col (e : Fin 100000) : val_main_v78 (F := Ideal) A.bt (ixP e) = A.bt (ix1 e) := by
  rw [val_main_v78_apply]; exact congrArg A.bt (by idx_eq1)

private theorem v84_col (e : Fin 100000) : val_main_v84 (F := Ideal) A.bt (ixP e) = A.bt (ix1 e) := by
  rw [val_main_v84_apply]; exact congrArg A.bt (by idx_eq1)

private theorem v100_col (e : Fin 100000) : val_main_v100 (F := Ideal) A.bt (ixP e) = A.bt (ix1 e) := by
  rw [val_main_v100_apply]; exact congrArg A.bt (by idx_eq1)

private theorem v128_col (e : Fin 100000) : val_main_v128 (F := Ideal) A.bt (ixP e) = A.bt (ix1 e) := by
  rw [val_main_v128_apply]; exact congrArg A.bt (by idx_eq1)

private theorem v131_col (e : Fin 100000) : val_main_v131 (F := Ideal) A.bt (ixP e) = A.bt (ix1 e) := by
  rw [val_main_v131_apply]; exact congrArg A.bt (by idx_eq1)

private theorem v92_wrap (n : Fin 100000) :
    val_main_v92 (F := Ideal) A.bt (ix1 n) = if (A.bt (ix1 n)).slt 0#32 then A.bt (ix1 n) + 256#32 else A.bt (ix1 n) := by
  rw [val_main_v92_apply, val_main_v89_apply, val_main_v88_apply, val_main_c_22_apply, val_main_v91_apply,
    val_main_v90_apply, val_main_c_23_apply]
  exact wrap_eq _

private theorem v113_wrap (n : Fin 100000) :
    val_main_v113 (F := Ideal) A.bt (ix1 n) = if (A.bt (ix1 n)).slt 0#32 then A.bt (ix1 n) + 256#32 else A.bt (ix1 n) := by
  rw [val_main_v113_apply, val_main_v110_apply, val_main_v109_apply, val_main_c_28_apply, val_main_v112_apply,
    val_main_v111_apply, val_main_c_29_apply]
  exact wrap_eq _

/-! ## The second affine map -/

/-- The second affine map, of whatever table the residual stage holds. -/
theorem h2_apply (n : Fin 100000) (c : Fin 64) :
    val_main_v75 (F := Ideal) A.x A.ei A.bt A.Wg A.bg A.w1 A.b1 A.Wf A.bf (ix2 n c)
      = ffn (fun n k => val_main_v71 (F := Ideal) A.x A.ei A.bt A.Wg A.bg A.w1 A.b1 (ix2 n k)) A.WF A.BF n c := by
  have e1 : ∀ k : Fin 64, lidx_main_v72 (ix2 n c) k = ix2 n k := fun k => by idx_eq2
  have e2 : ∀ k : Fin 64, ridx_main_v72 (ix2 n c) k = ix2 k c := fun k => by idx_eq2
  have e3 : idx_main_v73 (idx_main_v74 (ix2 n c)) = ix1 c := by idx_eq1
  rw [val_main_v75_apply, val_main_v72_apply, val_main_v74_apply, val_main_v73_apply, e3]
  simp only [e1, e2]
  rfl

/-! ## The second norm: count, divisor, mean -/

private theorem v79_cnt (g : Fin 256) : val_main_v79 (F := Ideal) A.bt (ix1 g) = cntS A.ids g := by
  unfold val_main_v79
  exact count_apply A _ _ _ v77_zero (v78_col A) v76_one g

private theorem v80_clip (g : Fin 256) : val_main_v80 (F := Ideal) A.bt (ix1 g) = max 1 (cntS A.ids g) := by
  rw [val_main_v80_apply, val_main_call2_v1_apply, val_main_call2_v0_apply, val_main_cst_18_apply, v79_cnt]
  exact congrArg (fun t : EReal => max t (cntS A.ids g)) Cert.Consts.ofBits_one

private theorem v82_nrm (g : Fin 256) : val_main_v82 (F := Ideal) A.bt (ix1 g) = nrmS A.ids g := by
  rw [val_main_v82_apply, v80_clip, val_main_v81_apply, val_main_cst_19_apply]
  exact congrArg (fun t : EReal => max 1 (cntS A.ids g) * t) Cert.Consts.ofBits_64

private theorem v85_sum (g : Fin 256) (c : Fin 64) :
    val_main_v85 (F := Ideal) A.x A.ei A.bt A.Wg A.bg A.w1 A.b1 A.Wf A.bf (ix2 g c) = segTotal A.ids (fun n => val_main_v75 (F := Ideal) A.x A.ei A.bt A.Wg A.bg A.w1 A.b1 A.Wf A.bf (ix2 n c)) g := by
  unfold val_main_v85
  exact rows_apply A _ _ _ v83_zero (v84_col A) g c

private theorem v87_mean (g : Fin 256) : val_main_v87 (F := Ideal) A.x A.ei A.bt A.Wg A.bg A.w1 A.b1 A.Wf A.bf (ix1 g) = meanS A.ids (fun (n : Fin 100000) (k : Fin 64) => val_main_v75 (F := Ideal) A.x A.ei A.bt A.Wg A.bg A.w1 A.b1 A.Wf A.bf (ix2 n k)) g := by
  have e : ∀ k : Fin 64, idx_main_v86 (ix1 g) k = ix2 g k := fun k => by idx_eq2
  rw [val_main_v87_apply, val_main_v86_apply, v82_nrm, val_main_cst_21_apply]
  simp only [e, v85_sum]
  show Ideal.div (Ideal.ofBits .f32 0x00000000#32 + _) _ = _
  rw [Cert.Consts.ofBits_zero, zero_add]
  rfl

private theorem v94_mean (n : Fin 100000) : val_main_v94 (F := Ideal) A.x A.ei A.bt A.Wg A.bg A.w1 A.b1 A.Wf A.bf (ix1 n) = meanS A.ids (fun (n : Fin 100000) (k : Fin 64) => val_main_v75 (F := Ideal) A.x A.ei A.bt A.Wg A.bg A.w1 A.b1 A.Wf A.bf (ix2 n k)) (graphOf A.ids n) := by
  have e : idx_main_v93 (ixP n) = ix1 n := by idx_eq1
  unfold val_main_v94
  rw [gather_vec_apply (by decide : 0 < 256) _ rfl rfl rfl rfl, val_main_v93_apply, e, v92_wrap, v87_mean]
  rfl

private theorem v97_dev (n : Fin 100000) (c : Fin 64) :
    val_main_v97 (F := Ideal) A.x A.ei A.bt A.Wg A.bg A.w1 A.b1 A.Wf A.bf (ix2 n c) = val_main_v75 (F := Ideal) A.x A.ei A.bt A.Wg A.bg A.w1 A.b1 A.Wf A.bf (ix2 n c) - meanS A.ids (fun (n : Fin 100000) (k : Fin 64) => val_main_v75 (F := Ideal) A.x A.ei A.bt A.Wg A.bg A.w1 A.b1 A.Wf A.bf (ix2 n k)) (graphOf A.ids n) := by
  have e : idx_main_v95 (idx_main_v96 (ix2 n c)) = ix1 n := by idx_eq1
  rw [val_main_v97_apply, val_main_v96_apply, val_main_v95_apply, e, v94_mean]
  rfl

/-! ## The second norm: variance and inverse deviation -/

private theorem v101_sum (g : Fin 256) (c : Fin 64) :
    val_main_v101 (F := Ideal) A.x A.ei A.bt A.Wg A.bg A.w1 A.b1 A.Wf A.bf (ix2 g c)
      = segTotal A.ids (fun n => ((fun (n : Fin 100000) (k : Fin 64) => val_main_v75 (F := Ideal) A.x A.ei A.bt A.Wg A.bg A.w1 A.b1 A.Wf A.bf (ix2 n k)) n c - meanS A.ids (fun (n : Fin 100000) (k : Fin 64) => val_main_v75 (F := Ideal) A.x A.ei A.bt A.Wg A.bg A.w1 A.b1 A.Wf A.bf (ix2 n k)) (graphOf A.ids n)) * ((fun (n : Fin 100000) (k : Fin 64) => val_main_v75 (F := Ideal) A.x A.ei A.bt A.Wg A.bg A.w1 A.b1 A.Wf A.bf (ix2 n k)) n c - meanS A.ids (fun (n : Fin 100000) (k : Fin 64) => val_main_v75 (F := Ideal) A.x A.ei A.bt A.Wg A.bg A.w1 A.b1 A.Wf A.bf (ix2 n k)) (graphOf A.ids n))) g := by
  unfold val_main_v101
  rw [rows_apply A _ _ _ v99_zero (v100_col A) g c]
  refine congrArg (fun f => segTotal A.ids f g) (funext fun n => ?_)
  rw [val_main_v98_apply, v97_dev]
  rfl

private theorem v103_var (g : Fin 256) : val_main_v103 (F := Ideal) A.x A.ei A.bt A.Wg A.bg A.w1 A.b1 A.Wf A.bf (ix1 g) = varS A.ids (fun (n : Fin 100000) (k : Fin 64) => val_main_v75 (F := Ideal) A.x A.ei A.bt A.Wg A.bg A.w1 A.b1 A.Wf A.bf (ix2 n k)) g := by
  have e : ∀ k : Fin 64, idx_main_v102 (ix1 g) k = ix2 g k := fun k => by idx_eq2
  rw [val_main_v103_apply, val_main_v102_apply, v82_nrm, val_main_cst_25_apply]
  simp only [e, v101_sum]
  show Ideal.div (Ideal.ofBits .f32 0x00000000#32 + _) _ = _
  rw [Cert.Consts.ofBits_zero, zero_add]
  rfl

private theorem v108_inv (g : Fin 256) : val_main_v108 (F := Ideal) A.x A.ei A.bt A.Wg A.bg A.w1 A.b1 A.Wf A.bf (ix1 g) = invS A.ids (fun (n : Fin 100000) (k : Fin 64) => val_main_v75 (F := Ideal) A.x A.ei A.bt A.Wg A.bg A.w1 A.b1 A.Wf A.bf (ix2 n k)) g := by
  rw [val_main_v108_apply, val_main_v107_apply, val_main_cst_27_apply, val_main_v106_apply, val_main_v105_apply, v103_var,
    val_main_v104_apply, val_main_cst_26_apply]
  simp only [Ideal.hostDivf_def, Ideal.hostUnary_sqrt_def, Ideal.addf_def, Ideal.ofBits_def, Cert.Consts.ofBits_one]
  rfl

private theorem v115_inv (n : Fin 100000) : val_main_v115 (F := Ideal) A.x A.ei A.bt A.Wg A.bg A.w1 A.b1 A.Wf A.bf (ix1 n) = invS A.ids (fun (n : Fin 100000) (k : Fin 64) => val_main_v75 (F := Ideal) A.x A.ei A.bt A.Wg A.bg A.w1 A.b1 A.Wf A.bf (ix2 n k)) (graphOf A.ids n) := by
  have e : idx_main_v114 (ixP n) = ix1 n := by idx_eq1
  unfold val_main_v115
  rw [gather_vec_apply (by decide : 0 < 256) _ rfl rfl rfl rfl, val_main_v114_apply, e, v113_wrap, v108_inv]
  rfl

/-! ## The second norm at a node -/

/-- The second per-graph norm, clamped at zero, of whatever table the second affine map's stage holds. -/
theorem out_apply (n : Fin 100000) (c : Fin 64) :
    val_main_v125 (F := Ideal) A.x A.ei A.bt A.Wg A.bg A.w1 A.b1 A.Wf A.bf A.w2 A.b2 (ix2 n c)
      = lnS A.ids (fun n k => val_main_v75 (F := Ideal) A.x A.ei A.bt A.Wg A.bg A.w1 A.b1 A.Wf A.bf (ix2 n k)) A.g2 A.β2 n c := by
  have e1 : idx_main_v116 (idx_main_v117 (ix2 n c)) = ix1 n := by idx_eq1
  have e2 : idx_main_v119 (idx_main_v120 (ix2 n c)) = ix1 (0 : Fin 1) := by idx_eq1
  have e3 : idx_main_v122 (idx_main_v123 (ix2 n c)) = ix1 (0 : Fin 1) := by idx_eq1
  rw [val_main_v125_apply, val_main_v124_apply, val_main_v121_apply, val_main_v118_apply, v97_dev, val_main_v117_apply,
    val_main_v116_apply, e1, v115_inv, val_main_v120_apply, val_main_v119_apply, e2, val_main_v123_apply, val_main_v122_apply, e3,
    val_main_call3_v0_apply, val_main_call3_cst_apply]
  show max _ (Ideal.ofBits .f32 0x00000000#32) = _
  rw [Cert.Consts.ofBits_zero]
  rfl

/-! ## The per-graph means of the rows -/

private theorem v129_cnt (g : Fin 256) : val_main_v129 (F := Ideal) A.bt (ix1 g) = cntS A.ids g := by
  unfold val_main_v129
  exact count_apply A _ _ _ v127_zero (v128_col A) v126_one g

private theorem v133_clip (g : Fin 256) : val_main_v133 (F := Ideal) A.bt (ix1 g) = max 1 (cntS A.ids g) := by
  rw [val_main_v133_apply, val_main_call4_v1_apply, val_main_call4_v0_apply, val_main_cst_33_apply, v129_cnt]
  exact congrArg (fun t : EReal => max t (cntS A.ids g)) Cert.Consts.ofBits_one

private theorem v132_sum (g : Fin 256) (c : Fin 64) :
    val_main_v132 (F := Ideal) A.x A.ei A.bt A.Wg A.bg A.w1 A.b1 A.Wf A.bf A.w2 A.b2 (ix2 g c) = segTotal A.ids (fun n => val_main_v125 (F := Ideal) A.x A.ei A.bt A.Wg A.bg A.w1 A.b1 A.Wf A.bf A.w2 A.b2 (ix2 n c)) g := by
  unfold val_main_v132
  exact rows_apply A _ _ _ v130_zero (v131_col A) g c

/-- The per-graph means of whatever table the last stage holds. -/
theorem pool_apply (g : Fin 256) (c : Fin 64) :
    val_main_v136 (F := Ideal) A.x A.ei A.bt A.Wg A.bg A.w1 A.b1 A.Wf A.bf A.w2 A.b2 (ix2 g c)
      = poolS A.ids (fun n k => val_main_v125 (F := Ideal) A.x A.ei A.bt A.Wg A.bg A.w1 A.b1 A.Wf A.bf A.w2 A.b2 (ix2 n k)) g c := by
  have e : idx_main_v134 (idx_main_v135 (ix2 g c)) = ix1 g := by idx_eq1
  rw [val_main_v136_apply, val_main_v135_apply, val_main_v134_apply, e, v133_clip, v132_sum]
  rfl

end Cert.RefB

end
-- ==== Proof.RefOut.lean ====
/-
  The reference program's two results as the layer by segments: the stages read in the two halves compose — the second
  affine map is of the residual of the first half, the second norm of that, the per-graph means of that.
-/
import proofs.«409760_j63745904607323_2_alg».proof.Proof.RefA
import proofs.«409760_j63745904607323_2_alg».proof.Proof.RefB

noncomputable section

namespace Cert.RefOut

open Cert.ReferenceIdeal Cert.ReferenceIdeal.Read
open Idealize.ShloMosaic Idealize.ShloMosaic.ValueIdx
open Cert.Spec

variable (A : Cert.Args)

/-- The node table the reference returns. -/
theorem out_apply (n : Fin 100000) (c : Fin 64) :
    val_main_v125 (F := Ideal) A.x A.ei A.bt A.Wg A.bg A.w1 A.b1 A.Wf A.bf A.w2 A.b2 (ix2 n c) = A.outS n c := by
  rw [Cert.RefB.out_apply]
  have h75 : (fun n k => val_main_v75 (F := Ideal) A.x A.ei A.bt A.Wg A.bg A.w1 A.b1 A.Wf A.bf (ix2 n k))
      = ffn (x1S A.ids A.X A.AGG A.WG A.BG A.g1 A.β1) A.WF A.BF := by
    funext n k
    rw [Cert.RefB.h2_apply]
    have h71 : (fun n k => val_main_v71 (F := Ideal) A.x A.ei A.bt A.Wg A.bg A.w1 A.b1 (ix2 n k))
        = x1S A.ids A.X A.AGG A.WG A.BG A.g1 A.β1 := by
      funext n k; exact Cert.RefA.x1_apply A n k
    rw [h71]
  rw [h75]
  rfl

/-- The per-graph means the reference returns. -/
theorem pool_apply (g : Fin 256) (c : Fin 64) :
    val_main_v136 (F := Ideal) A.x A.ei A.bt A.Wg A.bg A.w1 A.b1 A.Wf A.bf A.w2 A.b2 (ix2 g c) = A.poolS g c := by
  rw [Cert.RefB.pool_apply]
  have h125 : (fun n k => val_main_v125 (F := Ideal) A.x A.ei A.bt A.Wg A.bg A.w1 A.b1 A.Wf A.bf A.w2 A.b2 (ix2 n k)) = A.outS := by
    funext n k; exact out_apply A n k
  rw [h125]
  rfl

end Cert.RefOut

end
-- ==== Proof.MathSums.lean ====
/-
  Sums by tiles are sums by segments. The 20 × 5000 rows of the tiles are the 100000 nodes, each once; a row's 0/1 weight
  for graph g is 1 exactly when its id read signed is g (an id word equals the word of g < 256 exactly when its signed
  value is g); a product with a 0/1 weight keeps or drops the term. So a per-graph sum by tiles is the sum over the
  graph's nodes, and a per-graph table read through a node's 0/1 row is the table's entry at the node's graph when the id
  is in range. None of this needs the summands to be finite: addition of extended reals is commutative and associative,
  and 0 · v = 0, 1 · v = v for every v.
-/
import proofs.«409760_j63745904607323_2_alg».proof.Proof.Spec

open scoped BigOperators

noncomputable section

namespace Cert.Spec

open Idealize.ShloMosaic Cert.LibClamp

/-- An id word equals the word of g < 256 exactly when its signed value is g. -/
private theorem word_eq_iff (w : BitVec 32) (g : Nat) (hg : g < 256) : w = BitVec.ofNat 32 g ↔ w.toInt = (g : ℤ) := by
  have hw := w.isLt
  constructor
  · rintro rfl
    rw [BitVec.toInt_eq_toNat_cond, BitVec.toNat_ofNat, Nat.mod_eq_of_lt (by omega)]
    split <;> omega
  · intro h
    apply BitVec.eq_of_toNat_eq
    rw [BitVec.toNat_ofNat, Nat.mod_eq_of_lt (by omega)]
    rw [BitVec.toInt_eq_toNat_cond] at h
    split at h <;> omega

/-- A word below 256 is nonnegative read signed. -/
private theorem toInt_of_lt (w : BitVec 32) (hw : w.toNat < 256) : w.toInt = (w.toNat : ℤ) := by
  rw [BitVec.toInt_eq_toNat_cond]
  split <;> omega

theorem oh_eq_ite (bt : Ids) (n : Fin 100000) (g : Fin 256) : oh bt n g = if inSeg bt g n then 1 else 0 := by
  unfold oh
  by_cases h : bt n = BitVec.ofNat 32 g.val
  · have h' : inSeg bt g n := (word_eq_iff _ _ g.isLt).mp h
    rw [if_pos h, if_pos h']
  · have h' : ¬ inSeg bt g n := fun h'' => h ((word_eq_iff _ _ g.isLt).mpr h'')
    rw [if_neg h, if_neg h']

/-- The rows of the 20 tiles of 5000 are the 100000 nodes, each once. -/
private def tileEquiv : Fin 20 × Fin 5000 ≃ Fin 100000 where
  toFun p := nodeOf p.1 p.2
  invFun n := (⟨n.val / 5000, by have := n.isLt; omega⟩, ⟨n.val % 5000, Nat.mod_lt _ (by omega)⟩)
  left_inv := by
    rintro ⟨t, r⟩
    have ht := t.isLt
    have hr := r.isLt
    apply Prod.ext <;> apply Fin.ext <;> simp only [nodeOf] <;> omega
  right_inv := by
    intro n
    apply Fin.ext
    simp only [nodeOf]
    omega

/-- A per-graph sum by tiles is the sum over the graph's nodes. -/
theorem tileTotal_eq_segTotal (bt : Ids) (f : Fin 100000 → EReal) (g : Fin 256) : tileTotal bt f g = segTotal bt f g := by
  unfold tileTotal tilePart segTotal
  rw [Finset.sum_filter,
    ← Finset.sum_product' Finset.univ Finset.univ (fun t r => oh bt (nodeOf t r) g * f (nodeOf t r)),
    Finset.univ_product_univ]
  refine Fintype.sum_equiv tileEquiv _ _ ?_
  intro p
  show oh bt (nodeOf p.1 p.2) g * f (nodeOf p.1 p.2) = if inSeg bt g (nodeOf p.1 p.2) then f (nodeOf p.1 p.2) else 0
  rw [oh_eq_ite]
  by_cases h : inSeg bt g (nodeOf p.1 p.2)
  · rw [if_pos h, if_pos h, one_mul]
  · rw [if_neg h, if_neg h, zero_mul]

theorem cntT_eq_cntS (bt : Ids) (g : Fin 256) : cntT bt g = cntS bt g := tileTotal_eq_segTotal bt _ g

theorem nrmT_eq_nrmS (bt : Ids) (g : Fin 256) : nrmT bt g = nrmS bt g := by
  unfold nrmT nrmS; rw [cntT_eq_cntS]

/-- Rows first then channels, or channels first then rows. -/
theorem tileTotal_rowSum (bt : Ids) (h : Mat 100000 64) (g : Fin 256) :
    tileTotal bt (rowSum h) g = ∑ c : Fin 64, segTotal bt (fun n => h n c) g := by
  rw [tileTotal_eq_segTotal]
  unfold segTotal rowSum
  exact Finset.sum_comm

theorem tileTotal_rowSq (bt : Ids) (h : Mat 100000 64) (g : Fin 256) :
    tileTotal bt (rowSq h) g = ∑ c : Fin 64, segTotal bt (fun n => h n c * h n c) g := by
  rw [tileTotal_eq_segTotal]
  unfold segTotal rowSq
  exact Finset.sum_comm

theorem meanT_eq_meanS (bt : Ids) (h : Mat 100000 64) (g : Fin 256) : meanT bt h g = meanS bt h g := by
  unfold meanT meanS; rw [tileTotal_rowSum, nrmT_eq_nrmS]

/-- An id in range names its own graph: no wrap, no clamp. -/
theorem graphOf_val (bt : Ids) (n : Fin 100000) (hn : (bt n).toNat < 256) : (graphOf bt n).val = (bt n).toNat := by
  have hti := toInt_of_lt (bt n) hn
  have hs : (bt n).slt 0#32 = false := by
    unfold BitVec.slt
    rw [hti]
    simp
  unfold graphOf clampTo
  rw [hs]
  show min (bt n).toInt.toNat (256 - 1) = (bt n).toNat
  rw [hti, Int.toNat_natCast]
  omega

theorem inSeg_graphOf (bt : Ids) (n : Fin 100000) (hn : (bt n).toNat < 256) : inSeg bt (graphOf bt n) n := by
  unfold inSeg
  rw [graphOf_val bt n hn]
  exact toInt_of_lt (bt n) hn

/-- For an id in range, `inSeg bt g n` says g is the node's graph. -/
theorem inSeg_iff (bt : Ids) (n : Fin 100000) (hn : (bt n).toNat < 256) (g : Fin 256) : inSeg bt g n ↔ g = graphOf bt n := by
  constructor
  · intro h
    unfold inSeg at h
    rw [toInt_of_lt (bt n) hn] at h
    apply Fin.ext
    rw [graphOf_val bt n hn]
    omega
  · rintro rfl
    exact inSeg_graphOf bt n hn

/-- A per-graph table read through a node's 0/1 row is the entry at the node's graph. -/
theorem pickT_eq (bt : Ids) (v : Fin 256 → EReal) (n : Fin 100000) (hn : (bt n).toNat < 256) : pickT bt v n = v (graphOf bt n) := by
  unfold pickT
  rw [Finset.sum_eq_single (graphOf bt n)]
  · rw [oh_eq_ite, if_pos (inSeg_graphOf bt n hn), one_mul]
  · intro g _ hg
    rw [oh_eq_ite, if_neg (fun h => hg ((inSeg_iff bt n hn g).mp h)), zero_mul]
  · intro h
    exact absurd (Finset.mem_univ _) h

theorem poolT_eq_poolS (bt : Ids) (y : Mat 100000 64) : poolT bt y = poolS bt y := by
  funext g c; unfold poolT poolS; rw [tileTotal_eq_segTotal, cntT_eq_cntS]

end Cert.Spec

end
-- ==== Proof.MathVar.lean ====
/-
  The two variances agree on real tables. For a table of real numbers and ids in range, with n_g the number of entries of
  graph g (64 per node) and μ = S₁ / max(1, count)·64: if the graph has a node, the divisor IS n_g, and
  Σ (h − μ)² = S₂ − 2μ·S₁ + n_g·μ², so the mean of squared deviations is S₂/n_g − μ², which is nonnegative, so clamping it
  below at zero changes nothing; if the graph has no node every sum is 0 and both are 0. A variance plus the small positive
  number is a positive real, where the reciprocal square root is one over the square root. Hence the two norms agree, and
  their value is real.
-/
import proofs.«409760_j63745904607323_2_alg».proof.Proof.Spec
import proofs.«409760_j63745904607323_2_alg».proof.Proof.Consts
import proofs.«409760_j63745904607323_2_alg».proof.Proof.MathSums

open scoped BigOperators

noncomputable section

namespace Cert.Spec

open Idealize.ShloMosaic Cert.LibClamp

/-- A table of real numbers. -/
def Real2 (h : Mat 100000 64) : Prop := ∀ n c, ∃ r : ℝ, h n c = (r : EReal)

/-- The coercion of a finite sum of reals is the sum of the coercions. -/
private theorem coe_sum_real {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion of the larger of two reals is the larger of the coercions. -/
private theorem coe_max_real (a b : ℝ) : ((max a b : ℝ) : EReal) = max (a : EReal) (b : EReal) :=
  EReal.coe_strictMono.monotone.map_max

/-- A quotient of reals with nonzero divisor is the real quotient. -/
theorem div_real (a b : ℝ) (hb : b ≠ 0) : Ideal.div (a : EReal) (b : EReal) = ((a / b : ℝ) : EReal) := by
  rw [Ideal.div_coe hb, ← EReal.coe_mul, mul_one_div]

/-- The sum over the channels and over the nodes of graph g of a real table. -/
private def segR (bt : Ids) (g : Fin 256) (f : Fin 100000 → Fin 64 → ℝ) : ℝ :=
  ∑ c : Fin 64, ∑ n ∈ Finset.univ.filter (inSeg bt g), f n c

/-- The norm's divisor as a real: max(1, number of nodes of g) · 64. -/
private def nrmR (bt : Ids) (g : Fin 256) : ℝ := max 1 ((Finset.univ.filter (inSeg bt g)).card : ℝ) * 64

private theorem nrmR_pos (bt : Ids) (g : Fin 256) : 0 < nrmR bt g :=
  mul_pos (lt_of_lt_of_le one_pos (le_max_left _ _)) (by norm_num)

private theorem cntS_eq (bt : Ids) (g : Fin 256) :
    cntS bt g = (((Finset.univ.filter (inSeg bt g)).card : ℝ) : EReal) := by
  unfold cntS segTotal
  rw [Finset.sum_const, nsmul_one]
  rfl

private theorem nrmS_eq (bt : Ids) (g : Fin 256) : nrmS bt g = (nrmR bt g : EReal) := by
  unfold nrmS nrmR
  rw [cntS_eq, EReal.coe_mul, coe_max_real, EReal.coe_one]
  rfl

/-- A table that is real on the nodes of g has a real sum over them. -/
private theorem sumSeg_real (bt : Ids) (g : Fin 256) (F : Mat 100000 64) (f : Fin 100000 → Fin 64 → ℝ)
    (hF : ∀ n, inSeg bt g n → ∀ c, F n c = (f n c : EReal)) :
    ∑ c : Fin 64, segTotal bt (fun n => F n c) g = (segR bt g f : EReal) := by
  unfold segR segTotal
  rw [coe_sum_real]
  refine Finset.sum_congr rfl fun c _ => ?_
  rw [coe_sum_real]
  exact Finset.sum_congr rfl fun n hn => hF n (Finset.mem_filter.1 hn).2 c

private theorem meanS_of_real (bt : Ids) (h : Mat 100000 64) (hr : Fin 100000 → Fin 64 → ℝ)
    (hhr : ∀ n c, h n c = (hr n c : EReal)) (g : Fin 256) :
    meanS bt h g = ((segR bt g hr / nrmR bt g : ℝ) : EReal) := by
  unfold meanS
  rw [sumSeg_real bt g h hr (fun n _ c => hhr n c), nrmS_eq, div_real _ _ (nrmR_pos bt g).ne']

/-- The per-graph mean of a real table is real. -/
theorem meanS_real (bt : Ids) (h : Mat 100000 64) (hh : Real2 h) (g : Fin 256) : ∃ r : ℝ, meanS bt h g = (r : EReal) := by
  choose hr hhr using hh
  exact ⟨_, meanS_of_real bt h hr hhr g⟩

/-- The identity in the reals: with D = max(1, k)·64 for k the number of nodes, and μ = S₁ / D, the mean of squares minus
    the square of the mean, clamped at zero, is the mean of squared deviations. -/
private theorem var_alg (S : Finset (Fin 100000)) (f : Fin 100000 → Fin 64 → ℝ) (D μ : ℝ)
    (hD : D = max 1 (S.card : ℝ) * 64) (hμ : μ = (∑ c : Fin 64, ∑ n ∈ S, f n c) / D) :
    max ((∑ c : Fin 64, ∑ n ∈ S, f n c * f n c) / D - μ * μ) 0
      = (∑ c : Fin 64, ∑ n ∈ S, (f n c - μ) * (f n c - μ)) / D := by
  have hDpos : 0 < D := by
    rw [hD]; exact mul_pos (lt_of_lt_of_le one_pos (le_max_left _ _)) (by norm_num)
  have hQ : 0 ≤ (∑ c : Fin 64, ∑ n ∈ S, (f n c - μ) * (f n c - μ)) / D :=
    div_nonneg (Finset.sum_nonneg fun c _ => Finset.sum_nonneg fun n _ => mul_self_nonneg _) hDpos.le
  rcases Nat.eq_zero_or_pos S.card with h0 | hpos
  · have hS : S = ∅ := Finset.card_eq_zero.1 h0
    subst hS
    have hμ0 : μ = 0 := by simpa using hμ
    subst hμ0
    simp
  · have hk : (1 : ℝ) ≤ (S.card : ℝ) := by exact_mod_cast hpos
    have hD' : (64 : ℝ) * (S.card : ℝ) = D := by rw [hD, max_eq_right hk]; ring
    have hS1 : (∑ c : Fin 64, ∑ n ∈ S, f n c) = μ * D := by rw [hμ]; field_simp
    have hexp : ∑ c : Fin 64, ∑ n ∈ S, (f n c - μ) * (f n c - μ)
        = (∑ c : Fin 64, ∑ n ∈ S, f n c * f n c) - 2 * μ * (∑ c : Fin 64, ∑ n ∈ S, f n c)
          + 64 * (S.card : ℝ) * (μ * μ) := by
      have h1 : ∀ c n, (f n c - μ) * (f n c - μ) = f n c * f n c - 2 * μ * f n c + μ * μ := by
        intros; ring
      simp only [h1, Finset.sum_add_distrib, Finset.sum_sub_distrib, ← Finset.mul_sum, Finset.sum_const,
        Finset.card_univ, Fintype.card_fin, nsmul_eq_mul]
      push_cast; ring
    have heq : (∑ c : Fin 64, ∑ n ∈ S, f n c * f n c) / D - μ * μ
        = (∑ c : Fin 64, ∑ n ∈ S, (f n c - μ) * (f n c - μ)) / D := by
      rw [hexp, hS1, hD']
      field_simp
      ring
    rw [heq]
    exact max_eq_left hQ

/-- THE VARIANCE IDENTITY: mean of squares minus square of the mean, clamped at zero, is the mean of squared deviations, and it
    is a nonnegative real. -/
theorem varT_eq_varS (bt : Ids) (hbt : ∀ n, (bt n).toNat < 256) (h : Mat 100000 64) (hh : Real2 h) (g : Fin 256) :
    varT bt h g = varS bt h g ∧ ∃ r : ℝ, 0 ≤ r ∧ varS bt h g = (r : EReal) := by
  choose hr hhr using hh
  have hDpos : 0 < nrmR bt g := nrmR_pos bt g
  have hmean : meanS bt h g = ((segR bt g hr / nrmR bt g : ℝ) : EReal) := meanS_of_real bt h hr hhr g
  generalize hμ : segR bt g hr / nrmR bt g = μ at hmean
  have hvarS : varS bt h g
      = ((segR bt g (fun n c => (hr n c - μ) * (hr n c - μ)) / nrmR bt g : ℝ) : EReal) := by
    have key := sumSeg_real bt g
      (fun n c => (h n c - meanS bt h (graphOf bt n)) * (h n c - meanS bt h (graphOf bt n)))
      (fun n c => (hr n c - μ) * (hr n c - μ)) (by
        intro n hn c
        have hng : graphOf bt n = g := ((inSeg_iff bt n (hbt n) g).1 hn).symm
        rw [hng, hmean, hhr n c, ← EReal.coe_sub, ← EReal.coe_mul])
    unfold varS
    rw [nrmS_eq, key, div_real _ _ hDpos.ne']
  have hvarT : varT bt h g
      = ((max (segR bt g (fun n c => hr n c * hr n c) / nrmR bt g - μ * μ) 0 : ℝ) : EReal) := by
    have key := sumSeg_real bt g (fun n c => h n c * h n c) (fun n c => hr n c * hr n c) (by
      intro n _ c
      rw [hhr n c, ← EReal.coe_mul])
    unfold varT
    rw [tileTotal_rowSq, nrmT_eq_nrmS, meanT_eq_meanS, hmean, nrmS_eq, key, div_real _ _ hDpos.ne',
      ← EReal.coe_mul, ← EReal.coe_sub, coe_max_real, EReal.coe_zero]
  have halg := var_alg (Finset.univ.filter (inSeg bt g)) hr (nrmR bt g) μ rfl hμ.symm
  refine ⟨?_, _, ?_, hvarS⟩
  · rw [hvarT, hvarS]
    exact congrArg _ halg
  · exact div_nonneg (Finset.sum_nonneg fun c _ => Finset.sum_nonneg fun n _ => mul_self_nonneg _) hDpos.le

/-- The reciprocal square root of a positive real is one over its square root, a real. -/
theorem invT_eq_invS (bt : Ids) (hbt : ∀ n, (bt n).toNat < 256) (h : Mat 100000 64) (hh : Real2 h) (g : Fin 256) :
    invT bt h g = invS bt h g ∧ ∃ r : ℝ, invS bt h g = (r : EReal) := by
  obtain ⟨hv, v, hv0, hvS⟩ := varT_eq_varS bt hbt h hh g
  obtain ⟨e, he0, he⟩ := Cert.Consts.eps_pos
  have hpos : 0 < v + e := by linarith
  have hs : Real.sqrt (v + e) ≠ 0 := (Real.sqrt_pos.2 hpos).ne'
  have hinvS : invS bt h g = (((Real.sqrt (v + e))⁻¹ : ℝ) : EReal) := by
    unfold invS
    rw [hvS, he, ← EReal.coe_add, Ideal.sqrt_coe, if_neg (not_lt.2 hpos.le), ← EReal.coe_one,
      div_real _ _ hs, one_div]
  have hinvT : invT bt h g = (((Real.sqrt (v + e))⁻¹ : ℝ) : EReal) := by
    unfold invT
    rw [hv, hvS, he, ← EReal.coe_add, Ideal.rsqrt_coe, if_neg (not_lt.2 hpos.le), if_neg hpos.ne']
  exact ⟨hinvT.trans hinvS.symm, _, hinvS⟩

/-- The two per-graph norms of a real table agree. -/
theorem lnT_eq_lnS (bt : Ids) (hbt : ∀ n, (bt n).toNat < 256) (h : Mat 100000 64) (hh : Real2 h) (w β : EReal) :
    lnT bt h w β = lnS bt h w β := by
  funext n c
  unfold lnT lnS
  rw [pickT_eq bt _ n (hbt n), pickT_eq bt _ n (hbt n), meanT_eq_meanS, (invT_eq_invS bt hbt h hh _).1]

/-- The norm of a real table with real gain and bias is a real table. -/
theorem lnS_real (bt : Ids) (hbt : ∀ n, (bt n).toNat < 256) (h : Mat 100000 64) (hh : Real2 h) (w β : EReal)
    (hw : ∃ r : ℝ, w = (r : EReal)) (hβ : ∃ r : ℝ, β = (r : EReal)) : Real2 (lnS bt h w β) := by
  intro n c
  obtain ⟨x, hx⟩ := hh n c
  obtain ⟨m, hm⟩ := meanS_real bt h hh (graphOf bt n)
  obtain ⟨i, hi⟩ := (invT_eq_invS bt hbt h hh (graphOf bt n)).2
  obtain ⟨w', rfl⟩ := hw
  obtain ⟨b', rfl⟩ := hβ
  refine ⟨max ((x - m) * i * w' + b') 0, ?_⟩
  unfold lnS
  rw [hx, hm, hi, ← EReal.coe_sub, ← EReal.coe_mul, ← EReal.coe_mul, ← EReal.coe_add, coe_max_real,
    EReal.coe_zero]

end Cert.Spec

end
-- ==== Proof.MathChain.lean ====
/-
  The layer by tiles is the layer by segments, for real arguments and ids in range. Real numbers are closed under the
  affine maps and under finite sums, so the aggregate table, both affine maps' values and the residual are real tables;
  on real tables the two norms agree; the per-graph means agree outright.
-/
import proofs.«409760_j63745904607323_2_alg».proof.Proof.Args
import proofs.«409760_j63745904607323_2_alg».proof.Proof.MathVar

open scoped BigOperators

noncomputable section

namespace Cert.Spec

/-- A finite sum of reals is real. -/
theorem sum_real {ι : Type} (s : Finset ι) (f : ι → EReal) (hf : ∀ i ∈ s, ∃ r : ℝ, f i = (r : EReal)) :
    ∃ r : ℝ, ∑ i ∈ s, f i = (r : EReal) := by
  classical
  revert hf
  refine Finset.induction_on s ?_ ?_
  · intro _
    exact ⟨0, by simp⟩
  · intro a s ha ih hf
    obtain ⟨r, hr⟩ := ih (fun i hi => hf i (Finset.mem_insert_of_mem hi))
    obtain ⟨q, hq⟩ := hf a (Finset.mem_insert_self a s)
    exact ⟨q + r, by rw [Finset.sum_insert ha, hq, hr, EReal.coe_add]⟩

theorem gin_real (x a : Mat 100000 64) (W : Mat 64 64) (b : Fin 64 → EReal) (hx : Real2 x) (ha : Real2 a)
    (hW : ∀ k c, ∃ r : ℝ, W k c = (r : EReal)) (hb : ∀ c, ∃ r : ℝ, b c = (r : EReal)) : Real2 (gin x a W b) := by
  intro n c
  obtain ⟨bb, hbb⟩ := hb c
  obtain ⟨s, hs⟩ := sum_real Finset.univ (fun k : Fin 64 => (2 * x n k + a n k) * W k c) (by
    intro k _
    obtain ⟨xr, hxr⟩ := hx n k
    obtain ⟨ar, har⟩ := ha n k
    obtain ⟨wr, hwr⟩ := hW k c
    have h2 : (2 : EReal) = ((2 : ℝ) : EReal) := rfl
    exact ⟨(2 * xr + ar) * wr, by
      rw [hxr, har, hwr, h2, ← EReal.coe_mul, ← EReal.coe_add, ← EReal.coe_mul]⟩)
  refine ⟨s + bb, ?_⟩
  show (∑ k : Fin 64, (2 * x n k + a n k) * W k c) + b c = _
  rw [hbb, EReal.coe_add, ← hs]

theorem ffn_real (x : Mat 100000 64) (W : Mat 64 64) (b : Fin 64 → EReal) (hx : Real2 x)
    (hW : ∀ k c, ∃ r : ℝ, W k c = (r : EReal)) (hb : ∀ c, ∃ r : ℝ, b c = (r : EReal)) : Real2 (ffn x W b) := by
  intro n c
  obtain ⟨bb, hbb⟩ := hb c
  obtain ⟨s, hs⟩ := sum_real Finset.univ (fun k : Fin 64 => x n k * W k c) (by
    intro k _
    obtain ⟨xr, hxr⟩ := hx n k
    obtain ⟨wr, hwr⟩ := hW k c
    exact ⟨xr * wr, by rw [hxr, hwr, ← EReal.coe_mul]⟩)
  refine ⟨s + bb, ?_⟩
  show (∑ k : Fin 64, x n k * W k c) + b c = _
  rw [hbb, EReal.coe_add, ← hs]

theorem agg_real (x : Mat 100000 64) (src dst : Fin 1200000 → BitVec 32) (hx : Real2 x) : Real2 (agg x src dst) := by
  intro n c
  exact sum_real _ (fun e : Fin 1200000 => x (srcOf src e) c) (fun e _ => hx (srcOf src e) c)

end Cert.Spec

namespace Cert.Args

open Cert.Spec

variable (A : Args)

/-- The layer's node table, by tiles and by segments. -/
theorem outT_eq_outS (hf : A.Finite) (hr : A.InRange) : A.outT = A.outS := by
  have hbt : ∀ n, (A.ids n).toNat < 256 := hr
  have hX : Real2 A.X := fun n k => hf.x _
  have hA : Real2 A.AGG := agg_real _ _ _ hX
  have hG : Real2 (gin A.X A.AGG A.WG A.BG) :=
    gin_real _ _ _ _ hX hA (fun k c => hf.Wg _) (fun c => hf.bg _)
  have h1 : x1T A.ids A.X A.AGG A.WG A.BG A.g1 A.β1 = x1S A.ids A.X A.AGG A.WG A.BG A.g1 A.β1 := by
    funext n c
    unfold x1T x1S h1T
    rw [lnT_eq_lnS A.ids hbt _ hG]
  have hx1 : Real2 (x1S A.ids A.X A.AGG A.WG A.BG A.g1 A.β1) := by
    intro n c
    obtain ⟨xr, hxr⟩ := hX n c
    obtain ⟨lr, hlr⟩ := lnS_real A.ids hbt _ hG A.g1 A.β1 (hf.w1 _) (hf.b1 _) n c
    exact ⟨xr + lr, by unfold x1S; rw [hxr, hlr, EReal.coe_add]⟩
  have hF : Real2 (ffn (x1S A.ids A.X A.AGG A.WG A.BG A.g1 A.β1) A.WF A.BF) :=
    ffn_real _ _ _ hx1 (fun k c => hf.Wf _) (fun c => hf.bf _)
  unfold Args.outT Args.outS Spec.outT Spec.outS
  rw [h1, lnT_eq_lnS A.ids hbt _ hF]

/-- The layer's per-graph means, by tiles and by segments. -/
theorem poolT_eq_poolS (hf : A.Finite) (hr : A.InRange) : A.poolT = A.poolS := by
  unfold poolT poolS; rw [outT_eq_outS A hf hr, Cert.Spec.poolT_eq_poolS]

end Cert.Args

end
-- ==== Proof.PreFacts.lean ====
/-
  What the precondition says of the argument arrays: each float array's absolute values are below +∞ everywhere, so every
  float entry is a real number; and every graph id is at least 0 and below 256 as a signed word, so its unsigned value is
  below 256.
-/
import proofs.«409760_j63745904607323_2_alg».proof.Pre_finite_inputs
import proofs.«409760_j63745904607323_2_alg».proof.Proof.Args
import Idealize.ShloMosaic.Lib.ReduceAll
import Idealize.ShloMosaic.Lib.StableHlo.Predicate
import Idealize.ShloMosaic.Lib.KernelVsHost

noncomputable section

namespace Cert.PreFacts

open Idealize.ShloMosaic Idealize.ShloMosaic.ValueIdx

/-- An extended real whose absolute value is below +∞ is neither infinity, so it is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  rw [← Ideal.xori_weird_eq_hostAbsf_olt_inf] at h
  have hw : FloatOps.weird (F := Ideal) (x : Ideal .f32) = BitVec.ofBool (decide (x = ⊤ ∨ x = ⊥)) := rfl
  rw [hw] at h
  by_cases hx : x = ⊤ ∨ x = ⊥
  · exfalso
    rw [decide_eq_true hx] at h
    revert h
    decide
  · induction x using EReal.rec with
    | bot => exact absurd (Or.inr rfl) hx
    | top => exact absurd (Or.inl rfl) hx
    | coe r => exact ⟨r, rfl⟩

/-- A 32-bit word that is at least 0 and below 256 when read signed is below 256 when read unsigned: a signed value
    that is not negative is the unsigned value. -/
theorem toNat_lt_of_signed (w : BitVec 32) (h0 : IntOp.cmpi .sge w 0#32 = 1#1) (h1 : IntOp.cmpi .slt w 256#32 = 1#1) :
    w.toNat < 256 := by
  have a : (0#32).toInt ≤ w.toInt := IntOp.cmpi_sge.1 h0
  have b : w.toInt < (256#32).toInt := IntOp.cmpi_slt.1 h1
  have z : (0#32).toInt = 0 := by decide
  have t : (256#32).toInt = 256 := by decide
  rw [z] at a
  rw [t] at b
  have hlt := w.isLt
  rw [BitVec.toInt_eq_toNat_cond] at a b
  split at a <;> omega

/-- The precondition, all ones, gives: every float entry real, every graph id in 0 … 255. -/
theorem of_pre [Cert.Pre_finite_inputs.Facts] (A : Cert.Args)
    (h : Cert.Pre_finite_inputs.fn (F := Ideal) A.x A.ei A.bt A.Wg A.bg A.w1 A.b1 A.Wf A.bf A.w2 A.b2 = (fun _ => 1#1)) :
    A.Finite ∧ A.InRange := by
  haveI : Subsingleton Cert.Pre_finite_inputs.S_.Idx := ⟨fun a b => funext fun d => d.elim0⟩
  have e := congrFun h ValueIdx.ix0
  unfold Cert.Pre_finite_inputs.fn Cert.Pre_finite_inputs.fn_part1 Cert.Pre_finite_inputs.fn_part2 at e
  simp only [andi, IntOp.andi_eq_one] at e
  obtain ⟨⟨⟨⟨⟨⟨⟨⟨⟨hx, hWg⟩, hbg⟩, hw1⟩, hb1⟩, hWf⟩, hbf⟩, hw2⟩, hb2⟩, hbt⟩ := e
  refine ⟨⟨?_, ?_, ?_, ?_, ?_, ?_, ?_, ?_, ?_⟩, ?_⟩
  · intro i; exact real_of_abs_lt_inf _ (Host.reduce_andi_all _ _ _ _ _ hx i)
  · intro i; exact real_of_abs_lt_inf _ (Host.reduce_andi_all _ _ _ _ _ hWg i)
  · intro i; exact real_of_abs_lt_inf _ (Host.reduce_andi_all _ _ _ _ _ hbg i)
  · intro i; exact real_of_abs_lt_inf _ (Host.reduce_andi_all _ _ _ _ _ hw1 i)
  · intro i; exact real_of_abs_lt_inf _ (Host.reduce_andi_all _ _ _ _ _ hb1 i)
  · intro i; exact real_of_abs_lt_inf _ (Host.reduce_andi_all _ _ _ _ _ hWf i)
  · intro i; exact real_of_abs_lt_inf _ (Host.reduce_andi_all _ _ _ _ _ hbf i)
  · intro i; exact real_of_abs_lt_inf _ (Host.reduce_andi_all _ _ _ _ _ hw2 i)
  · intro i; exact real_of_abs_lt_inf _ (Host.reduce_andi_all _ _ _ _ _ hb2 i)
  · intro n
    have hn := Host.reduce_andi_all _ _ _ _ _ hbt (ix1 n)
    obtain ⟨h0, h1⟩ := IntOp.andi_eq_one.1 hn
    exact toNat_lt_of_signed _ h0 h1

end Cert.PreFacts

end
-- ==== Proof.Assembly.lean ====
/-
  The five claims. The two kernel programs' frames are the generated ones; the reference's frame is its generated run with
  the results dropped; the idealization rewrote nothing, so `preserves` is trivial. For the value claim: the kernel
  program's run ends with its two result buffers at the last boundary's contents, which are the layer by tiles of the
  argument arrays; the reference's run ends with its results at the layer by segments of its argument arrays; the
  precondition makes every float argument real and every graph id one of 0 … 255, where the layer by tiles IS the layer by
  segments; and the two programs' argument arrays agree.
-/
import proofs.«409760_j63745904607323_2_alg».proof.Defs
import proofs.«409760_j63745904607323_2_alg».proof.Proof.Gen.Kernel
import proofs.«409760_j63745904607323_2_alg».proof.Proof.Gen.Kernel.Frame
import proofs.«409760_j63745904607323_2_alg».proof.Proof.Gen.KernelIdeal
import proofs.«409760_j63745904607323_2_alg».proof.Proof.Gen.KernelIdeal.Frame
import proofs.«409760_j63745904607323_2_alg».proof.Proof.Gen.ReferenceIdeal
import proofs.«409760_j63745904607323_2_alg».proof.Proof.Gen.ReferenceIdeal.Run
import proofs.«409760_j63745904607323_2_alg».proof.Proof.Gen.ReferenceIdeal.Read
import proofs.«409760_j63745904607323_2_alg».proof.Proof.Gen.Pre_finite_inputs
import proofs.«409760_j63745904607323_2_alg».proof.Proof.RunValues
import proofs.«409760_j63745904607323_2_alg».proof.Proof.KChain
import proofs.«409760_j63745904607323_2_alg».proof.Proof.RefOut
import proofs.«409760_j63745904607323_2_alg».proof.Proof.MathChain
import proofs.«409760_j63745904607323_2_alg».proof.Proof.PreFacts

noncomputable section

namespace Cert.Proof.Claims

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The idealization's ledger is empty. -/
theorem preserves : Cert.preserves_Kernel_KernelIdeal := trivial

/-- The reference's argument arrays at launch, as one record. -/
def argsR (m' : (ℓ : Loc Cert.ReferenceIdeal.nD Cert.ReferenceIdeal.τ Cert.ReferenceIdeal.sig) → Buf (Elt Ideal) ℓ)
    (c : Dev Cert.ReferenceIdeal.nD) : Cert.Args where
  x  := m' ((c.tc : Thread Cert.ReferenceIdeal.nD Cert.ReferenceIdeal.τ).loc Cert.ReferenceIdeal.main_arg0)
  ei := m' ((c.tc : Thread Cert.ReferenceIdeal.nD Cert.ReferenceIdeal.τ).loc Cert.ReferenceIdeal.main_arg1)
  bt := m' ((c.tc : Thread Cert.ReferenceIdeal.nD Cert.ReferenceIdeal.τ).loc Cert.ReferenceIdeal.main_arg2)
  Wg := m' ((c.tc : Thread Cert.ReferenceIdeal.nD Cert.ReferenceIdeal.τ).loc Cert.ReferenceIdeal.main_arg3)
  bg := m' ((c.tc : Thread Cert.ReferenceIdeal.nD Cert.ReferenceIdeal.τ).loc Cert.ReferenceIdeal.main_arg4)
  w1 := m' ((c.tc : Thread Cert.ReferenceIdeal.nD Cert.ReferenceIdeal.τ).loc Cert.ReferenceIdeal.main_arg5)
  b1 := m' ((c.tc : Thread Cert.ReferenceIdeal.nD Cert.ReferenceIdeal.τ).loc Cert.ReferenceIdeal.main_arg6)
  Wf := m' ((c.tc : Thread Cert.ReferenceIdeal.nD Cert.ReferenceIdeal.τ).loc Cert.ReferenceIdeal.main_arg7)
  bf := m' ((c.tc : Thread Cert.ReferenceIdeal.nD Cert.ReferenceIdeal.τ).loc Cert.ReferenceIdeal.main_arg8)
  w2 := m' ((c.tc : Thread Cert.ReferenceIdeal.nD Cert.ReferenceIdeal.τ).loc Cert.ReferenceIdeal.main_arg9)
  b2 := m' ((c.tc : Thread Cert.ReferenceIdeal.nD Cert.ReferenceIdeal.τ).loc Cert.ReferenceIdeal.main_arg10)

section value

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)
  (hA : argsR m' c = Cert.KernelIdeal.KChain.argsK m c)
  (hf : (Cert.KernelIdeal.KChain.argsK m c).Finite) (hr : (Cert.KernelIdeal.KChain.argsK m c).InRange)

include hA hf hr

/-- The reference's node table is the kernel program's. -/
theorem res0_eq :
    (Cert.ReferenceIdeal.Value.res_main_v125 m' c : FVec Ideal ⟨2, ![100000, 64]⟩ .f32)
      = (Cert.KernelIdeal.Gen.W13 m ρ c (Proc.devRef .tc Cert.KernelIdeal.main_v63_0) : FVec Ideal ⟨2, ![100000, 64]⟩ .f32) := by
  funext i
  rw [eq_ix2 i, Cert.ReferenceIdeal.Read.val_main_v125_eq]
  refine ((Cert.RefOut.out_apply (argsR m' c) (i 0) (i 1)).trans ?_).trans (Cert.KernelIdeal.KChain.out_eq m ρ c (i 0) (i 1)).symm
  rw [hA, Cert.Args.outT_eq_outS _ hf hr]

/-- The reference's per-graph means are the kernel program's. -/
theorem res1_eq :
    (Cert.ReferenceIdeal.Value.res_main_v136 m' c : FVec Ideal ⟨2, ![256, 64]⟩ .f32)
      = (Cert.KernelIdeal.Gen.W13 m ρ c (Proc.devRef .tc Cert.KernelIdeal.main_v68) : FVec Ideal ⟨2, ![256, 64]⟩ .f32) := by
  funext i
  rw [eq_ix2 i, Cert.ReferenceIdeal.Read.val_main_v136_eq]
  refine ((Cert.RefOut.pool_apply (argsR m' c) (i 0) (i 1)).trans ?_).trans (Cert.KernelIdeal.KChain.pool_eq m ρ c (i 0) (i 1)).symm
  rw [hA, Cert.Args.poolT_eq_poolS _ hf hr]

end value

theorem algebraic : Cert.algebraic_KernelIdeal_ReferenceIdeal := by
  intro m ρ m' ρ' hpre hagree
  have hargs : ∀ c, argsR m' c = Cert.KernelIdeal.KChain.argsK m c := fun c => by
    obtain ⟨h0, h1, h2, h3, h4, h5, h6, h7, h8, h9, h10⟩ := hagree c
    unfold argsR Cert.KernelIdeal.KChain.argsK
    rw [h0, h1, h2, h3, h4, h5, h6, h7, h8, h9, h10]
  have hfacts : ∀ c, (Cert.KernelIdeal.KChain.argsK m c).Finite ∧ (Cert.KernelIdeal.KChain.argsK m c).InRange :=
    fun c => Cert.PreFacts.of_pre (Cert.KernelIdeal.KChain.argsK m c) (hpre c)
  refine ⟨fun c => Cert.KernelIdeal.Gen.W13 m ρ c (Proc.devRef .tc Cert.KernelIdeal.main_v63_0),
    fun c => Cert.KernelIdeal.Gen.W13 m ρ c (Proc.devRef .tc Cert.KernelIdeal.main_v68),
    Cert.KernelIdeal.Gen.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact res0_eq m ρ m' c (hargs c) (hfacts c).1 (hfacts c).2
  · exact res1_eq m ρ m' c (hargs c) (hfacts c).1 (hfacts c).2

end Cert.Proof.Claims

end
-- ==== Proof.lean ====
/-
  One layer of a graph network on 100000 nodes of 64 channels in 256 graphs: the affine map (2·x + a)·W + b of the node table
  and its aggregate along the edges, a layer norm per graph over all nodes and channels of the graph clamped below at zero,
  the residual, a second affine map, a second per-graph norm clamped below at zero, and the per-graph means of the result.
  The kernel program computes the per-graph sums tile by tile through 0/1 rows (three kernel regions, the tile parts added
  between them), takes each variance as mean of squares minus square of the mean clamped at zero, and scales by the
  reciprocal square root; the reference sums over each graph's nodes, takes the variance as the mean of squared deviations,
  and scales by one over the square root. Over the extended reals the two agree when every float argument is a real number
  and every graph id is one of 0 … 255: sums by tiles are sums by segments, a 0/1 row picks the entry at the node's graph,
  the two variances agree on real tables, and on a positive real the reciprocal square root is one over the square root.
  The modules: Spec (both formulas), MathSums / MathVar / MathChain (their equality), KReg0–2, KHost0, KHost123, KChain (the
  kernel program's results are the formulas by tiles), RefA, RefB, RefOut (the reference's are the formulas by segments),
  PreFacts (what the precondition gives), Assembly (the five claims).
-/
import proofs.«409760_j63745904607323_2_alg».proof.Defs
import proofs.«409760_j63745904607323_2_alg».proof.Proof.Gen.Kernel
import proofs.«409760_j63745904607323_2_alg».proof.Proof.Gen.Kernel.Skeleton
import proofs.«409760_j63745904607323_2_alg».proof.Proof.Gen.Kernel.Launch
import proofs.«409760_j63745904607323_2_alg».proof.Proof.Gen.Kernel.Points
import proofs.«409760_j63745904607323_2_alg».proof.Proof.Gen.Kernel.Frame
import proofs.«409760_j63745904607323_2_alg».proof.Proof.Gen.KernelIdeal
import proofs.«409760_j63745904607323_2_alg».proof.Proof.Gen.KernelIdeal.Skeleton
import proofs.«409760_j63745904607323_2_alg».proof.Proof.Gen.KernelIdeal.Launch
import proofs.«409760_j63745904607323_2_alg».proof.Proof.Gen.KernelIdeal.Points
import proofs.«409760_j63745904607323_2_alg».proof.Proof.Gen.KernelIdeal.Frame
import proofs.«409760_j63745904607323_2_alg».proof.Proof.Gen.ReferenceIdeal
import proofs.«409760_j63745904607323_2_alg».proof.Proof.Gen.ReferenceIdeal.Run
import proofs.«409760_j63745904607323_2_alg».proof.Proof.Gen.ReferenceIdeal.Read
import proofs.«409760_j63745904607323_2_alg».proof.Proof.Gen.Pre_finite_inputs
import proofs.«409760_j63745904607323_2_alg».proof.Proof.Assembly
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
